-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x4096 : Shape := ⟨3, ![32, 8, 4096]⟩
abbrev S11008x4096 : Shape := ⟨2, ![11008, 4096]⟩
abbrev S11008 : Shape := ⟨1, ![11008]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩

class Facts : Prop where
  bcast_S_S32x8x4096 : S_.BroadcastsInDim S32x8x4096 (![] : Fin 0 → Fin S32x8x4096.rank)
  reducesTo_S32x8x4096_S_d0_1_2 : S32x8x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_

variable [Facts]

def fn_part1 {F : FTy → Type} [FloatOps F] (main_arg3 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg3 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  let main_v21 : IVec S4096x1 32 := broadcastInDim S4096x1 ![0] bcast_S4096_S4096x1_0 main_arg3
  let main_v22 : IVec S1x4096 32 := broadcastInDim S1x4096 ![1] bcast_S4096_S1x4096_1 main_arg3
  let main_v23 : IVec S4096x4096 32 := broadcastInDim S4096x4096 ![0, 1] bcast_S4096x1_S4096x4096_0_1 main_v21
  let main_v24 : IVec S4096x4096 32 := broadcastInDim S4096x4096 ![0, 1] bcast_S1x4096_S4096x4096_0_1 main_v22
  let main_v25 : IVec S4096x4096 1 := cmpi .ne main_v23 main_v24
  let main_v26 : IVec S4096 32 := iotaInDim S4096 32 0
  let main_v27 : IVec S4096x1 32 := broadcastInDim S4096x1 ![0] bcast_S4096_S4096x1_0 main_v26
  let main_v28 : IVec S4096 32 := iotaInDim S4096 32 0
  let main_v29 : IVec S1x4096 32 := broadcastInDim S1x4096 ![1] bcast_S4096_S1x4096_1 main_v28
  let main_v30 : IVec S4096x4096 32 := broadcastInDim S4096x4096 ![0, 1] bcast_S4096x1_S4096x4096_0_1 main_v27
  let main_v31 : IVec S4096x4096 32 := broadcastInDim S4096x4096 ![0, 1] bcast_S1x4096_S4096x4096_0_1 main_v29
  let main_v32 : IVec S4096x4096 1 := cmpi .eq main_v30 main_v31
  let main_v33 : IVec S4096x4096 1 := ori main_v25 main_v32
  let main_c_7 : IVec S_ 1 := constantI S_ 1 1#1
  let main_v34 : IVec S_ 1 := (fun x v => Host.reduce IntOp.andi x v reducesTo_S4096x4096_S_d0_1 h_S_) main_v33 main_c_7
  let main_v35 : IVec S_ 1 := andi main_v20 main_v34
  main_v35

def fn {F : FTy → Type} [FloatOps F] (main_arg0 : FVec F S32x8x4096 .f32) (main_arg1 : FVec F S11008x4096 .f32) (main_arg2 : FVec F S11008 .f32) (main_arg3 : IVec S4096 32) : IVec S_ 1 :=
  let main_v0 : FVec F S32x8x4096 .f32 := Host.absf main_arg0
  let main_cst : FVec F S_ .f32 := constant S_ .f32 0x7F800000#32
  let main_v1 : FVec F S32x8x4096 .f32 := broadcastInDim S32x8x4096 ![] bcast_S_S32x8x4096 main_cst
  let main_v2 : IVec S32x8x4096 1 := cmpf .olt main_v0 main_v1
  let main_c : IVec S_ 1 := constantI S_ 1 1#1
  let main_v3 : IVec S_ 1 := (fun x v => Host.reduce IntOp.andi x v reducesTo_S32x8x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg3 main_v14
  let main_c_5 : IVec S_ 32 := constantI S_ 32 4096#32
  fn_part1 (F := F) main_arg3 main_v13 main_v15 main_c_5
-- ==== Kernel.lean ====
abbrev S32x8x4096 : Shape := ⟨3, ![32, 8, 4096]⟩
abbrev S11008x4096 : Shape := ⟨2, ![11008, 4096]⟩
abbrev S11008 : Shape := ⟨1, ![11008]⟩
abbrev S4096 : Shape := ⟨1, ![4096]⟩
abbrev S256x4096 : Shape := ⟨2, ![256, 4096]⟩
abbrev S_ : Shape := ⟨0, ![]⟩
abbrev S4096x1 : Shape := ⟨2, ![4096, 1]⟩
abbrev S1x4096 : Shape := ⟨2, ![1, 4096]⟩
abbrev S256 : Shape := ⟨1, ![256]⟩
abbrev S256x1 : Shape := ⟨2, ![256, 1]⟩
abbrev S1x11008 : Shape := ⟨2, ![1, 11008]⟩
abbrev S256x11008 : Shape := ⟨2, ![256, 11008]⟩
abbrev S128x4096 : Shape := ⟨2, ![128, 4096]⟩
abbrev S1x128 : Shape := ⟨2, ![1, 128]⟩
abbrev S256x128 : Shape := ⟨2, ![256, 128]⟩
abbrev S128 : Shape := ⟨1, ![128]⟩
abbrev S128x1 : Shape := ⟨2, ![128, 1]⟩
abbrev S32x8x11008 : Shape := ⟨3, ![32, 8, 11008]⟩

abbrev nBuf : Space → Nat
  | .hbm => 136
  | .vmem => 10
  | .smem => 0
  | _ => 0

abbrev hbmTy0_0 (i : Nat) : BufTy := match i % 128 with
  | 0 => ⟨S32x8x4096, .f32⟩
  | 1 => ⟨S11008x4096, .f32⟩
  | 2 => ⟨S11008, .f32⟩
  | 3 => ⟨S4096, .i32⟩
  | 4 => ⟨S256x4096, .f32⟩
  | 5 => ⟨S_, .i32⟩
  | 6 => ⟨S4096, .i32⟩
  | 7 => ⟨S4096, .i32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i1⟩
  | 23 => ⟨S_, .i32⟩
  | 24 => ⟨S_, .i32⟩
  | 25 => ⟨S4096, .i32⟩
  | 26 => ⟨S4096, .i32⟩
  | 27 => ⟨S4096, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i1⟩
  | 34 => ⟨S4096, .f32⟩
  | 35 => ⟨S1x4096, .f32⟩
  | 36 => ⟨S_, .i32⟩
  | 37 => ⟨S4096, .i32⟩
  | 38 => ⟨S4096, .i1⟩
  | 39 => ⟨S4096, .f32⟩
  | 40 => ⟨S1x4096, .f32⟩
  | 41 => ⟨S_, .i32⟩
  | 42 => ⟨S4096, .i32⟩
  | 43 => ⟨S4096, .i1⟩
  | 44 => ⟨S4096, .f32⟩
  | 45 => ⟨S1x4096, .f32⟩
  | 46 => ⟨S256x4096, .f32⟩
  | 47 => ⟨S256x4096, .f32⟩
  | 48 => ⟨S256x4096, .f32⟩
  | 49 => ⟨S_, .f32⟩
  | 50 => ⟨S256, .f32⟩
  | 51 => ⟨S256x1, .f32⟩
  | 52 => ⟨S_, .f32⟩
  | 53 => ⟨S256x1, .f32⟩
  | 54 => ⟨S256x1, .f32⟩
  | 55 => ⟨S_, .f32⟩
  | 56 => ⟨S256x1, .f32⟩
  | 57 => ⟨S256x1, .i1⟩
  | 58 => ⟨S_, .f32⟩
  | 59 => ⟨S256x1, .f32⟩
  | 60 => ⟨S256x1, .f32⟩
  | 61 => ⟨S256x4096, .f32⟩
  | 62 => ⟨S256x4096, .f32⟩
  | 63 => ⟨S_, .f32⟩
  | 64 => ⟨S_, .f32⟩
  | 65 => ⟨S_, .f32⟩
  | 66 => ⟨S256x4096, .f32⟩
  | 67 => ⟨S256x4096, .f32⟩
  | 68 => ⟨S_, .f32⟩
  | 69 => ⟨S256x4096, .f32⟩
  | 70 => ⟨S256x4096, .f32⟩
  | 71 => ⟨S256x4096, .f32⟩
  | 72 => ⟨S256x4096, .f32⟩
  | 73 => ⟨S256x4096, .f32⟩
  | 74 => ⟨S256x4096, .f32⟩
  | 75 => ⟨S256x4096, .f32⟩
  | 76 => ⟨S256x4096, .f32⟩
  | 77 => ⟨S_, .f32⟩
  | 78 => ⟨S256, .f32⟩
  | 79 => ⟨S256x1, .f32⟩
  | 80 => ⟨S_, .f32⟩
  | 81 => ⟨S256x1, .f32⟩
  | 82 => ⟨S256x1, .f32⟩
  | 83 => ⟨S_, .f32⟩
  | 84 => ⟨S256x1, .f32⟩
  | 85 => ⟨S256x1, .i1⟩
  | 86 => ⟨S_, .f32⟩
  | 87 => ⟨S256x1, .f32⟩
  | 88 => ⟨S256x1, .f32⟩
  | 89 => ⟨S256x4096, .f32⟩
  | 90 => ⟨S256x4096, .f32⟩
  | 91 => ⟨S_, .f32⟩
  | 92 => ⟨S_, .f32⟩
  | 93 => ⟨S_, .f32⟩
  | 94 => ⟨S256x4096, .f32⟩
  | 95 => ⟨S256x4096, .f32⟩
  | 96 => ⟨S_, .f32⟩
  | 97 => ⟨S256x4096, .f32⟩
  | 98 => ⟨S256x4096, .f32⟩
  | 99 => ⟨S256x4096, .f32⟩
  | 100 => ⟨S256x4096, .f32⟩
  | 101 => ⟨S256x4096, .f32⟩
  | 102 => ⟨S256x4096, .f32⟩
  | 103 => ⟨S256x4096, .f32⟩
  | 104 => ⟨S256x4096, .f32⟩
  | 105 => ⟨S256x4096, .f32⟩
  | 106 => ⟨S_, .f32⟩
  | 107 => ⟨S256, .f32⟩
  | 108 => ⟨S256x1, .f32⟩
  | 109 => ⟨S_, .f32⟩
  | 110 => ⟨S256x1, .f32⟩
  | 111 => ⟨S256x1, .f32⟩
  | 112 => ⟨S_, .f32⟩
  | 113 => ⟨S256x1, .f32⟩
  | 114 => ⟨S256x1, .i1⟩
  | 115 => ⟨S_, .f32⟩
  | 116 => ⟨S256x1, .f32⟩
  | 117 => ⟨S256x1, .f32⟩
  | 118 => ⟨S256x4096, .f32⟩
  | 119 => ⟨S256x4096, .f32⟩
  | 120 => ⟨S_, .f32⟩
  | 121 => ⟨S_, .f32⟩
  | 122 => ⟨S_, .f32⟩
  | 123 => ⟨S256x4096, .f32⟩
  | 124 => ⟨S256x4096, .f32⟩
  | 125 => ⟨S_, .f32⟩
  | 126 => ⟨S256x4096, .f32⟩
  | 127 => ⟨S256x4096, .f32⟩
  | _ => ⟨S32x8x4096, .f32⟩

abbrev hbmTy0_1 (i : Nat) : BufTy := match i % 128 with
  | 0 => ⟨S256x4096, .f32⟩
  | 1 => ⟨S256x4096, .f32⟩
  | 2 => ⟨S256x4096, .f32⟩
  | 3 => ⟨S256x4096, .f32⟩
  | 4 => ⟨S256x4096, .bf16⟩
  | 5 => ⟨S1x11008, .f32⟩
  | 6 => ⟨S256x11008, .f32⟩
  | 7 => ⟨S32x8x11008, .f32⟩
  | _ => ⟨S32x8x4096, .f32⟩

abbrev hbmTy (i : Nat) : BufTy := match i / 128 with
  | 0 => hbmTy0_0 i
  | 1 => hbmTy0_1 i
  | _ => ⟨S32x8x4096, .f32⟩

abbrev bufTy : (tb : Table) → Fin (tcTables nBuf tb) → BufTy
  | .hbm, ⟨i, _⟩ => hbmTy i
  | .local _ .vmem, ⟨0, _⟩ => ⟨S256x4096, .bf16⟩
  | .local _ .vmem, ⟨1, _⟩ => ⟨S128x4096, .f32⟩
  | .local _ .vmem, ⟨2, _⟩ => ⟨S128x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S32x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_c_5 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c_6 : Ref sig .tc := ⟨.hbm, 28, rfl⟩
abbrev main_call1_v0 : Ref sig .tc := ⟨.hbm, 29, rfl⟩
abbrev main_v15 : Ref sig .tc := ⟨.hbm, 30, rfl⟩
abbrev main_c_7 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_8 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_13 : Ref sig .tc := ⟨.hbm, 63, rfl⟩
abbrev main_cst_14 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_15 : Ref sig .tc := ⟨.hbm, 77, rfl⟩
abbrev main_v48 : Ref sig .tc := ⟨.hbm, 78, rfl⟩
abbrev main_v49 : Ref sig .tc := ⟨.hbm, 79, rfl⟩
abbrev main_cst_16 : Ref sig .tc := ⟨.hbm, 80, rfl⟩
abbrev main_v50 : Ref sig .tc := ⟨.hbm, 81, rfl⟩
abbrev main_v51 : Ref sig .tc := ⟨.hbm, 82, rfl⟩
abbrev main_cst_17 : Ref sig .tc := ⟨.hbm, 83, rfl⟩
abbrev main_v52 : Ref sig .tc := ⟨.hbm, 84, rfl⟩
abbrev main_v53 : Ref sig .tc := ⟨.hbm, 85, rfl⟩
abbrev main_cst_18 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_19 : Ref sig .tc := ⟨.hbm, 91, rfl⟩
abbrev main_cst_20 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_21 : Ref sig .tc := ⟨.hbm, 106, rfl⟩
abbrev main_v66 : Ref sig .tc := ⟨.hbm, 107, rfl⟩
abbrev main_v67 : Ref sig .tc := ⟨.hbm, 108, rfl⟩
abbrev main_cst_22 : Ref sig .tc := ⟨.hbm, 109, rfl⟩
abbrev main_v68 : Ref sig .tc := ⟨.hbm, 110, rfl⟩
abbrev main_v69 : Ref sig .tc := ⟨.hbm, 111, rfl⟩
abbrev main_cst_23 : Ref sig .tc := ⟨.hbm, 112, rfl⟩
abbrev main_v70 : Ref sig .tc := ⟨.hbm, 113, rfl⟩
abbrev main_v71 : Ref sig .tc := ⟨.hbm, 114, rfl⟩
abbrev main_cst_24 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_25 : Ref sig .tc := ⟨.hbm, 120, rfl⟩
abbrev main_cst_26 : Ref sig .tc := ⟨.hbm, 121, rfl⟩
abbrev main_call9_v0 : Ref sig .tc := ⟨.hbm, 122, rfl⟩
abbrev main_call9_v1 : Ref sig .tc := ⟨.hbm, 123, rfl⟩
abbrev main_call9_v2 : Ref sig .tc := ⟨.hbm, 124, rfl⟩
abbrev main_call9_v3 : Ref sig .tc := ⟨.hbm, 125, rfl⟩
abbrev main_call9_v4 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x8x4096_S256x4096 : S32x8x4096.ShapeCasts S256x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  reducesTo_S256x4096_S256_d1 : S256x4096.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x4096_0_1 : S256x1.BroadcastsInDim S256x4096 (![0, 1] : Fin 2 → Fin S256x4096.rank)
  bcast_S_S256x4096 : S_.BroadcastsInDim S256x4096 (![] : Fin 0 → Fin S256x4096.rank)
  bitsLt_bf16_f32 : FTy.bits .bf16 < FTy.bits .f32
  shapeCasts_S11008_S1x11008 : S11008.ShapeCasts S1x11008
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S256x11008_S32x8x11008 : S256x11008.ShapeCasts S32x8x11008
  scatter_S4096_S4096x1_S4096_n_0_0_1_wf : ScatterDims.WF S4096 S4096x1 S4096 [] [0] [0] 1
  dot_S256x4096_S128x4096_S256x128_1_1_0_0_n_n_wf : DotDims.WF S256x4096 S128x4096 S256x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .f32 = 32 ∨ (Rect.block (s := S11008x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x11008.size a
  hwx0_5 : ∀ i : grid0.Coords, EltTy.bits .f32 = 32 ∨ (Rect.block (s := S1x11008) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x11008.size a
  hwx0_6 : ∀ i : grid0.Coords, EltTy.bits .f32 = 32 ∨ (Rect.block (s := S256x11008) S256x128.size (cc0_transform_6 i) (hinb0_6 i)).WholeWords (EltTy.packing .f32)

variable [Facts₀]

def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf
def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf

abbrev win0_0 : Pipeline.Window sig grid0 :=
  Pipeline.Window.ofSpec (Memref.whole main_v81) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v83) S256x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x8x4096 : Shape := ⟨3, ![32, 8, 4096]⟩
abbrev S11008x4096 : Shape := ⟨2, ![11008, 4096]⟩
abbrev S11008 : Shape := ⟨1, ![11008]⟩
abbrev S4096 : Shape := ⟨1, ![4096]⟩
abbrev S256x4096 : Shape := ⟨2, ![256, 4096]⟩
abbrev S_ : Shape := ⟨0, ![]⟩
abbrev S4096x1 : Shape := ⟨2, ![4096, 1]⟩
abbrev S256x11008 : Shape := ⟨2, ![256, 11008]⟩
abbrev S256x3712 : Shape := ⟨2, ![256, 3712]⟩
abbrev S256 : Shape := ⟨1, ![256]⟩
abbrev S256x1 : Shape := ⟨2, ![256, 1]⟩
abbrev S11008x3712 : Shape := ⟨2, ![11008, 3712]⟩
abbrev S11008x1 : Shape := ⟨2, ![11008, 1]⟩
abbrev S1x11008 : Shape := ⟨2, ![1, 11008]⟩
abbrev S256x256 : Shape := ⟨2, ![256, 256]⟩
abbrev S11008x256 : Shape := ⟨2, ![11008, 256]⟩
abbrev S256x128 : Shape := ⟨2, ![256, 128]⟩
abbrev S11008x128 : Shape := ⟨2, ![11008, 128]⟩
abbrev S32x8x11008 : Shape := ⟨3, ![32, 8, 11008]⟩

abbrev nBuf : Space → Nat
  | .hbm => 200
  | .vmem => 0
  | .smem => 0
  | _ => 0

abbrev hbmTy0_0 (i : Nat) : BufTy := match i % 128 with
  | 0 => ⟨S32x8x4096, .f32⟩
  | 1 => ⟨S11008x4096, .f32⟩
  | 2 => ⟨S11008, .f32⟩
  | 3 => ⟨S4096, .i32⟩
  | 4 => ⟨S256x4096, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S256x4096, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S11008x4096, .f32⟩
  | 23 => ⟨S_, .f32⟩
  | 24 => ⟨S256x11008, .f32⟩
  | 25 => ⟨S256x3712, .f32⟩
  | 26 => ⟨S256x3712, .f32⟩
  | 27 => ⟨S_, .f32⟩
  | 28 => ⟨S256, .f32⟩
  | 29 => ⟨S256x1, .f32⟩
  | 30 => ⟨S_, .f32⟩
  | 31 => ⟨S256x1, .f32⟩
  | 32 => ⟨S256x1, .f32⟩
  | 33 => ⟨S_, .f32⟩
  | 34 => ⟨S256x1, .f32⟩
  | 35 => ⟨S256x1, .i1⟩
  | 36 => ⟨S_, .f32⟩
  | 37 => ⟨S256x1, .f32⟩
  | 38 => ⟨S256x1, .f32⟩
  | 39 => ⟨S256x3712, .f32⟩
  | 40 => ⟨S256x3712, .f32⟩
  | 41 => ⟨S_, .f32⟩
  | 42 => ⟨S_, .f32⟩
  | 43 => ⟨S_, .f32⟩
  | 44 => ⟨S256x3712, .f32⟩
  | 45 => ⟨S256x3712, .f32⟩
  | 46 => ⟨S_, .f32⟩
  | 47 => ⟨S256x3712, .f32⟩
  | 48 => ⟨S256x3712, .f32⟩
  | 49 => ⟨S256x3712, .f32⟩
  | 50 => ⟨S11008x3712, .f32⟩
  | 51 => ⟨S11008x3712, .f32⟩
  | 52 => ⟨S_, .f32⟩
  | 53 => ⟨S11008, .f32⟩
  | 54 => ⟨S11008x1, .f32⟩
  | 55 => ⟨S_, .f32⟩
  | 56 => ⟨S11008x1, .f32⟩
  | 57 => ⟨S11008x1, .f32⟩
  | 58 => ⟨S_, .f32⟩
  | 59 => ⟨S11008x1, .f32⟩
  | 60 => ⟨S11008x1, .i1⟩
  | 61 => ⟨S_, .f32⟩
  | 62 => ⟨S11008x1, .f32⟩
  | 63 => ⟨S11008x1, .f32⟩
  | 64 => ⟨S11008x3712, .f32⟩
  | 65 => ⟨S11008x3712, .f32⟩
  | 66 => ⟨S_, .f32⟩
  | 67 => ⟨S_, .f32⟩
  | 68 => ⟨S_, .f32⟩
  | 69 => ⟨S11008x3712, .f32⟩
  | 70 => ⟨S11008x3712, .f32⟩
  | 71 => ⟨S_, .f32⟩
  | 72 => ⟨S11008x3712, .f32⟩
  | 73 => ⟨S11008x3712, .f32⟩
  | 74 => ⟨S11008x3712, .f32⟩
  | 75 => ⟨S256x11008, .f32⟩
  | 76 => ⟨S1x11008, .f32⟩
  | 77 => ⟨S256x11008, .f32⟩
  | 78 => ⟨S256x11008, .f32⟩
  | 79 => ⟨S256x11008, .f32⟩
  | 80 => ⟨S256x11008, .f32⟩
  | 81 => ⟨S256x11008, .f32⟩
  | 82 => ⟨S256x256, .f32⟩
  | 83 => ⟨S256x256, .f32⟩
  | 84 => ⟨S_, .f32⟩
  | 85 => ⟨S256, .f32⟩
  | 86 => ⟨S256x1, .f32⟩
  | 87 => ⟨S_, .f32⟩
  | 88 => ⟨S256x1, .f32⟩
  | 89 => ⟨S256x1, .f32⟩
  | 90 => ⟨S_, .f32⟩
  | 91 => ⟨S256x1, .f32⟩
  | 92 => ⟨S256x1, .i1⟩
  | 93 => ⟨S_, .f32⟩
  | 94 => ⟨S256x1, .f32⟩
  | 95 => ⟨S256x1, .f32⟩
  | 96 => ⟨S256x256, .f32⟩
  | 97 => ⟨S256x256, .f32⟩
  | 98 => ⟨S_, .f32⟩
  | 99 => ⟨S_, .f32⟩
  | 100 => ⟨S_, .f32⟩
  | 101 => ⟨S256x256, .f32⟩
  | 102 => ⟨S256x256, .f32⟩
  | 103 => ⟨S_, .f32⟩
  | 104 => ⟨S256x256, .f32⟩
  | 105 => ⟨S256x256, .f32⟩
  | 106 => ⟨S256x256, .f32⟩
  | 107 => ⟨S11008x256, .f32⟩
  | 108 => ⟨S11008x256, .f32⟩
  | 109 => ⟨S_, .f32⟩
  | 110 => ⟨S11008, .f32⟩
  | 111 => ⟨S11008x1, .f32⟩
  | 112 => ⟨S_, .f32⟩
  | 113 => ⟨S11008x1, .f32⟩
  | 114 => ⟨S11008x1, .f32⟩
  | 115 => ⟨S_, .f32⟩
  | 116 => ⟨S11008x1, .f32⟩
  | 117 => ⟨S11008x1, .i1⟩
  | 118 => ⟨S_, .f32⟩
  | 119 => ⟨S11008x1, .f32⟩
  | 120 => ⟨S11008x1, .f32⟩
  | 121 => ⟨S11008x256, .f32⟩
  | 122 => ⟨S11008x256, .f32⟩
  | 123 => ⟨S_, .f32⟩
  | 124 => ⟨S_, .f32⟩
  | 125 => ⟨S_, .f32⟩
  | 126 => ⟨S11008x256, .f32⟩
  | 127 => ⟨S11008x256, .f32⟩
  | _ => ⟨S32x8x4096, .f32⟩

abbrev hbmTy0_1 (i : Nat) : BufTy := match i % 128 with
  | 0 => ⟨S_, .f32⟩
  | 1 => ⟨S11008x256, .f32⟩
  | 2 => ⟨S11008x256, .f32⟩
  | 3 => ⟨S11008x256, .f32⟩
  | 4 => ⟨S256x11008, .f32⟩
  | 5 => ⟨S1x11008, .f32⟩
  | 6 => ⟨S256x11008, .f32⟩
  | 7 => ⟨S256x11008, .f32⟩
  | 8 => ⟨S256x11008, .f32⟩
  | 9 => ⟨S256x11008, .f32⟩
  | 10 => ⟨S256x11008, .f32⟩
  | 11 => ⟨S256x128, .f32⟩
  | 12 => ⟨S256x128, .f32⟩
  | 13 => ⟨S_, .f32⟩
  | 14 => ⟨S256, .f32⟩
  | 15 => ⟨S256x1, .f32⟩
  | 16 => ⟨S_, .f32⟩
  | 17 => ⟨S256x1, .f32⟩
  | 18 => ⟨S256x1, .f32⟩
  | 19 => ⟨S_, .f32⟩
  | 20 => ⟨S256x1, .f32⟩
  | 21 => ⟨S256x1, .i1⟩
  | 22 => ⟨S_, .f32⟩
  | 23 => ⟨S256x1, .f32⟩
  | 24 => ⟨S256x1, .f32⟩
  | 25 => ⟨S256x128, .f32⟩
  | 26 => ⟨S256x128, .f32⟩
  | 27 => ⟨S_, .f32⟩
  | 28 => ⟨S_, .f32⟩
  | 29 => ⟨S_, .f32⟩
  | 30 => ⟨S256x128, .f32⟩
  | 31 => ⟨S256x128, .f32⟩
  | 32 => ⟨S_, .f32⟩
  | 33 => ⟨S256x128, .f32⟩
  | 34 => ⟨S256x128, .f32⟩
  | 35 => ⟨S256x128, .f32⟩
  | 36 => ⟨S11008x128, .f32⟩
  | 37 => ⟨S11008x128, .f32⟩
  | 38 => ⟨S_, .f32⟩
  | 39 => ⟨S11008, .f32⟩
  | 40 => ⟨S11008x1, .f32⟩
  | 41 => ⟨S_, .f32⟩
  | 42 => ⟨S11008x1, .f32⟩
  | 43 => ⟨S11008x1, .f32⟩
  | 44 => ⟨S_, .f32⟩
  | 45 => ⟨S11008x1, .f32⟩
  | 46 => ⟨S11008x1, .i1⟩
  | 47 => ⟨S_, .f32⟩
  | 48 => ⟨S11008x1, .f32⟩
  | 49 => ⟨S11008x1, .f32⟩
  | 50 => ⟨S11008x128, .f32⟩
  | 51 => ⟨S11008x128, .f32⟩
  | 52 => ⟨S_, .f32⟩
  | 53 => ⟨S_, .f32⟩
  | 54 => ⟨S_, .f32⟩
  | 55 => ⟨S11008x128, .f32⟩
  | 56 => ⟨S11008x128, .f32⟩
  | 57 => ⟨S_, .f32⟩
  | 58 => ⟨S11008x128, .f32⟩
  | 59 => ⟨S11008x128, .f32⟩
  | 60 => ⟨S11008x128, .f32⟩
  | 61 => ⟨S256x11008, .f32⟩
  | 62 => ⟨S1x11008, .f32⟩
  | 63 => ⟨S256x11008, .f32⟩
  | 64 => ⟨S256x11008, .f32⟩
  | 65 => ⟨S256x11008, .f32⟩
  | 66 => ⟨S256x11008, .f32⟩
  | 67 => ⟨S256x11008, .f32⟩
  | 68 => ⟨S1x11008, .f32⟩
  | 69 => ⟨S256x11008, .f32⟩
  | 70 => ⟨S256x11008, .f32⟩
  | 71 => ⟨S32x8x11008, .f32⟩
  | _ => ⟨S32x8x4096, .f32⟩

abbrev hbmTy (i : Nat) : BufTy := match i / 128 with
  | 0 => hbmTy0_0 i
  | 1 => hbmTy0_1 i
  | _ => ⟨S32x8x4096, .f32⟩

abbrev bufTy : (tb : Table) → Fin (tcTables nBuf tb) → BufTy
  | .hbm, ⟨i, _⟩ => hbmTy i
  | _, _ => ⟨S32x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_cst_14 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_15 : Ref sig .tc := ⟨.hbm, 84, rfl⟩
abbrev main_v53 : Ref sig .tc := ⟨.hbm, 85, rfl⟩
abbrev main_v54 : Ref sig .tc := ⟨.hbm, 86, rfl⟩
abbrev main_cst_16 : Ref sig .tc := ⟨.hbm, 87, rfl⟩
abbrev main_v55 : Ref sig .tc := ⟨.hbm, 88, rfl⟩
abbrev main_v56 : Ref sig .tc := ⟨.hbm, 89, rfl⟩
abbrev main_cst_17 : Ref sig .tc := ⟨.hbm, 90, rfl⟩
abbrev main_v57 : Ref sig .tc := ⟨.hbm, 91, rfl⟩
abbrev main_v58 : Ref sig .tc := ⟨.hbm, 92, rfl⟩
abbrev main_cst_18 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_19 : Ref sig .tc := ⟨.hbm, 98, rfl⟩
abbrev main_cst_20 : Ref sig .tc := ⟨.hbm, 99, rfl⟩
abbrev main_call7_v0 : Ref sig .tc := ⟨.hbm, 100, rfl⟩
abbrev main_call7_v1 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_21 : Ref sig .tc := ⟨.hbm, 109, rfl⟩
abbrev main_v67 : Ref sig .tc := ⟨.hbm, 110, rfl⟩
abbrev main_v68 : Ref sig .tc := ⟨.hbm, 111, rfl⟩
abbrev main_cst_22 : Ref sig .tc := ⟨.hbm, 112, rfl⟩
abbrev main_v69 : Ref sig .tc := ⟨.hbm, 113, rfl⟩
abbrev main_v70 : Ref sig .tc := ⟨.hbm, 114, rfl⟩
abbrev main_cst_23 : Ref sig .tc := ⟨.hbm, 115, rfl⟩
abbrev main_v71 : Ref sig .tc := ⟨.hbm, 116, rfl⟩
abbrev main_v72 : Ref sig .tc := ⟨.hbm, 117, rfl⟩
abbrev main_cst_24 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_25 : Ref sig .tc := ⟨.hbm, 123, rfl⟩
abbrev main_cst_26 : Ref sig .tc := ⟨.hbm, 124, rfl⟩
abbrev main_call10_v0 : Ref sig .tc := ⟨.hbm, 125, rfl⟩
abbrev main_call10_v1 : Ref sig .tc := ⟨.hbm, 126, rfl⟩
abbrev main_call10_v2 : Ref sig .tc := ⟨.hbm, 127, rfl⟩
abbrev main_call10_v3 : Ref sig .tc := ⟨.hbm, 128, rfl⟩
abbrev main_call10_v4 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_27 : Ref sig .tc := ⟨.hbm, 141, rfl⟩
abbrev main_v88 : Ref sig .tc := ⟨.hbm, 142, rfl⟩
abbrev main_v89 : Ref sig .tc := ⟨.hbm, 143, rfl⟩
abbrev main_cst_28 : Ref sig .tc := ⟨.hbm, 144, rfl⟩
abbrev main_v90 : Ref sig .tc := ⟨.hbm, 145, rfl⟩
abbrev main_v91 : Ref sig .tc := ⟨.hbm, 146, rfl⟩
abbrev main_cst_29 : Ref sig .tc := ⟨.hbm, 147, rfl⟩
abbrev main_v92 : Ref sig .tc := ⟨.hbm, 148, rfl⟩
abbrev main_v93 : Ref sig .tc := ⟨.hbm, 149, rfl⟩
abbrev main_cst_30 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_31 : Ref sig .tc := ⟨.hbm, 155, rfl⟩
abbrev main_cst_32 : Ref sig .tc := ⟨.hbm, 156, rfl⟩
abbrev main_call13_v0 : Ref sig .tc := ⟨.hbm, 157, rfl⟩
abbrev main_call13_v1 : Ref sig .tc := ⟨.hbm, 158, rfl⟩
abbrev main_call13_v2 : Ref sig .tc := ⟨.hbm, 159, rfl⟩
abbrev main_call13_v3 : Ref sig .tc := ⟨.hbm, 160, rfl⟩
abbrev main_call13_v4 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_33 : Ref sig .tc := ⟨.hbm, 166, rfl⟩
abbrev main_v102 : Ref sig .tc := ⟨.hbm, 167, rfl⟩
abbrev main_v103 : Ref sig .tc := ⟨.hbm, 168, rfl⟩
abbrev main_cst_34 : Ref sig .tc := ⟨.hbm, 169, rfl⟩
abbrev main_v104 : Ref sig .tc := ⟨.hbm, 170, rfl⟩
abbrev main_v105 : Ref sig .tc := ⟨.hbm, 171, rfl⟩
abbrev main_cst_35 : Ref sig .tc := ⟨.hbm, 172, rfl⟩
abbrev main_v106 : Ref sig .tc := ⟨.hbm, 173, rfl⟩
abbrev main_v107 : Ref sig .tc := ⟨.hbm, 174, rfl⟩
abbrev main_cst_36 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_cst_37 : Ref sig .tc := ⟨.hbm, 180, rfl⟩
abbrev main_cst_38 : Ref sig .tc := ⟨.hbm, 181, rfl⟩
abbrev main_call16_v0 : Ref sig .tc := ⟨.hbm, 182, rfl⟩
abbrev main_call16_v1 : Ref sig .tc := ⟨.hbm, 183, rfl⟩
abbrev main_call16_v2 : Ref sig .tc := ⟨.hbm, 184, rfl⟩
abbrev main_call16_v3 : Ref sig .tc := ⟨.hbm, 185, rfl⟩
abbrev main_call16_v4 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩

abbrev nD : Nat := 1
abbrev τ : Topo := Topo.v7x

variable {F : FTy → Type} [FloatOps F]

class Facts₀ : Prop where
  shapeCasts_S32x8x4096_S256x4096 : S32x8x4096.ShapeCasts S256x4096
  bcast_S_S4096 : S_.BroadcastsInDim S4096 (![] : Fin 0 → Fin S4096.rank)
  bcast_S4096_S4096x1_0 : S4096.BroadcastsInDim S4096x1 (![0] : Fin 1 → Fin S4096x1.rank)
  bcast_S_S256x11008 : S_.BroadcastsInDim S256x11008 (![] : Fin 0 → Fin S256x11008.rank)
  slices_S256x4096_S256x3712_0_0 : S256x4096.Slices ![0, 0] S256x3712
  reducesTo_S256x3712_S256_d1 : S256x3712.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x3712_0_1 : S256x1.BroadcastsInDim S256x3712 (![0, 1] : Fin 2 → Fin S256x3712.rank)
  bcast_S_S256x3712 : S_.BroadcastsInDim S256x3712 (![] : Fin 0 → Fin S256x3712.rank)
  slices_S11008x4096_S11008x3712_0_0 : S11008x4096.Slices ![0, 0] S11008x3712
  reducesTo_S11008x3712_S11008_d1 : S11008x3712.ReducesTo [1] S11008
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S11008x1_S11008x3712_0_1 : S11008x1.BroadcastsInDim S11008x3712 (![0, 1] : Fin 2 → Fin S11008x3712.rank)
  bcast_S_S11008x3712 : S_.BroadcastsInDim S11008x3712 (![] : Fin 0 → Fin S11008x3712.rank)
  transposes_S11008x1_S1x11008_1_0 : S11008x1.Transposes [1, 0] S1x11008
  bcast_S256x1_S256x11008_0_1 : S256x1.BroadcastsInDim S256x11008 (![0, 1] : Fin 2 → Fin S256x11008.rank)
  bcast_S1x11008_S256x11008_0_1 : S1x11008.BroadcastsInDim S256x11008 (![0, 1] : Fin 2 → Fin S256x11008.rank)
  slices_S256x4096_S256x256_0_3712 : S256x4096.Slices ![0, 3712] S256x256
  reducesTo_S256x256_S256_d1 : S256x256.ReducesTo [1] S256
  bcast_S256x1_S256x256_0_1 : S256x1.BroadcastsInDim S256x256 (![0, 1] : Fin 2 → Fin S256x256.rank)
  bcast_S_S256x256 : S_.BroadcastsInDim S256x256 (![] : Fin 0 → Fin S256x256.rank)
  slices_S11008x4096_S11008x256_0_3712 : S11008x4096.Slices ![0, 3712] S11008x256
  reducesTo_S11008x256_S11008_d1 : S11008x256.ReducesTo [1] S11008
  bcast_S11008x1_S11008x256_0_1 : S11008x1.BroadcastsInDim S11008x256 (![0, 1] : Fin 2 → Fin S11008x256.rank)
  bcast_S_S11008x256 : S_.BroadcastsInDim S11008x256 (![] : Fin 0 → Fin S11008x256.rank)
  slices_S256x4096_S256x128_0_3968 : S256x4096.Slices ![0, 3968] S256x128
  reducesTo_S256x128_S256_d1 : S256x128.ReducesTo [1] S256
  bcast_S256x1_S256x128_0_1 : S256x1.BroadcastsInDim S256x128 (![0, 1] : Fin 2 → Fin S256x128.rank)
  bcast_S_S256x128 : S_.BroadcastsInDim S256x128 (![] : Fin 0 → Fin S256x128.rank)
  slices_S11008x4096_S11008x128_0_3968 : S11008x4096.Slices ![0, 3968] S11008x128
  reducesTo_S11008x128_S11008_d1 : S11008x128.ReducesTo [1] S11008
  bcast_S11008x1_S11008x128_0_1 : S11008x1.BroadcastsInDim S11008x128 (![0, 1] : Fin 2 → Fin S11008x128.rank)
  bcast_S_S11008x128 : S_.BroadcastsInDim S11008x128 (![] : Fin 0 → Fin S11008x128.rank)
  bcast_S11008_S1x11008_1 : S11008.BroadcastsInDim S1x11008 (![1] : Fin 1 → Fin S1x11008.rank)
  shapeCasts_S256x11008_S32x8x11008 : S256x11008.ShapeCasts S32x8x11008
  gather_S256x4096_S4096x1_S256x4096_0_1_n_n_1_1_2561_wf : GatherDims.WF S256x4096 S4096x1 S256x4096 [0] [1] [] [1] [] 1 ![256, 1]
  gather_S11008x4096_S4096x1_S11008x4096_0_1_n_n_1_1_110081_wf : GatherDims.WF S11008x4096 S4096x1 S11008x4096 [0] [1] [] [1] [] 1 ![11008, 1]
  dot_S256x3712_S11008x3712_S256x11008_1_1_0_0_n_n_wf : DotDims.WF S256x3712 S11008x3712 S256x11008 [1] [1] [0] [0] [] []
  dot_S256x256_S11008x256_S256x11008_1_1_0_0_n_n_wf : DotDims.WF S256x256 S11008x256 S256x11008 [1] [1] [0] [0] [] []
  dot_S256x128_S11008x128_S256x11008_1_1_0_0_n_n_wf : DotDims.WF S256x128 S11008x128 S256x11008 [1] [1] [0] [0] [] []

variable [Facts₀]

def gather_S256x4096_S4096x1_S256x4096_0_1_n_n_1_1_2561 : GatherDims S256x4096 S4096x1 S256x4096 where
  offsetDims := [0]
  collapsedSliceDims := [1]
  operandBatchingDims := []
  startIndicesBatchingDims := []
  startIndexMap := [1]
  indexVectorDim := 1
  sliceSizes := ![256, 1]
  wf := gather_S256x4096_S4096x1_S256x4096_0_1_n_n_1_1_2561_wf
def gather_S11008x4096_S4096x1_S11008x4096_0_1_n_n_1_1_110081 : GatherDims S11008x4096 S4096x1 S11008x4096 where
  offsetDims := [0]
  collapsedSliceDims := [1]
  operandBatchingDims := []
  startIndicesBatchingDims := []
  startIndexMap := [1]
  indexVectorDim := 1
  sliceSizes := ![11008, 1]
  wf := gather_S11008x4096_S4096x1_S11008x4096_0_1_n_n_1_1_110081_wf
def dot_S256x3712_S11008x3712_S256x11008_1_1_0_0_n_n : DotDims S256x3712 S11008x3712 S256x11008 where
  lhsContracting := [1]
  rhsContracting := [1]
  lhsNonContracting := [0]
  rhsNonContracting := [0]
  lhsBatch := []
  rhsBatch := []
  wf := dot_S256x3712_S11008x3712_S256x11008_1_1_0_0_n_n_wf
def dot_S256x256_S11008x256_S256x11008_1_1_0_0_n_n : DotDims S256x256 S11008x256 S256x11008 where
  lhsContracting := [1]
  rhsContracting := [1]
  lhsNonContracting := [0]
  rhsNonContracting := [0]
  lhsBatch := []
  rhsBatch := []
  wf := dot_S256x256_S11008x256_S256x11008_1_1_0_0_n_n_wf
def dot_S256x128_S11008x128_S256x11008_1_1_0_0_n_n : DotDims S256x128 S11008x128 S256x11008 where
  lhsContracting := [1]
  rhsContracting := [1]
  lhsNonContracting := [0]
  rhsNonContracting := [0]
  lhsBatch := []
  rhsBatch := []
  wf := dot_S256x128_S11008x128_S256x11008_1_1_0_0_n_n_wf

class Facts : Prop extends Facts₀ where

variable [Facts]
-- ==== Proof.QuantSpec.lean ====
/-
  What the two programs compute, stated once over plain index functions.

  A row of 4096 channels is split into three groups (3712, 256 and 128 channels) that are quantised at 4, 6 and 8
  bits: each group has its own step (the group's largest magnitude over the top level 7, 31 or 127; one where that
  is zero), and an entry is divided by the step, clipped to the levels and rounded to the nearest integer, ties to
  even. The product of an activation row and a weight row is then the sum over the groups of the integer products,
  each scaled by the two steps.

  The groups are positions of the REORDERED channel axis: position p holds channel π p. One way to compute the
  product gathers the channels into that order and slices the three ranges (`gatheredForm`). The other leaves every
  channel where it is and multiplies the row by a 0/1 mask of each group before quantising it, so that the entries
  outside the group quantise to zero (`maskedForm`).
-/
import Idealize.ShloMosaic.PureOps.Ideal

noncomputable section

namespace Cert.QSpec

open Idealize.ShloMosaic

/-- The largest entry of a finite row, from −∞. -/
def rowmax {n : ℕ} (f : Fin n → EReal) : EReal := Finset.univ.fold max ⊥ f

/-- A row's quantisation step at top level `q`: its largest magnitude over `q`, and one where that quotient is zero. -/
def scale (q : ℝ) {n : ℕ} (v : Fin n → EReal) : EReal :=
  if Ideal.div (rowmax fun k => max (v k) (-(v k))) (q : EReal) = 0 then 1
  else Ideal.div (rowmax fun k => max (v k) (-(v k))) (q : EReal)

/-- One entry on the integer grid: divided by the step `s`, clipped to [−q, q], rounded to nearest, ties to even. -/
def qent (q : ℝ) (s v : EReal) : EReal :=
  Ideal.liftRound Ideal.roundHalfEven (min (q : EReal) (max ((-q : ℝ) : EReal) (Ideal.div v s)))

/-! ## Masked form: every channel in place, one group selected by a mask -/

/-- Entry `k` of a row masked to one group, quantised with the masked row's own step and scaled back. -/
def maskedq (q : ℝ) (msk v : Fin 4096 → EReal) (k : Fin 4096) : EReal :=
  qent q (scale q fun j => v j * msk j) (v k * msk k) * scale q fun j => v j * msk j

/-- The three groups' masked rows added: 4-bit, then 6-bit, then 8-bit. -/
def mixed (m0 m1 m2 v : Fin 4096 → EReal) (k : Fin 4096) : EReal :=
  (maskedq 7 m0 v k + maskedq 31 m1 v k) + maskedq 127 m2 v k

/-- One product over all 4096 channels of the two mixed rows, onto zero, plus the bias. -/
def maskedForm (m0 m1 m2 : Fin 4096 → EReal) (x : Fin 256 → Fin 4096 → EReal) (W : Fin 11008 → Fin 4096 → EReal)
    (b : Fin 11008 → EReal) (t : Fin 256) (o : Fin 11008) : EReal :=
  (0 + ∑ k : Fin 4096, mixed m0 m1 m2 (x t) k * mixed m0 m1 m2 (W o) k) + b o

/-! ## Gathered form: the channels reordered by π, the groups three ranges of positions -/

/-- Positions `start, …, start + n − 1` of a row reordered by `π`. -/
def seg (π : Fin 4096 → Fin 4096) (start n : ℕ) (h : start + n ≤ 4096) (v : Fin 4096 → EReal) (p : Fin n) : EReal :=
  v (π ⟨start + p.val, by have := p.isLt; omega⟩)

/-- One group's share of the product: the integer product of the two quantised segments, onto zero, times the two steps. -/
def segTerm (q : ℝ) (π : Fin 4096 → Fin 4096) (start n : ℕ) (h : start + n ≤ 4096) (xr wr : Fin 4096 → EReal) : EReal :=
  (0 + ∑ p : Fin n, qent q (scale q (seg π start n h xr)) (seg π start n h xr p)
                    * qent q (scale q (seg π start n h wr)) (seg π start n h wr p))
    * (scale q (seg π start n h xr) * scale q (seg π start n h wr))

/-- The three groups' shares added onto zero in the order 4-bit, 6-bit, 8-bit, plus the bias. -/
def gatheredForm (π : Fin 4096 → Fin 4096) (x : Fin 256 → Fin 4096 → EReal) (W : Fin 11008 → Fin 4096 → EReal)
    (b : Fin 11008 → EReal) (t : Fin 256) (o : Fin 11008) : EReal :=
  (((0 + segTerm 7 π 0 3712 (by norm_num) (x t) (W o)) + segTerm 31 π 3712 256 (by norm_num) (x t) (W o))
    + segTerm 127 π 3968 128 (by norm_num) (x t) (W o)) + b o

end Cert.QSpec

end
-- ==== Proof.Views.lean ====
/-
  Reading the programs' arrays as rows: a token is a pair (batch, position) of the [32, 8, ·] arrays flattened to
  t = 8·batch + position; a matrix is read row by row; a mask is a single row of 4096 entries.
-/
import Idealize.ShloMosaic.Lib.ValueIdx
import proofs.«401570_j6768868459276_1_alg».proof.Proof.QuantSpec

noncomputable section

namespace Cert.QSpec

open Idealize.ShloMosaic Idealize.ShloMosaic.ValueIdx

/-- Token `t = 8·batch + position` of the [32, 8, 4096] activations, as a row of channels. -/
def tokRows (x : (⟨3, ![32, 8, 4096]⟩ : Shape).Idx → EReal) (t : Fin 256) (k : Fin 4096) : EReal :=
  x (ix3 (⟨t.val / 8, by have := t.isLt; omega⟩ : Fin 32) (⟨t.val % 8, by omega⟩ : Fin 8) k)

/-- Row `o` of a matrix. -/
def matRows {A B : ℕ} (W : (⟨2, ![A, B]⟩ : Shape).Idx → EReal) (o : Fin A) (k : Fin B) : EReal := W (ix2 o k)

/-- Entry `o` of a vector. -/
def vecEnt {A : ℕ} (b : (⟨1, ![A]⟩ : Shape).Idx → EReal) (o : Fin A) : EReal := b (ix1 o)

/-- The one row of a [1, n] array. -/
def maskRow {n : ℕ} (v : (⟨2, ![1, n]⟩ : Shape).Idx → EReal) (k : Fin n) : EReal := v (ix2 (0 : Fin 1) k)

/-- Entry `p` of a vector of 32-bit index words. -/
def idxEnt {n : ℕ} (v : IVec (⟨1, ![n]⟩ : Shape) 32) (p : Fin n) : BitVec 32 := v (ix1 p)

/-- The token a result index belongs to. -/
def tokOf (i : (⟨3, ![32, 8, 11008]⟩ : Shape).Idx) : Fin 256 :=
  ⟨(i 0).val * 8 + (i 1).val, by have h0 : (i 0).val < 32 := (i 0).isLt; have h1 : (i 1).val < 8 := (i 1).isLt; omega⟩

end Cert.QSpec

end
-- ==== Proof.QuantLaw.lean ====
/-
  The masked form and the gathered form are one function when π is a permutation of the channels, the masks are the
  indicators of the three ranges of positions pulled back along π, and every activation and weight is a real number.
-/
import proofs.«401570_j6768868459276_1_alg».proof.Proof.QuantSpec
import Mathlib.Data.Finset.Lattice.Fold
import Mathlib.Algebra.BigOperators.Fin
import Mathlib.Data.EReal.Operations
import Mathlib.Algebra.BigOperators.Group.Finset.Basic
import Mathlib.Logic.Equiv.Defs

noncomputable section

namespace Cert.QSpec

open Idealize.ShloMosaic

/-! ## Real numbers inside the extended reals -/

/-- The inclusion of the reals keeps the larger of two numbers. -/
theorem coe_max' (a b : ℝ) : ((max a b : ℝ) : EReal) = max (a : EReal) (b : EReal) :=
  EReal.coe_strictMono.monotone.map_max

/-- The inclusion of the reals keeps the smaller of two numbers. -/
theorem coe_min' (a b : ℝ) : ((min a b : ℝ) : EReal) = min (a : EReal) (b : EReal) :=
  EReal.coe_strictMono.monotone.map_min

/-! ## The largest entry of a row -/

/-- The fold of `max` from −∞ is the supremum of the row. -/
theorem rowmax_eq_sup {n : ℕ} (f : Fin n → EReal) : rowmax f = Finset.univ.sup f := rfl

/-- The magnitude of a real number is not negative. -/
theorem zero_le_mag (r : ℝ) : (0 : EReal) ≤ max (r : EReal) (-(r : EReal)) := by
  rw [← EReal.coe_neg, ← coe_max', ← EReal.coe_zero, EReal.coe_le_coe_iff]
  exact abs_nonneg r

/-- The magnitude of a real number is a real number. -/
theorem mag_real {a : EReal} (ha : ∃ r : ℝ, a = (r : EReal)) : ∃ r : ℝ, max a (-a) = (r : EReal) := by
  obtain ⟨r, rfl⟩ := ha
  exact ⟨max r (-r), by rw [coe_max', EReal.coe_neg]⟩

/-- A nonempty row of real numbers has a real number as its largest entry: the largest entry is one of the entries. -/
theorem rowmax_real {n : ℕ} (hn : 0 < n) (f : Fin n → EReal) (hf : ∀ k, ∃ r : ℝ, f k = (r : EReal)) :
    ∃ r : ℝ, rowmax f = (r : EReal) := by
  obtain ⟨i, -, hi⟩ := Finset.exists_mem_eq_sup (Finset.univ : Finset (Fin n)) ⟨⟨0, hn⟩, Finset.mem_univ _⟩ f
  obtain ⟨r, hr⟩ := hf i
  exact ⟨r, by rw [rowmax_eq_sup, hi, hr]⟩

/-! ## The step of a row -/

/-- A step is never zero: where the quotient vanishes the step is one. -/
theorem scale_ne_zero (q : ℝ) {n : ℕ} (v : Fin n → EReal) : scale q v ≠ 0 := by
  unfold scale
  split_ifs with h
  · exact one_ne_zero
  · exact h

/-- The step of a nonempty row of real numbers, at a nonzero top level, is a real number. -/
theorem scale_real (q : ℝ) (hq : q ≠ 0) {n : ℕ} (hn : 0 < n) (v : Fin n → EReal) (hv : ∀ k, ∃ r : ℝ, v k = (r : EReal)) :
    ∃ r : ℝ, scale q v = (r : EReal) := by
  obtain ⟨m, hm⟩ := rowmax_real hn (fun k => max (v k) (-(v k))) (fun k => mag_real (hv k))
  unfold scale
  rw [hm, Ideal.div_coe hq, ← EReal.coe_mul]
  split_ifs
  · exact ⟨1, EReal.coe_one.symm⟩
  · exact ⟨_, rfl⟩

/-! ## One entry on the integer grid -/

/-- Half-to-even rounding leaves zero where it is. -/
theorem roundHalfEven_zero : Ideal.roundHalfEven 0 = 0 := by
  simp [Ideal.roundHalfEven]

/-- A zero entry stays zero on the grid, whatever the (nonzero) step. -/
theorem qent_zero (q : ℝ) (hq : 0 ≤ q) (s : EReal) (hs : s ≠ 0) : qent q s 0 = 0 := by
  have hneg : ((-q : ℝ) : EReal) ≤ 0 := by
    rw [← EReal.coe_zero, EReal.coe_le_coe_iff]; linarith
  have hpos : (0 : EReal) ≤ (q : EReal) := by
    rw [← EReal.coe_zero, EReal.coe_le_coe_iff]; exact hq
  unfold qent
  rw [Ideal.div, if_neg hs, zero_mul, max_eq_right hneg, min_eq_right hpos, ← EReal.coe_zero]
  show (((Ideal.roundHalfEven 0 : ℤ) : ℝ) : EReal) = ((0 : ℝ) : EReal)
  rw [roundHalfEven_zero, Int.cast_zero]

/-- A clipped value is a real number between the two levels, whatever was clipped, so an entry on the grid is a real
    number (an integer). -/
theorem qent_real (q : ℝ) (s v : EReal) : ∃ r : ℝ, qent q s v = (r : EReal) := by
  unfold qent
  induction Ideal.div v s using EReal.rec with
  | bot =>
    rw [max_eq_left bot_le, ← coe_min']
    exact ⟨_, rfl⟩
  | coe z =>
    rw [← coe_max', ← coe_min']
    exact ⟨_, rfl⟩
  | top =>
    rw [max_eq_right le_top, min_eq_left le_top]
    exact ⟨_, rfl⟩

/-! ## A row masked to one group has the group's step -/

/-- Masking a real row to the positions `start ≤ p < start + n` (a nonempty range) and gathering those positions give
    rows with the same largest magnitude: inside the range the entries are the same, outside it the masked entry is
    zero, and zero is below every magnitude of the (nonempty) gathered row. -/
theorem rowmax_mask_eq (π : Fin 4096 → Fin 4096) (hπ : Function.Bijective π) (start n : ℕ) (h : start + n ≤ 4096)
    (hn : 0 < n) (msk v : Fin 4096 → EReal)
    (hm : ∀ p : Fin 4096, msk (π p) = if start ≤ p.val ∧ p.val < start + n then 1 else 0)
    (hv : ∀ k, ∃ r : ℝ, v k = (r : EReal)) :
    rowmax (fun k => max (v k * msk k) (-(v k * msk k)))
      = rowmax (fun p => max (seg π start n h v p) (-(seg π start n h v p))) := by
  rw [rowmax_eq_sup, rowmax_eq_sup]
  apply le_antisymm
  · rw [Finset.sup_le_iff]
    intro k _
    obtain ⟨p, rfl⟩ := hπ.surjective k
    rw [hm p]
    split_ifs with hp
    · have e : seg π start n h v ⟨p.val - start, by omega⟩ = v (π p) := by
        unfold seg
        exact congrArg (fun i => v (π i)) (Fin.ext (by show start + (p.val - start) = p.val; omega))
      rw [mul_one, ← e]
      exact Finset.le_sup (f := fun p => max (seg π start n h v p) (-(seg π start n h v p))) (Finset.mem_univ _)
    · rw [mul_zero, neg_zero, max_self]
      obtain ⟨r, hr⟩ := hv (π ⟨start + 0, by omega⟩)
      refine Finset.le_sup_of_le (Finset.mem_univ (⟨0, hn⟩ : Fin n)) ?_
      show (0 : EReal) ≤ max (v (π ⟨start + 0, _⟩)) (-(v (π ⟨start + 0, _⟩)))
      rw [hr]
      exact zero_le_mag r
  · rw [Finset.sup_le_iff]
    intro p _
    have hp := p.isLt
    have h1 : msk (π ⟨start + p.val, by omega⟩) = 1 := by
      rw [hm]
      exact if_pos ⟨by show start ≤ start + p.val; omega, by show start + p.val < start + n; omega⟩
    refine Finset.le_sup_of_le (Finset.mem_univ (π ⟨start + p.val, by omega⟩)) ?_
    show _ ≤ max (v (π ⟨start + p.val, _⟩) * msk (π ⟨start + p.val, _⟩)) (-(v (π ⟨start + p.val, _⟩) * msk (π ⟨start + p.val, _⟩)))
    rw [h1, mul_one]
    exact le_rfl

/-- So the two rows have the same step. -/
theorem scale_mask_eq (q : ℝ) (π : Fin 4096 → Fin 4096) (hπ : Function.Bijective π) (start n : ℕ) (h : start + n ≤ 4096)
    (hn : 0 < n) (msk v : Fin 4096 → EReal)
    (hm : ∀ p : Fin 4096, msk (π p) = if start ≤ p.val ∧ p.val < start + n then 1 else 0)
    (hv : ∀ k, ∃ r : ℝ, v k = (r : EReal)) :
    scale q (fun j => v j * msk j) = scale q (seg π start n h v) := by
  unfold scale
  rw [rowmax_mask_eq π hπ start n h hn msk v hm hv]

/-- An entry of the masked row, read at the channel that position `i` holds: inside the group it is the gathered row's
    entry on the grid times the gathered row's step, outside the group it is zero. -/
theorem maskedq_at (q : ℝ) (hq : 0 ≤ q) (π : Fin 4096 → Fin 4096) (hπ : Function.Bijective π) (start n : ℕ)
    (h : start + n ≤ 4096) (hn : 0 < n) (msk v : Fin 4096 → EReal)
    (hm : ∀ p : Fin 4096, msk (π p) = if start ≤ p.val ∧ p.val < start + n then 1 else 0)
    (hv : ∀ k, ∃ r : ℝ, v k = (r : EReal)) (i : ℕ) (hi : i < 4096) :
    maskedq q msk v (π ⟨i, hi⟩)
      = if start ≤ i ∧ i < start + n
          then qent q (scale q (seg π start n h v)) (v (π ⟨i, hi⟩)) * scale q (seg π start n h v) else 0 := by
  have hm' : msk (π ⟨i, hi⟩) = if start ≤ i ∧ i < start + n then 1 else 0 := hm ⟨i, hi⟩
  unfold maskedq
  rw [scale_mask_eq q π hπ start n h hn msk v hm hv, hm']
  split_ifs
  · rw [mul_one]
  · rw [mul_zero, qent_zero q hq _ (scale_ne_zero q _), zero_mul]

/-! ## Sums -/

/-- The inclusion of the reals keeps finite sums. -/
theorem coe_sum' {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum of real numbers, each multiplied by one real factor, is the sum multiplied by the factor: the one step that
    needs real numbers, since multiplication does not distribute over addition at the infinities. -/
theorem sum_mul_real {n : ℕ} (a : Fin n → EReal) (ha : ∀ p, ∃ r : ℝ, a p = (r : EReal)) (c : EReal)
    (hc : ∃ r : ℝ, c = (r : EReal)) : ∑ p, a p * c = (∑ p, a p) * c := by
  obtain ⟨c', rfl⟩ := hc
  choose r hr using ha
  obtain rfl : a = fun p => (r p : EReal) := funext hr
  calc ∑ p, (r p : EReal) * (c' : EReal) = ∑ p, ((r p * c' : ℝ) : EReal) := by simp only [EReal.coe_mul]
    _ = ((∑ p, r p * c' : ℝ) : EReal) := (coe_sum' _ _).symm
    _ = (((∑ p, r p) * c' : ℝ) : EReal) := by rw [Finset.sum_mul]
    _ = (∑ p, (r p : EReal)) * (c' : EReal) := by rw [EReal.coe_mul, coe_sum']

/-- A sum over `a + b` positions is the sum over the first `a` plus the sum over the last `b`. -/
theorem sum_split {M : Type*} [AddCommMonoid M] (a b N : ℕ) (h : a + b = N) (f : Fin N → M) :
    ∑ i, f i = (∑ i : Fin a, f ⟨i.val, by have := i.isLt; omega⟩)
      + ∑ j : Fin b, f ⟨a + j.val, by have := j.isLt; omega⟩ := by
  subst h
  rw [Fin.sum_univ_add]
  rfl

/-- The 4096 positions are the three ranges one after another. -/
theorem sum_three (f : Fin 4096 → EReal) :
    ∑ p, f p = (∑ p : Fin 3712, f ⟨0 + p.val, by have := p.isLt; omega⟩)
      + ((∑ p : Fin 256, f ⟨3712 + p.val, by have := p.isLt; omega⟩)
        + ∑ p : Fin 128, f ⟨3968 + p.val, by have := p.isLt; omega⟩) := by
  rw [sum_split 3712 384 4096 (by norm_num) f,
    sum_split 256 128 384 (by norm_num) (fun j => f ⟨3712 + j.val, by have := j.isLt; omega⟩)]
  refine congrArg₂ (· + ·) ?_ (congrArg₂ (· + ·) rfl ?_)
  · exact Finset.sum_congr rfl (fun p _ => congrArg f (Fin.ext (by show p.val = 0 + p.val; omega)))
  · exact Finset.sum_congr rfl
      (fun p _ => congrArg f (Fin.ext (by show 3712 + (256 + p.val) = 3968 + p.val; omega)))

/-- One group's share: the products of the two rows' scaled entries, summed over the group's positions, are the
    integer products summed, times the two steps. -/
theorem seg_sum (q : ℝ) (hq : q ≠ 0) (π : Fin 4096 → Fin 4096) (start n : ℕ) (h : start + n ≤ 4096) (hn : 0 < n)
    (xr wr : Fin 4096 → EReal) (hx : ∀ k, ∃ r : ℝ, xr k = (r : EReal)) (hw : ∀ k, ∃ r : ℝ, wr k = (r : EReal)) :
    ∑ p : Fin n, (qent q (scale q (seg π start n h xr)) (seg π start n h xr p) * scale q (seg π start n h xr))
        * (qent q (scale q (seg π start n h wr)) (seg π start n h wr p) * scale q (seg π start n h wr))
      = segTerm q π start n h xr wr := by
  obtain ⟨sx, hsx⟩ := scale_real q hq hn (seg π start n h xr) (fun _ => hx _)
  obtain ⟨sw, hsw⟩ := scale_real q hq hn (seg π start n h wr) (fun _ => hw _)
  have key := sum_mul_real
    (fun p : Fin n => qent q (scale q (seg π start n h xr)) (seg π start n h xr p)
      * qent q (scale q (seg π start n h wr)) (seg π start n h wr p))
    (fun p => by
      obtain ⟨a, ha⟩ := qent_real q (scale q (seg π start n h xr)) (seg π start n h xr p)
      obtain ⟨b, hb⟩ := qent_real q (scale q (seg π start n h wr)) (seg π start n h wr p)
      exact ⟨a * b, by rw [ha, hb, EReal.coe_mul]⟩)
    (scale q (seg π start n h xr) * scale q (seg π start n h wr))
    ⟨sx * sw, by rw [hsx, hsw, EReal.coe_mul]⟩
  unfold segTerm
  rw [zero_add, ← key]
  exact Finset.sum_congr rfl (fun p _ => mul_mul_mul_comm _ _ _ _)

/-! ## The mixed row at a position of each group -/

section Mixed

variable (π : Fin 4096 → Fin 4096) (hπ : Function.Bijective π) (m0 m1 m2 : Fin 4096 → EReal)
  (h0 : ∀ p : Fin 4096, m0 (π p) = if 0 ≤ p.val ∧ p.val < 0 + 3712 then 1 else 0)
  (h1 : ∀ p : Fin 4096, m1 (π p) = if 3712 ≤ p.val ∧ p.val < 3712 + 256 then 1 else 0)
  (h2 : ∀ p : Fin 4096, m2 (π p) = if 3968 ≤ p.val ∧ p.val < 3968 + 128 then 1 else 0)
  (v : Fin 4096 → EReal) (hv : ∀ k, ∃ r : ℝ, v k = (r : EReal))

include hπ h0 h1 h2 hv

/-- At a position of the first range only the 4-bit term is there. -/
theorem mixed_at0 (p : Fin 3712) :
    mixed m0 m1 m2 v (π ⟨0 + p.val, by have := p.isLt; omega⟩)
      = qent 7 (scale 7 (seg π 0 3712 (by norm_num) v)) (seg π 0 3712 (by norm_num) v p)
        * scale 7 (seg π 0 3712 (by norm_num) v) := by
  have hp := p.isLt
  unfold mixed
  rw [maskedq_at 7 (by norm_num) π hπ 0 3712 (by norm_num) (by norm_num) m0 v h0 hv,
    maskedq_at 31 (by norm_num) π hπ 3712 256 (by norm_num) (by norm_num) m1 v h1 hv,
    maskedq_at 127 (by norm_num) π hπ 3968 128 (by norm_num) (by norm_num) m2 v h2 hv,
    if_pos (show 0 ≤ 0 + p.val ∧ 0 + p.val < 0 + 3712 by omega),
    if_neg (show ¬(3712 ≤ 0 + p.val ∧ 0 + p.val < 3712 + 256) by omega),
    if_neg (show ¬(3968 ≤ 0 + p.val ∧ 0 + p.val < 3968 + 128) by omega), add_zero, add_zero]
  rfl

/-- At a position of the second range only the 6-bit term is there. -/
theorem mixed_at1 (p : Fin 256) :
    mixed m0 m1 m2 v (π ⟨3712 + p.val, by have := p.isLt; omega⟩)
      = qent 31 (scale 31 (seg π 3712 256 (by norm_num) v)) (seg π 3712 256 (by norm_num) v p)
        * scale 31 (seg π 3712 256 (by norm_num) v) := by
  have hp := p.isLt
  unfold mixed
  rw [maskedq_at 7 (by norm_num) π hπ 0 3712 (by norm_num) (by norm_num) m0 v h0 hv,
    maskedq_at 31 (by norm_num) π hπ 3712 256 (by norm_num) (by norm_num) m1 v h1 hv,
    maskedq_at 127 (by norm_num) π hπ 3968 128 (by norm_num) (by norm_num) m2 v h2 hv,
    if_neg (show ¬(0 ≤ 3712 + p.val ∧ 3712 + p.val < 0 + 3712) by omega),
    if_pos (show 3712 ≤ 3712 + p.val ∧ 3712 + p.val < 3712 + 256 by omega),
    if_neg (show ¬(3968 ≤ 3712 + p.val ∧ 3712 + p.val < 3968 + 128) by omega), zero_add, add_zero]
  rfl

/-- At a position of the third range only the 8-bit term is there. -/
theorem mixed_at2 (p : Fin 128) :
    mixed m0 m1 m2 v (π ⟨3968 + p.val, by have := p.isLt; omega⟩)
      = qent 127 (scale 127 (seg π 3968 128 (by norm_num) v)) (seg π 3968 128 (by norm_num) v p)
        * scale 127 (seg π 3968 128 (by norm_num) v) := by
  have hp := p.isLt
  unfold mixed
  rw [maskedq_at 7 (by norm_num) π hπ 0 3712 (by norm_num) (by norm_num) m0 v h0 hv,
    maskedq_at 31 (by norm_num) π hπ 3712 256 (by norm_num) (by norm_num) m1 v h1 hv,
    maskedq_at 127 (by norm_num) π hπ 3968 128 (by norm_num) (by norm_num) m2 v h2 hv,
    if_neg (show ¬(0 ≤ 3968 + p.val ∧ 3968 + p.val < 0 + 3712) by omega),
    if_neg (show ¬(3712 ≤ 3968 + p.val ∧ 3968 + p.val < 3712 + 256) by omega),
    if_pos (show 3968 ≤ 3968 + p.val ∧ 3968 + p.val < 3968 + 128 by omega), add_zero, zero_add]
  rfl

end Mixed

/-! ## The law -/

theorem maskedForm_eq_gatheredForm (π : Fin 4096 → Fin 4096) (hπ : Function.Bijective π)
    (m0 m1 m2 : Fin 4096 → EReal)
    (h0 : ∀ p : Fin 4096, m0 (π p) = if p.val < 3712 then 1 else 0)
    (h1 : ∀ p : Fin 4096, m1 (π p) = if 3712 ≤ p.val ∧ p.val < 3968 then 1 else 0)
    (h2 : ∀ p : Fin 4096, m2 (π p) = if 3968 ≤ p.val then 1 else 0)
    (x : Fin 256 → Fin 4096 → EReal) (W : Fin 11008 → Fin 4096 → EReal) (b : Fin 11008 → EReal)
    (hx : ∀ t k, ∃ r : ℝ, x t k = (r : EReal)) (hW : ∀ o k, ∃ r : ℝ, W o k = (r : EReal)) :
    maskedForm m0 m1 m2 x W b = gatheredForm π x W b := by
  -- the three masks as indicators of `start ≤ p < start + n`
  have h0' : ∀ p : Fin 4096, m0 (π p) = if 0 ≤ p.val ∧ p.val < 0 + 3712 then 1 else 0 := fun p => by
    rw [h0 p]; exact if_congr (by omega) rfl rfl
  have h1' : ∀ p : Fin 4096, m1 (π p) = if 3712 ≤ p.val ∧ p.val < 3712 + 256 then 1 else 0 := fun p => by
    rw [h1 p]
  have h2' : ∀ p : Fin 4096, m2 (π p) = if 3968 ≤ p.val ∧ p.val < 3968 + 128 then 1 else 0 := fun p => by
    have := p.isLt
    rw [h2 p]; exact if_congr (by omega) rfl rfl
  funext t o
  -- the sum over the channels, taken position by position and cut into the three ranges
  have hsum : ∑ k, mixed m0 m1 m2 (x t) k * mixed m0 m1 m2 (W o) k
      = segTerm 7 π 0 3712 (by norm_num) (x t) (W o)
        + (segTerm 31 π 3712 256 (by norm_num) (x t) (W o) + segTerm 127 π 3968 128 (by norm_num) (x t) (W o)) := by
    refine ((Equiv.ofBijective π hπ).sum_comp
      (fun k => mixed m0 m1 m2 (x t) k * mixed m0 m1 m2 (W o) k)).symm.trans ?_
    rw [sum_three]
    congr 1
    · rw [← seg_sum 7 (by norm_num) π 0 3712 (by norm_num) (by norm_num) (x t) (W o) (hx t) (hW o)]
      refine Finset.sum_congr rfl (fun p _ => ?_)
      show mixed m0 m1 m2 (x t) (π ⟨0 + p.val, _⟩) * mixed m0 m1 m2 (W o) (π ⟨0 + p.val, _⟩) = _
      rw [mixed_at0 π hπ m0 m1 m2 h0' h1' h2' (x t) (hx t), mixed_at0 π hπ m0 m1 m2 h0' h1' h2' (W o) (hW o)]
    · congr 1
      · rw [← seg_sum 31 (by norm_num) π 3712 256 (by norm_num) (by norm_num) (x t) (W o) (hx t) (hW o)]
        refine Finset.sum_congr rfl (fun p _ => ?_)
        show mixed m0 m1 m2 (x t) (π ⟨3712 + p.val, _⟩) * mixed m0 m1 m2 (W o) (π ⟨3712 + p.val, _⟩) = _
        rw [mixed_at1 π hπ m0 m1 m2 h0' h1' h2' (x t) (hx t), mixed_at1 π hπ m0 m1 m2 h0' h1' h2' (W o) (hW o)]
      · rw [← seg_sum 127 (by norm_num) π 3968 128 (by norm_num) (by norm_num) (x t) (W o) (hx t) (hW o)]
        refine Finset.sum_congr rfl (fun p _ => ?_)
        show mixed m0 m1 m2 (x t) (π ⟨3968 + p.val, _⟩) * mixed m0 m1 m2 (W o) (π ⟨3968 + p.val, _⟩) = _
        rw [mixed_at2 π hπ m0 m1 m2 h0' h1' h2' (x t) (hx t), mixed_at2 π hπ m0 m1 m2 h0' h1' h2' (W o) (hW o)]
  unfold maskedForm gatheredForm
  rw [hsum, zero_add (_ + _), zero_add (segTerm 7 π 0 3712 _ (x t) (W o))]
  exact congrArg (· + b o) (add_assoc _ _ _).symm

end Cert.QSpec

end
-- ==== Proof.PreDecode.lean ====
/-
  What the precondition says of the inputs: every activation and every weight is a real number, and the index
  vector lists each of 0, …, 4095 exactly once (all entries in range, no two equal).
-/
import proofs.«401570_j6768868459276_1_alg».proof.Pre_finite_inputs
import proofs.«401570_j6768868459276_1_alg».proof.Proof.Gen.Pre_finite_inputs
import proofs.«401570_j6768868459276_1_alg».proof.Proof.Views
import Idealize.ShloMosaic.Lib.ReduceAll
import Idealize.ShloMosaic.Lib.StableHlo.Predicate

noncomputable section

namespace Cert.PreDecode

open Cert.Pre_finite_inputs Cert.QSpec
open Idealize.ShloMosaic Idealize.ShloMosaic.ValueIdx

/-- The scalar shape has a single index. -/
instance : Subsingleton S_.Idx := ⟨fun a b => funext fun d => d.elim0⟩

/-- The pattern with all exponent bits set, sign and fraction clear, denotes +∞. -/
theorem ofBits_pinf : Ideal.ofBits .f32 0x7F800000#32 = (⊤ : EReal) := by
  simp [Ideal.ofBits, Ideal.ieee]

/-- An extended real whose magnitude max(v, −v) lies strictly below +∞ is neither infinity, hence a real. -/
theorem real_of_abs_lt_top (v : EReal) (h : Ideal.cmp .olt (max v (-v)) (⊤ : EReal) = 1#1) : ∃ r : ℝ, v = (r : EReal) := by
  induction v using EReal.rec with
  | bot => simp [Ideal.cmp] at h
  | coe r => exact ⟨r, rfl⟩
  | top => simp [Ideal.cmp] at h

/-- A 32-bit word that is signed-nonnegative and signed-below 4096 has unsigned value below 4096: a word with its
    top bit set reads negative, so nonnegativity clears the top bit and the two readings agree. -/
theorem toNat_lt_of_range (w : BitVec 32) (h : IntOp.andi (IntOp.cmpi .sge w 0#32) (IntOp.cmpi .slt w 4096#32) = 1#1) :
    w.toNat < 4096 := by
  obtain ⟨h1, h2⟩ := IntOp.andi_eq_one.1 h
  rw [IntOp.cmpi_sge, show (0#32 : BitVec 32).toInt = 0 from by decide] at h1
  rw [IntOp.cmpi_slt, show (4096#32 : BitVec 32).toInt = 4096 from by decide] at h2
  have hlt : 2 * w.toNat < 2 ^ 32 := BitVec.toInt_pos_iff.1 h1
  rw [BitVec.toInt_eq_toNat_of_lt hlt] at h2
  omega

/-- Two positions below 4096 whose 32-bit words coincide are the same position. -/
theorem pos_eq_of_word_eq (p q : Fin 4096) (h : BitVec.ofNat 32 p.val = BitVec.ofNat 32 q.val) : p = q := by
  have := congrArg BitVec.toNat h
  rw [BitVec.toNat_ofNat, BitVec.toNat_ofNat] at this
  have hp := p.isLt
  have hq := q.isLt
  exact Fin.ext (by omega)

/-- A bitwise "or" of two arrays, read at an index, is the "or" of the two elements. -/
theorem ori_at {s : Shape} {w : Nat} (a c : IVec s w) (i : s.Idx) : ori a c i = IntOp.ori (a i) (c i) := rfl

/-- A comparison of two arrays of words, read at an index, compares the two elements. -/
theorem cmpi_at {s : Shape} {w : Nat} (pr : CmpIPredicate) (a c : IVec s w) (i : s.Idx) :
    cmpi pr a c i = IntOp.cmpi pr (a i) (c i) := rfl

theorem pre_decode [Cert.Pre_finite_inputs.Facts] (x : FVec Ideal S32x8x4096 .f32) (W : FVec Ideal S11008x4096 .f32)
    (b : FVec Ideal S11008 .f32) (idx : IVec S4096 32)
    (h : Cert.Pre_finite_inputs.fn (F := Ideal) x W b idx = fun _ => 1#1) :
    (∀ i, ∃ r : ℝ, x i = (r : EReal)) ∧ (∀ i, ∃ r : ℝ, W i = (r : EReal))
    ∧ ∃ π : Fin 4096 → Fin 4096, Function.Bijective π ∧ ∀ p : Fin 4096, idxEnt idx p = BitVec.ofNat 32 (π p).val := by
  have h0 := congrFun h ValueIdx.ix0
  dsimp only [fn, fn_part1] at h0
  -- the result bit is a conjunction of five bits: both floats' finiteness, the bias's, the range test, the distinctness test
  obtain ⟨h4, hd⟩ := IntOp.andi_eq_one.1 h0
  obtain ⟨h3, hr⟩ := IntOp.andi_eq_one.1 h4
  obtain ⟨h2, -⟩ := IntOp.andi_eq_one.1 h3
  obtain ⟨hx, hW⟩ := IntOp.andi_eq_one.1 h2
  -- every activation has magnitude below +∞
  have ex : ∀ i, ∃ r : ℝ, x i = (r : EReal) := fun i => by
    have e : Ideal.cmp .olt (max (x i) (-(x i))) (Ideal.ofBits .f32 0x7F800000#32) = 1#1 :=
      Host.reduce_andi_all _ _ _ _ _ hx i
    rw [ofBits_pinf] at e
    exact real_of_abs_lt_top _ e
  -- and so has every weight
  have eW : ∀ i, ∃ r : ℝ, W i = (r : EReal) := fun i => by
    have e : Ideal.cmp .olt (max (W i) (-(W i))) (Ideal.ofBits .f32 0x7F800000#32) = 1#1 :=
      Host.reduce_andi_all _ _ _ _ _ hW i
    rw [ofBits_pinf] at e
    exact real_of_abs_lt_top _ e
  -- every index word is a position 0, …, 4095
  have hrange : ∀ p : Fin 4096, (idx (ix1 p)).toNat < 4096 := fun p =>
    toNat_lt_of_range _ (Host.reduce_andi_all _ _ _ _ _ hr (ix1 p))
  -- entry (p, q) of the square test: the words at p and q differ, or p and q are the same position
  have hdist : ∀ p q : Fin 4096, idx (ix1 p) = idx (ix1 q) → p = q := fun p q hpq => by
    have e := Host.reduce_andi_all _ _ _ _ _ hd (StableHlo.Predicate.ij p q)
    rw [ori_at, cmpi_at, cmpi_at,
      StableHlo.Predicate.bcast_rows Facts.bcast_S4096_S4096x1_0 Facts.bcast_S4096x1_S4096x4096_0_1 idx p q,
      StableHlo.Predicate.bcast_cols Facts.bcast_S4096_S1x4096_1 Facts.bcast_S1x4096_S4096x4096_0_1 idx p q,
      StableHlo.Predicate.bcast_rows Facts.bcast_S4096_S4096x1_0 Facts.bcast_S4096x1_S4096x4096_0_1 (iotaInDim S4096 32 0) p q,
      StableHlo.Predicate.bcast_cols Facts.bcast_S4096_S1x4096_1 Facts.bcast_S1x4096_S4096x4096_0_1 (iotaInDim S4096 32 0) p q,
      StableHlo.Predicate.iota_apply, StableHlo.Predicate.iota_apply] at e
    have ep : ix1 p = Shape.Idx.ofFin p := Shape.Idx.eq_ofFin (ix1 p)
    have eq : ix1 q = Shape.Idx.ofFin q := Shape.Idx.eq_ofFin (ix1 q)
    rw [ep, eq] at hpq
    rcases IntOp.ori_eq_one.1 e with h1 | h2
    · exact absurd hpq (IntOp.cmpi_ne.1 h1)
    · exact pos_eq_of_word_eq p q (IntOp.cmpi_eq.1 h2)
  -- the entries, read as positions, are an injective self-map of a finite set, so a bijection
  refine ⟨ex, eW, fun p => ⟨(idx (ix1 p)).toNat, hrange p⟩, ?_, ?_⟩
  · apply Finite.injective_iff_bijective.1
    intro p q hpq
    have hv := Fin.mk.inj hpq
    exact hdist p q (BitVec.eq_of_toNat_eq hv)
  · intro p
    show idx (ix1 p) = BitVec.ofNat 32 (idx (ix1 p)).toNat
    apply BitVec.eq_of_toNat_eq
    rw [BitVec.toNat_ofNat]
    exact (Nat.mod_eq_of_lt (idx (ix1 p)).isLt).symm

end Cert.PreDecode

end
-- ==== Proof.Consts.lean ====
/-
  The float constants both programs spell, as the extended reals their bit patterns denote: the three top levels
  7, 31 and 127 with their negatives, zero, one, and −∞ (the start of a running maximum).
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_ninf : Ideal.ofBits .f32 0xFF800000#32 = ⊥ := by
  simp [Ideal.ofBits, Ideal.ieee]

theorem ofBits_7 : Ideal.ofBits .f32 0x40E00000#32 = ((7 : ℝ) : EReal) := by
  simp [Ideal.ofBits, Ideal.ieee, -EReal.coe_mul]; norm_num

theorem ofBits_neg7 : Ideal.ofBits .f32 0xC0E00000#32 = ((-7 : ℝ) : EReal) := by
  simp [Ideal.ofBits, Ideal.ieee, -EReal.coe_mul]; norm_num

theorem ofBits_31 : Ideal.ofBits .f32 0x41F80000#32 = ((31 : ℝ) : EReal) := by
  simp [Ideal.ofBits, Ideal.ieee, -EReal.coe_mul]; norm_num

theorem ofBits_neg31 : Ideal.ofBits .f32 0xC1F80000#32 = ((-31 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

end Cert.Consts

end
-- ==== Proof.RefValue.lean ====
/-
  The reference program's result read at an index: the gathered form at the token and output channel.

  The program reorders the channel axis of the activations and of the weights by the index vector (two gathers of
  whole columns), cuts the reordered axis into the ranges [0, 3712), [3712, 3968) and [3968, 4096), and treats each
  range alike with its own top level 7, 31, 127: per row the largest magnitude over the top level is the step (one
  where it is zero), every entry is divided by the step, clipped to the levels and rounded to even, the integer rows
  are multiplied and the product is scaled by the two steps. The three shares are added onto zero in that order, the
  bias is added, and the [256, 11008] result is viewed as [32, 8, 11008]. Below, each stage is read at one index: the
  index words (a word below 4096 is neither wrapped nor clamped), the two gathers, then per range and per side the
  segment, its largest magnitude, the step and the quantised entry, then the range's share, and last the sum.
-/
import proofs.«401570_j6768868459276_1_alg».proof.Proof.Gen.ReferenceIdeal.Read
import proofs.«401570_j6768868459276_1_alg».proof.Proof.Views
import proofs.«401570_j6768868459276_1_alg».proof.Proof.Consts

noncomputable section

namespace Cert.ReferenceIdeal.RefValue

open Cert.ReferenceIdeal Cert.ReferenceIdeal.Gen Cert.QSpec
open Idealize.ShloMosaic Idealize.ShloMosaic.TcCoe Idealize.ShloMosaic.ValueIdx Idealize.SL.Sem

/-! ## A gather of whole columns

The operand is [A, N], the start indices an [n, 1] column; the one start-index component names the operand's second axis,
which is collapsed, and the first axis is carried over whole. Result entry (r, p) is then the operand's entry in row r
at the column the p-th start index names, read as a signed integer and clamped into 0 … N − 1. -/

/-- Any valid position of a one-element list holds that element. -/
theorem getElem_of_eq_singleton {β : Type} (l : List β) (b : β) (k : ℕ) (hk : k < l.length) (hl : l = [b]) : l[k] = b := by
  subst hl
  have : k = 0 := by simpa using hk
  subst this; rfl

/-- Result entry (r, p) of the column gather: row r of the operand, at the clamped p-th start index. On the first
    operand axis only the offset coordinate contributes (no start, no batching); on the second only the clamped start
    (the axis is collapsed, so its offset is zero), and the start index is read at row p of the index column. -/
theorem gather_cols {α : Type} {A N n w : ℕ} (d : GatherDims ⟨2, ![A, N]⟩ ⟨2, ![n, 1]⟩ ⟨2, ![A, n]⟩)
    (hoff : d.offsetDims = [0]) (hcoll : d.collapsedSliceDims = [1]) (hob : d.operandBatchingDims = [])
    (hsim : d.startIndexMap = [1]) (hivd : d.indexVectorDim = 1) (hN : 0 < N)
    (x : (⟨2, ![A, N]⟩ : Shape).Idx → α) (idx : IVec ⟨2, ![n, 1]⟩ w) (r : Fin A) (p : Fin n) :
    Host.gather d x idx (ix2 r p)
      = x (ix2 r (⟨min (idx (ix2 p (0 : Fin 1))).toInt.toNat (N - 1), by omega⟩ : Fin N)) := by
  unfold Host.gather
  congr 1
  funext a
  apply Fin.ext
  have hb : ∀ c : Fin 2, c ∉ d.operandBatchingDims := fun c => by rw [hob]; exact List.not_mem_nil
  match a with
  | ⟨0, _⟩ =>
    have hm : (0 : Fin 2) ∉ d.startIndexMap := by rw [hsim]; simp
    have hk : (0 : Fin 2) ∈ d.sKept := by rw [GatherDims.mem_sKept, hcoll]; exact ⟨by simp, hb 0⟩
    show d.start (ix2 r p) idx 0 + d.batchCoord (ix2 r p) 0 + d.offCoord (ix2 r p) 0 = r.val
    rw [GatherDims.batchCoord_eq_zero _ _ _ (hb 0)]
    unfold GatherDims.start GatherDims.offCoord
    rw [dif_neg hm, dif_pos hk]
    simp only [Nat.zero_add, Nat.add_zero]
    rw [getElem_of_eq_singleton d.offsetDims 0 _ _ hoff]
    rfl
  | ⟨1, _⟩ =>
    have hm : (1 : Fin 2) ∈ d.startIndexMap := by rw [hsim]; exact List.mem_singleton.mpr rfl
    have hk : (1 : Fin 2) ∉ d.sKept := by rw [GatherDims.mem_sKept, hcoll]; simp
    have hsl : d.sliceSizes 1 = 1 := d.slice_collapsed 1 (by rw [hcoll]; exact List.mem_singleton.mpr rfl)
    show d.start (ix2 r p) idx 1 + d.batchCoord (ix2 r p) 1 + d.offCoord (ix2 r p) 1 = _
    rw [GatherDims.batchCoord_eq_zero _ _ _ (hb 1), GatherDims.offCoord_eq_zero _ _ _ hk]
    unfold GatherDims.start
    rw [dif_pos hm]
    simp only [Nat.add_zero]
    show min (idx _).toInt.toNat (N - d.sliceSizes 1) = min (idx (ix2 p (0 : Fin 1))).toInt.toNat (N - 1)
    rw [hsl]
    congr 3
    congr 1
    funext b
    apply Fin.ext
    match b with
    | ⟨0, _⟩ =>
      unfold GatherDims.siIdx
      rw [dif_neg (by rw [hivd]; show ¬ (0 : ℕ) = 1; omega)]
      unfold GatherDims.siCoord
      simp only [Fin.val_cast]
      rw [getElem_of_eq_singleton d.batchDims 1 _ _ (by show Shape.kept _ d.offsetDims = [1]; rw [hoff]; rfl)]
      rfl
    | ⟨1, _⟩ =>
      unfold GatherDims.siIdx
      rw [dif_pos (by rw [hivd])]
      show List.idxOf (1 : Fin 2) d.startIndexMap = 0
      rw [hsim]; simp

/-! ## Index words -/

/-- A natural below 4096, as a 32-bit word, is that same number when read signed. -/
theorem toInt_ofNat_small (k : ℕ) (hk : k < 4096) : (BitVec.ofNat 32 k).toInt = (k : ℤ) := by
  rw [BitVec.toInt_eq_toNat_cond, BitVec.toNat_ofNat, Nat.mod_eq_of_lt (by omega)]
  split <;> omega

/-- Wrapping a negative index by adding 4096 leaves a word below 4096 alone: it is not negative. -/
theorem wrap_small (k : ℕ) (hk : k < 4096) :
    Scalar.select (IntOp.cmpi .slt (BitVec.ofNat 32 k) 0#32) (IntOp.addi (BitVec.ofNat 32 k) 4096#32) (BitVec.ofNat 32 k)
      = BitVec.ofNat 32 k := by
  have h : IntOp.cmpi .slt (BitVec.ofNat 32 k) 0#32 = 0#1 := by
    unfold IntOp.cmpi
    have : (BitVec.ofNat 32 k).slt 0#32 = false := by
      rw [BitVec.slt, toInt_ofNat_small k hk]
      simp
    simp only [this]; rfl
  rw [h, select_zero]

/-- Row p of the index column built for the activations' gather is the word of π p. -/
theorem v6_at (x3 : IVec S4096 32) (π : Fin 4096 → Fin 4096)
    (hidx : ∀ p : Fin 4096, idxEnt x3 p = BitVec.ofNat 32 (π p).val) (p : Fin 4096) :
    Read.val_main_v6 (F := Ideal) x3 (ix2 p (0 : Fin 1)) = BitVec.ofNat 32 (π p).val := by
  have e : Read.idx_main_v6 (ix2 p (0 : Fin 1)) = ix1 p := funext fun a => match a with | ⟨0, _⟩ => rfl
  have hp : x3 (ix1 p) = BitVec.ofNat 32 (π p).val := hidx p
  rw [Read.val_main_v6_apply, e, Read.val_main_v5_apply, Read.val_main_v2_apply, Read.val_main_v4_apply,
    Read.val_main_v1_apply, Read.val_main_v3_apply, Read.val_main_c_apply, Read.val_main_c_0_apply, hp]
  exact wrap_small _ (π p).isLt

/-- Row p of the index column built for the weights' gather is the word of π p. -/
theorem v13_at (x3 : IVec S4096 32) (π : Fin 4096 → Fin 4096)
    (hidx : ∀ p : Fin 4096, idxEnt x3 p = BitVec.ofNat 32 (π p).val) (p : Fin 4096) :
    Read.val_main_v13 (F := Ideal) x3 (ix2 p (0 : Fin 1)) = BitVec.ofNat 32 (π p).val := by
  have e : Read.idx_main_v13 (ix2 p (0 : Fin 1)) = ix1 p := funext fun a => match a with | ⟨0, _⟩ => rfl
  have hp : x3 (ix1 p) = BitVec.ofNat 32 (π p).val := hidx p
  rw [Read.val_main_v13_apply, e, Read.val_main_v12_apply, Read.val_main_v9_apply, Read.val_main_v11_apply,
    Read.val_main_v8_apply, Read.val_main_v10_apply, Read.val_main_c_1_apply, Read.val_main_c_2_apply, hp]
  exact wrap_small _ (π p).isLt

/-- Clamping into 0 … 4095 is the identity on a word below 4096. -/
theorem clamp_small (k : ℕ) (hk : k < 4096) : min (BitVec.ofNat 32 k).toInt.toNat (4096 - 1) = k := by
  rw [toInt_ofNat_small k hk]; simp; omega

/-! ## The two gathers at an index -/

/-- The reordered activations: token t at position p holds channel π p of that token. The token's row of the
    [256, 4096] view is batch t / 8, position t % 8 of the [32, 8, 4096] array. -/
theorem v7_at (x0 : FVec Ideal S32x8x4096 .f32) (x3 : IVec S4096 32) (π : Fin 4096 → Fin 4096)
    (hidx : ∀ p : Fin 4096, idxEnt x3 p = BitVec.ofNat 32 (π p).val) (t : Fin 256) (p : Fin 4096) :
    Read.val_main_v7 (F := Ideal) x0 x3 (ix2 t p) = tokRows x0 t (π p) := by
  unfold Read.val_main_v7
  rw [gather_cols _ rfl rfl rfl rfl rfl (by norm_num), Read.val_main_v0_apply]
  unfold tokRows
  congr 1
  funext a
  apply Fin.ext
  have h := clamp_small _ (π p).isLt
  have ht := t.isLt
  have hq := (π p).isLt
  have e6 := v6_at x3 π hidx p
  match a with
  | ⟨0, _⟩ =>
    show (t.val * 4096 + min (Read.val_main_v6 (F := Ideal) x3 (ix2 p (0 : Fin 1))).toInt.toNat (4096 - 1)) / 32768 = t.val / 8
    rw [e6, h]; omega
  | ⟨1, _⟩ =>
    show (t.val * 4096 + min (Read.val_main_v6 (F := Ideal) x3 (ix2 p (0 : Fin 1))).toInt.toNat (4096 - 1)) / 4096 % 8 = t.val % 8
    rw [e6, h]; omega
  | ⟨2, _⟩ =>
    show (t.val * 4096 + min (Read.val_main_v6 (F := Ideal) x3 (ix2 p (0 : Fin 1))).toInt.toNat (4096 - 1)) % 4096 = (π p).val
    rw [e6, h]; omega

/-- The reordered weights: output row o at position p holds channel π p of that row. -/
theorem v14_at (x1 : FVec Ideal S11008x4096 .f32) (x3 : IVec S4096 32) (π : Fin 4096 → Fin 4096)
    (hidx : ∀ p : Fin 4096, idxEnt x3 p = BitVec.ofNat 32 (π p).val) (o : Fin 11008) (p : Fin 4096) :
    Read.val_main_v14 (F := Ideal) x1 x3 (ix2 o p) = matRows x1 o (π p) := by
  unfold Read.val_main_v14
  rw [gather_cols _ rfl rfl rfl rfl rfl (by norm_num)]
  unfold matRows
  congr 1
  funext a
  apply Fin.ext
  have h := clamp_small _ (π p).isLt
  have e13 := v13_at x3 π hidx p
  match a with
  | ⟨0, _⟩ => rfl
  | ⟨1, _⟩ =>
    show min (Read.val_main_v13 (F := Ideal) x3 (ix2 p (0 : Fin 1))).toInt.toNat (4096 - 1) = (π p).val
    rw [e13, h]

/-! ## Words of the pointwise stages -/

/-- Selecting on a float equality test is the `if` on the equality. -/
theorem select_oeq (x y a b : EReal) :
    Scalar.select (Ideal.cmp .oeq x y) a b = if x = y then a else b := by
  unfold Scalar.select Ideal.cmp
  by_cases h : x = y <;> simp [h]

/-- The step of a row: its largest magnitude over the top level, replaced by one where that quotient is zero. -/
theorem scale_word (q : ℝ) (qb : BitVec 32) (hq : Ideal.ofBits .f32 qb = (q : EReal)) {n : ℕ} (v : Fin n → EReal) :
    Scalar.select
        (FloatOps.cmpf (F := Ideal) (φ := .f32) .oeq
          (FloatOps.hostDivf (rowmax fun k => max (v k) (-(v k))) (FloatOps.ofBits .f32 qb))
          (FloatOps.ofBits .f32 0x00000000#32))
        (FloatOps.ofBits (F := Ideal) .f32 0x3F800000#32)
        (FloatOps.hostDivf (rowmax fun k => max (v k) (-(v k))) (FloatOps.ofBits .f32 qb))
      = scale q v := by
  show Scalar.select (Ideal.cmp .oeq (Ideal.div _ (Ideal.ofBits .f32 qb)) (Ideal.ofBits .f32 0x00000000#32))
      (Ideal.ofBits .f32 0x3F800000#32) (Ideal.div _ (Ideal.ofBits .f32 qb)) = _
  rw [select_oeq, hq, Cert.Consts.ofBits_zero, Cert.Consts.ofBits_one]
  rfl

/-- One quantised entry: divide by the step, clip below at −q and above at q, round to nearest with ties to even. -/
theorem qent_word (q : ℝ) (qb nqb : BitVec 32) (hq : Ideal.ofBits .f32 qb = (q : EReal))
    (hnq : Ideal.ofBits .f32 nqb = ((-q : ℝ) : EReal)) (s v : EReal) :
    FloatOps.hostUnary (F := Ideal) (φ := .f32) .roundeven
        (FloatOps.minimumf (FloatOps.ofBits .f32 qb)
          (FloatOps.maximumf (FloatOps.ofBits .f32 nqb) (FloatOps.hostDivf v s)))
      = qent q s v := by
  show Ideal.liftRound Ideal.roundHalfEven (min (Ideal.ofBits .f32 qb) (max (Ideal.ofBits .f32 nqb) (Ideal.div v s))) = _
  rw [hq, hnq]
  rfl

/-! ## A row maximum from −∞ -/

/-- A maximum along the second axis of an [A, n] array, started from −∞, is at row r the fold of `max` over that
    row's n entries: the indices that reduce to r are exactly (r, k), k < n, and `max` is commutative and associative. -/
theorem reduce_rowmax {A n : ℕ} (h' : (⟨2, ![A, n]⟩ : Shape).ReducesTo [1] ⟨1, ![A]⟩)
    (h : (⟨2, ![A, n]⟩ : Shape).Reduces [1] ⟨1, ![A]⟩) (hu : 0 < S_.numel)
    (x : (⟨2, ![A, n]⟩ : Shape).Idx → EReal) (init : S_.Idx → EReal) (hinit : ∀ i, init i = ⊥) (r : Fin A) :
    Host.reduce (FloatOps.maximumf (F := Ideal) (φ := .f32)) x init h' hu (ix1 r)
      = rowmax fun k : Fin n => x (ix2 r k) := by
  rw [Host.reduce_eq_fold_single _ x init h' h hu, hinit]
  have e : (x ∘ h.lift (ix1 r)) = fun k : Fin n => x (ix2 r k) := by
    funext k
    show x (h.lift (ix1 r) k) = _
    congr 1
    funext c
    apply Fin.ext
    rw [h.lift_val]
    unfold Shape.Reduces.liftVal
    match c with
    | ⟨0, _⟩ => rfl
    | ⟨1, _⟩ => rfl
  rw [e]
  rfl

/-! ## The 4-bit group: positions 0 … 3711, top level 7 -/

section Group4
variable (x0 : FVec Ideal S32x8x4096 .f32) (x1 : FVec Ideal S11008x4096 .f32) (x3 : IVec S4096 32)
  (π : Fin 4096 → Fin 4096) (hidx : ∀ p : Fin 4096, idxEnt x3 p = BitVec.ofNat 32 (π p).val)
include hidx

/-- The 4-bit range of token t's reordered row is the corresponding segment of the row under π. -/
theorem a4_seg (t : Fin 256) (p : Fin 3712) :
    Read.val_main_v16 (F := Ideal) x0 x3 (ix2 t p) = seg π 0 3712 (by norm_num) (tokRows x0 t) p := by
  have e : Read.idx_main_v16 (ix2 t p) = ix2 t (⟨0 + p.val, by have := p.isLt; omega⟩ : Fin 4096) :=
    funext fun a => Fin.ext (by
      match a with
      | ⟨0, _⟩ => rfl
      | ⟨1, _⟩ => show p.val = 0 + p.val; omega)
  rw [Read.val_main_v16_apply, e, v7_at x0 x3 π hidx]
  rfl

/-- The largest magnitude over the 4-bit segment of token t. -/
theorem a4_max (t : Fin 256) :
    Read.val_main_v18 (F := Ideal) x0 x3 (ix1 t)
      = rowmax fun k => max (seg π 0 3712 (by norm_num) (tokRows x0 t) k) (-(seg π 0 3712 (by norm_num) (tokRows x0 t) k)) := by
  unfold Read.val_main_v18
  rw [reduce_rowmax _ (by decide) _ _ (Read.val_main_cst_3 (F := Ideal)) (fun _ => Cert.Consts.ofBits_ninf) t]
  congr 1
  funext k
  rw [Read.val_main_v17_apply, a4_seg x0 x3 π hidx]
  rfl

/-- Token t's step for the 4-bit segment. -/
theorem a4_scale (t : Fin 256) :
    Read.val_main_v25 (F := Ideal) x0 x3 (ix2 t (0 : Fin 1)) = scale 7 (seg π 0 3712 (by norm_num) (tokRows x0 t)) := by
  have e : Read.idx_main_v19 (ix2 t (0 : Fin 1)) = ix1 t := funext fun a => match a with | ⟨0, _⟩ => rfl
  rw [Read.val_main_v25_apply, Read.val_main_v23_apply, Read.val_main_v21_apply, Read.val_main_v19_apply, e,
    a4_max x0 x3 π hidx t, Read.val_main_v20_apply, Read.val_main_cst_4_apply, Read.val_main_v22_apply,
    Read.val_main_cst_5_apply, Read.val_main_v24_apply, Read.val_main_cst_6_apply]
  exact scale_word 7 _ Cert.Consts.ofBits_7 _

/-- Entry p of token t's 4-bit segment on the integer grid. -/
theorem a4_ent (t : Fin 256) (p : Fin 3712) :
    Read.val_main_v29 (F := Ideal) x0 x3 (ix2 t p)
      = qent 7 (scale 7 (seg π 0 3712 (by norm_num) (tokRows x0 t))) (seg π 0 3712 (by norm_num) (tokRows x0 t) p) := by
  have e : Read.idx_main_v26 (ix2 t p) = ix2 t (0 : Fin 1) :=
    funext fun a => match a with | ⟨0, _⟩ => rfl | ⟨1, _⟩ => rfl
  rw [Read.val_main_v29_apply, Read.val_main_v28_apply, Read.val_main_call1_v4_apply, Read.val_main_call1_v3_apply,
    Read.val_main_cst_8_apply, Read.val_main_call1_v2_apply, Read.val_main_call1_v1_apply, Read.val_main_call1_v0_apply,
    Read.val_main_cst_7_apply, Read.val_main_v27_apply, a4_seg x0 x3 π hidx, Read.val_main_v26_apply, e,
    a4_scale x0 x3 π hidx]
  exact qent_word 7 _ _ Cert.Consts.ofBits_7 Cert.Consts.ofBits_neg7 _ _

/-- The 4-bit range of weight row o's reordered row is the corresponding segment of the row under π. -/
theorem w4_seg (o : Fin 11008) (p : Fin 3712) :
    Read.val_main_v30 (F := Ideal) x1 x3 (ix2 o p) = seg π 0 3712 (by norm_num) (matRows x1 o) p := by
  have e : Read.idx_main_v30 (ix2 o p) = ix2 o (⟨0 + p.val, by have := p.isLt; omega⟩ : Fin 4096) :=
    funext fun a => Fin.ext (by
      match a with
      | ⟨0, _⟩ => rfl
      | ⟨1, _⟩ => show p.val = 0 + p.val; omega)
  rw [Read.val_main_v30_apply, e, v14_at x1 x3 π hidx]
  rfl

/-- The largest magnitude over the 4-bit segment of weight row o. -/
theorem w4_max (o : Fin 11008) :
    Read.val_main_v32 (F := Ideal) x1 x3 (ix1 o)
      = rowmax fun k => max (seg π 0 3712 (by norm_num) (matRows x1 o) k) (-(seg π 0 3712 (by norm_num) (matRows x1 o) k)) := by
  unfold Read.val_main_v32
  rw [reduce_rowmax _ (by decide) _ _ (Read.val_main_cst_9 (F := Ideal)) (fun _ => Cert.Consts.ofBits_ninf) o]
  congr 1
  funext k
  rw [Read.val_main_v31_apply, w4_seg x1 x3 π hidx]
  rfl

/-- Weight row o's step for the 4-bit segment. -/
theorem w4_scale (o : Fin 11008) :
    Read.val_main_v39 (F := Ideal) x1 x3 (ix2 o (0 : Fin 1)) = scale 7 (seg π 0 3712 (by norm_num) (matRows x1 o)) := by
  have e : Read.idx_main_v33 (ix2 o (0 : Fin 1)) = ix1 o := funext fun a => match a with | ⟨0, _⟩ => rfl
  rw [Read.val_main_v39_apply, Read.val_main_v37_apply, Read.val_main_v35_apply, Read.val_main_v33_apply, e,
    w4_max x1 x3 π hidx o, Read.val_main_v34_apply, Read.val_main_cst_10_apply, Read.val_main_v36_apply,
    Read.val_main_cst_11_apply, Read.val_main_v38_apply, Read.val_main_cst_12_apply]
  exact scale_word 7 _ Cert.Consts.ofBits_7 _

/-- Entry p of weight row o's 4-bit segment on the integer grid. -/
theorem w4_ent (o : Fin 11008) (p : Fin 3712) :
    Read.val_main_v43 (F := Ideal) x1 x3 (ix2 o p)
      = qent 7 (scale 7 (seg π 0 3712 (by norm_num) (matRows x1 o))) (seg π 0 3712 (by norm_num) (matRows x1 o) p) := by
  have e : Read.idx_main_v40 (ix2 o p) = ix2 o (0 : Fin 1) :=
    funext fun a => match a with | ⟨0, _⟩ => rfl | ⟨1, _⟩ => rfl
  rw [Read.val_main_v43_apply, Read.val_main_v42_apply, Read.val_main_call4_v4_apply, Read.val_main_call4_v3_apply,
    Read.val_main_cst_14_apply, Read.val_main_call4_v2_apply, Read.val_main_call4_v1_apply, Read.val_main_call4_v0_apply,
    Read.val_main_cst_13_apply, Read.val_main_v41_apply, w4_seg x1 x3 π hidx, Read.val_main_v40_apply, e,
    w4_scale x1 x3 π hidx]
  exact qent_word 7 _ _ Cert.Consts.ofBits_7 Cert.Consts.ofBits_neg7 _ _

/-- The 4-bit share of the product at (t, o): the sum over the segment of the products of the two integer entries
    (a sum onto zero is the sum), times the product of the two steps. -/
theorem term4 (t : Fin 256) (o : Fin 11008) :
    Read.val_main_v49 (F := Ideal) x0 x1 x3 (ix2 t o)
      = segTerm 7 π 0 3712 (by norm_num) (tokRows x0 t) (matRows x1 o) := by
  have el : ∀ k : Fin 3712, Read.lidx_main_v44 (ix2 t o) k = ix2 t k := fun k =>
    funext fun a => match a with | ⟨0, _⟩ => rfl | ⟨1, _⟩ => rfl
  have er : ∀ k : Fin 3712, Read.ridx_main_v44 (ix2 t o) k = ix2 o k := fun k =>
    funext fun a => match a with | ⟨0, _⟩ => rfl | ⟨1, _⟩ => rfl
  have e46 : Read.idx_main_v46 (ix2 t o) = ix2 t (0 : Fin 1) :=
    funext fun a => match a with | ⟨0, _⟩ => rfl | ⟨1, _⟩ => rfl
  have e47 : Read.idx_main_v45 (Read.idx_main_v47 (ix2 t o)) = ix2 o (0 : Fin 1) :=
    funext fun a => match a with | ⟨0, _⟩ => rfl | ⟨1, _⟩ => rfl
  rw [Read.val_main_v49_apply, Read.val_main_v44_apply, Read.val_main_v48_apply, Read.val_main_v46_apply, e46,
    a4_scale x0 x3 π hidx, Read.val_main_v47_apply, Read.val_main_v45_apply, e47, w4_scale x1 x3 π hidx]
  unfold segTerm
  show (∑ k : Fin 3712, _) * (_ * _) = _
  refine congrArg₂ (· * ·) ((Finset.sum_congr rfl fun k _ => ?_).trans (zero_add _).symm) rfl
  rw [el, er, a4_ent x0 x3 π hidx, w4_ent x1 x3 π hidx]

end Group4

/-! ## The 6-bit group: positions 3712 … 3967, top level 31 -/

section Group6
variable (x0 : FVec Ideal S32x8x4096 .f32) (x1 : FVec Ideal S11008x4096 .f32) (x3 : IVec S4096 32)
  (π : Fin 4096 → Fin 4096) (hidx : ∀ p : Fin 4096, idxEnt x3 p = BitVec.ofNat 32 (π p).val)
include hidx

/-- The 6-bit range of token t's reordered row is the corresponding segment of the row under π. -/
theorem a6_seg (t : Fin 256) (p : Fin 256) :
    Read.val_main_v51 (F := Ideal) x0 x3 (ix2 t p) = seg π 3712 256 (by norm_num) (tokRows x0 t) p := by
  have e : Read.idx_main_v51 (ix2 t p) = ix2 t (⟨3712 + p.val, by have := p.isLt; omega⟩ : Fin 4096) :=
    funext fun a => Fin.ext (by
      match a with
      | ⟨0, _⟩ => rfl
      | ⟨1, _⟩ => rfl)
  rw [Read.val_main_v51_apply, e, v7_at x0 x3 π hidx]
  rfl

/-- The largest magnitude over the 6-bit segment of token t. -/
theorem a6_max (t : Fin 256) :
    Read.val_main_v53 (F := Ideal) x0 x3 (ix1 t)
      = rowmax fun k => max (seg π 3712 256 (by norm_num) (tokRows x0 t) k) (-(seg π 3712 256 (by norm_num) (tokRows x0 t) k)) := by
  unfold Read.val_main_v53
  rw [reduce_rowmax _ (by decide) _ _ (Read.val_main_cst_15 (F := Ideal)) (fun _ => Cert.Consts.ofBits_ninf) t]
  congr 1
  funext k
  rw [Read.val_main_v52_apply, a6_seg x0 x3 π hidx]
  rfl

/-- Token t's step for the 6-bit segment. -/
theorem a6_scale (t : Fin 256) :
    Read.val_main_v60 (F := Ideal) x0 x3 (ix2 t (0 : Fin 1)) = scale 31 (seg π 3712 256 (by norm_num) (tokRows x0 t)) := by
  have e : Read.idx_main_v54 (ix2 t (0 : Fin 1)) = ix1 t := funext fun a => match a with | ⟨0, _⟩ => rfl
  rw [Read.val_main_v60_apply, Read.val_main_v58_apply, Read.val_main_v56_apply, Read.val_main_v54_apply, e,
    a6_max x0 x3 π hidx t, Read.val_main_v55_apply, Read.val_main_cst_16_apply, Read.val_main_v57_apply,
    Read.val_main_cst_17_apply, Read.val_main_v59_apply, Read.val_main_cst_18_apply]
  exact scale_word 31 _ Cert.Consts.ofBits_31 _

/-- Entry p of token t's 6-bit segment on the integer grid. -/
theorem a6_ent (t : Fin 256) (p : Fin 256) :
    Read.val_main_v64 (F := Ideal) x0 x3 (ix2 t p)
      = qent 31 (scale 31 (seg π 3712 256 (by norm_num) (tokRows x0 t))) (seg π 3712 256 (by norm_num) (tokRows x0 t) p) := by
  have e : Read.idx_main_v61 (ix2 t p) = ix2 t (0 : Fin 1) :=
    funext fun a => match a with | ⟨0, _⟩ => rfl | ⟨1, _⟩ => rfl
  rw [Read.val_main_v64_apply, Read.val_main_v63_apply, Read.val_main_call7_v4_apply, Read.val_main_call7_v3_apply,
    Read.val_main_cst_20_apply, Read.val_main_call7_v2_apply, Read.val_main_call7_v1_apply, Read.val_main_call7_v0_apply,
    Read.val_main_cst_19_apply, Read.val_main_v62_apply, a6_seg x0 x3 π hidx, Read.val_main_v61_apply, e,
    a6_scale x0 x3 π hidx]
  exact qent_word 31 _ _ Cert.Consts.ofBits_31 Cert.Consts.ofBits_neg31 _ _

/-- The 6-bit range of weight row o's reordered row is the corresponding segment of the row under π. -/
theorem w6_seg (o : Fin 11008) (p : Fin 256) :
    Read.val_main_v65 (F := Ideal) x1 x3 (ix2 o p) = seg π 3712 256 (by norm_num) (matRows x1 o) p := by
  have e : Read.idx_main_v65 (ix2 o p) = ix2 o (⟨3712 + p.val, by have := p.isLt; omega⟩ : Fin 4096) :=
    funext fun a => Fin.ext (by
      match a with
      | ⟨0, _⟩ => rfl
      | ⟨1, _⟩ => rfl)
  rw [Read.val_main_v65_apply, e, v14_at x1 x3 π hidx]
  rfl

/-- The largest magnitude over the 6-bit segment of weight row o. -/
theorem w6_max (o : Fin 11008) :
    Read.val_main_v67 (F := Ideal) x1 x3 (ix1 o)
      = rowmax fun k => max (seg π 3712 256 (by norm_num) (matRows x1 o) k) (-(seg π 3712 256 (by norm_num) (matRows x1 o) k)) := by
  unfold Read.val_main_v67
  rw [reduce_rowmax _ (by decide) _ _ (Read.val_main_cst_21 (F := Ideal)) (fun _ => Cert.Consts.ofBits_ninf) o]
  congr 1
  funext k
  rw [Read.val_main_v66_apply, w6_seg x1 x3 π hidx]
  rfl

/-- Weight row o's step for the 6-bit segment. -/
theorem w6_scale (o : Fin 11008) :
    Read.val_main_v74 (F := Ideal) x1 x3 (ix2 o (0 : Fin 1)) = scale 31 (seg π 3712 256 (by norm_num) (matRows x1 o)) := by
  have e : Read.idx_main_v68 (ix2 o (0 : Fin 1)) = ix1 o := funext fun a => match a with | ⟨0, _⟩ => rfl
  rw [Read.val_main_v74_apply, Read.val_main_v72_apply, Read.val_main_v70_apply, Read.val_main_v68_apply, e,
    w6_max x1 x3 π hidx o, Read.val_main_v69_apply, Read.val_main_cst_22_apply, Read.val_main_v71_apply,
    Read.val_main_cst_23_apply, Read.val_main_v73_apply, Read.val_main_cst_24_apply]
  exact scale_word 31 _ Cert.Consts.ofBits_31 _

/-- Entry p of weight row o's 6-bit segment on the integer grid. -/
theorem w6_ent (o : Fin 11008) (p : Fin 256) :
    Read.val_main_v78 (F := Ideal) x1 x3 (ix2 o p)
      = qent 31 (scale 31 (seg π 3712 256 (by norm_num) (matRows x1 o))) (seg π 3712 256 (by norm_num) (matRows x1 o) p) := by
  have e : Read.idx_main_v75 (ix2 o p) = ix2 o (0 : Fin 1) :=
    funext fun a => match a with | ⟨0, _⟩ => rfl | ⟨1, _⟩ => rfl
  rw [Read.val_main_v78_apply, Read.val_main_v77_apply, Read.val_main_call10_v4_apply, Read.val_main_call10_v3_apply,
    Read.val_main_cst_26_apply, Read.val_main_call10_v2_apply, Read.val_main_call10_v1_apply, Read.val_main_call10_v0_apply,
    Read.val_main_cst_25_apply, Read.val_main_v76_apply, w6_seg x1 x3 π hidx, Read.val_main_v75_apply, e,
    w6_scale x1 x3 π hidx]
  exact qent_word 31 _ _ Cert.Consts.ofBits_31 Cert.Consts.ofBits_neg31 _ _

/-- The 6-bit share of the product at (t, o): the sum over the segment of the products of the two integer entries
    (a sum onto zero is the sum), times the product of the two steps. -/
theorem term6 (t : Fin 256) (o : Fin 11008) :
    Read.val_main_v84 (F := Ideal) x0 x1 x3 (ix2 t o)
      = segTerm 31 π 3712 256 (by norm_num) (tokRows x0 t) (matRows x1 o) := by
  have el : ∀ k : Fin 256, Read.lidx_main_v79 (ix2 t o) k = ix2 t k := fun k =>
    funext fun a => match a with | ⟨0, _⟩ => rfl | ⟨1, _⟩ => rfl
  have er : ∀ k : Fin 256, Read.ridx_main_v79 (ix2 t o) k = ix2 o k := fun k =>
    funext fun a => match a with | ⟨0, _⟩ => rfl | ⟨1, _⟩ => rfl
  have e81 : Read.idx_main_v81 (ix2 t o) = ix2 t (0 : Fin 1) :=
    funext fun a => match a with | ⟨0, _⟩ => rfl | ⟨1, _⟩ => rfl
  have e82 : Read.idx_main_v80 (Read.idx_main_v82 (ix2 t o)) = ix2 o (0 : Fin 1) :=
    funext fun a => match a with | ⟨0, _⟩ => rfl | ⟨1, _⟩ => rfl
  rw [Read.val_main_v84_apply, Read.val_main_v79_apply, Read.val_main_v83_apply, Read.val_main_v81_apply, e81,
    a6_scale x0 x3 π hidx, Read.val_main_v82_apply, Read.val_main_v80_apply, e82, w6_scale x1 x3 π hidx]
  unfold segTerm
  show (∑ k : Fin 256, _) * (_ * _) = _
  refine congrArg₂ (· * ·) ((Finset.sum_congr rfl fun k _ => ?_).trans (zero_add _).symm) rfl
  rw [el, er, a6_ent x0 x3 π hidx, w6_ent x1 x3 π hidx]

end Group6

/-! ## The 8-bit group: positions 3968 … 4095, top level 127 -/

section Group8
variable (x0 : FVec Ideal S32x8x4096 .f32) (x1 : FVec Ideal S11008x4096 .f32) (x3 : IVec S4096 32)
  (π : Fin 4096 → Fin 4096) (hidx : ∀ p : Fin 4096, idxEnt x3 p = BitVec.ofNat 32 (π p).val)
include hidx

/-- The 8-bit range of token t's reordered row is the corresponding segment of the row under π. -/
theorem a8_seg (t : Fin 256) (p : Fin 128) :
    Read.val_main_v86 (F := Ideal) x0 x3 (ix2 t p) = seg π 3968 128 (by norm_num) (tokRows x0 t) p := by
  have e : Read.idx_main_v86 (ix2 t p) = ix2 t (⟨3968 + p.val, by have := p.isLt; omega⟩ : Fin 4096) :=
    funext fun a => Fin.ext (by
      match a with
      | ⟨0, _⟩ => rfl
      | ⟨1, _⟩ => rfl)
  rw [Read.val_main_v86_apply, e, v7_at x0 x3 π hidx]
  rfl

/-- The largest magnitude over the 8-bit segment of token t. -/
theorem a8_max (t : Fin 256) :
    Read.val_main_v88 (F := Ideal) x0 x3 (ix1 t)
      = rowmax fun k => max (seg π 3968 128 (by norm_num) (tokRows x0 t) k) (-(seg π 3968 128 (by norm_num) (tokRows x0 t) k)) := by
  unfold Read.val_main_v88
  rw [reduce_rowmax _ (by decide) _ _ (Read.val_main_cst_27 (F := Ideal)) (fun _ => Cert.Consts.ofBits_ninf) t]
  congr 1
  funext k
  rw [Read.val_main_v87_apply, a8_seg x0 x3 π hidx]
  rfl

/-- Token t's step for the 8-bit segment. -/
theorem a8_scale (t : Fin 256) :
    Read.val_main_v95 (F := Ideal) x0 x3 (ix2 t (0 : Fin 1)) = scale 127 (seg π 3968 128 (by norm_num) (tokRows x0 t)) := by
  have e : Read.idx_main_v89 (ix2 t (0 : Fin 1)) = ix1 t := funext fun a => match a with | ⟨0, _⟩ => rfl
  rw [Read.val_main_v95_apply, Read.val_main_v93_apply, Read.val_main_v91_apply, Read.val_main_v89_apply, e,
    a8_max x0 x3 π hidx t, Read.val_main_v90_apply, Read.val_main_cst_28_apply, Read.val_main_v92_apply,
    Read.val_main_cst_29_apply, Read.val_main_v94_apply, Read.val_main_cst_30_apply]
  exact scale_word 127 _ Cert.Consts.ofBits_127 _

/-- Entry p of token t's 8-bit segment on the integer grid. -/
theorem a8_ent (t : Fin 256) (p : Fin 128) :
    Read.val_main_v99 (F := Ideal) x0 x3 (ix2 t p)
      = qent 127 (scale 127 (seg π 3968 128 (by norm_num) (tokRows x0 t))) (seg π 3968 128 (by norm_num) (tokRows x0 t) p) := by
  have e : Read.idx_main_v96 (ix2 t p) = ix2 t (0 : Fin 1) :=
    funext fun a => match a with | ⟨0, _⟩ => rfl | ⟨1, _⟩ => rfl
  rw [Read.val_main_v99_apply, Read.val_main_v98_apply, Read.val_main_call13_v4_apply, Read.val_main_call13_v3_apply,
    Read.val_main_cst_32_apply, Read.val_main_call13_v2_apply, Read.val_main_call13_v1_apply, Read.val_main_call13_v0_apply,
    Read.val_main_cst_31_apply, Read.val_main_v97_apply, a8_seg x0 x3 π hidx, Read.val_main_v96_apply, e,
    a8_scale x0 x3 π hidx]
  exact qent_word 127 _ _ Cert.Consts.ofBits_127 Cert.Consts.ofBits_neg127 _ _

/-- The 8-bit range of weight row o's reordered row is the corresponding segment of the row under π. -/
theorem w8_seg (o : Fin 11008) (p : Fin 128) :
    Read.val_main_v100 (F := Ideal) x1 x3 (ix2 o p) = seg π 3968 128 (by norm_num) (matRows x1 o) p := by
  have e : Read.idx_main_v100 (ix2 o p) = ix2 o (⟨3968 + p.val, by have := p.isLt; omega⟩ : Fin 4096) :=
    funext fun a => Fin.ext (by
      match a with
      | ⟨0, _⟩ => rfl
      | ⟨1, _⟩ => rfl)
  rw [Read.val_main_v100_apply, e, v14_at x1 x3 π hidx]
  rfl

/-- The largest magnitude over the 8-bit segment of weight row o. -/
theorem w8_max (o : Fin 11008) :
    Read.val_main_v102 (F := Ideal) x1 x3 (ix1 o)
      = rowmax fun k => max (seg π 3968 128 (by norm_num) (matRows x1 o) k) (-(seg π 3968 128 (by norm_num) (matRows x1 o) k)) := by
  unfold Read.val_main_v102
  rw [reduce_rowmax _ (by decide) _ _ (Read.val_main_cst_33 (F := Ideal)) (fun _ => Cert.Consts.ofBits_ninf) o]
  congr 1
  funext k
  rw [Read.val_main_v101_apply, w8_seg x1 x3 π hidx]
  rfl

/-- Weight row o's step for the 8-bit segment. -/
theorem w8_scale (o : Fin 11008) :
    Read.val_main_v109 (F := Ideal) x1 x3 (ix2 o (0 : Fin 1)) = scale 127 (seg π 3968 128 (by norm_num) (matRows x1 o)) := by
  have e : Read.idx_main_v103 (ix2 o (0 : Fin 1)) = ix1 o := funext fun a => match a with | ⟨0, _⟩ => rfl
  rw [Read.val_main_v109_apply, Read.val_main_v107_apply, Read.val_main_v105_apply, Read.val_main_v103_apply, e,
    w8_max x1 x3 π hidx o, Read.val_main_v104_apply, Read.val_main_cst_34_apply, Read.val_main_v106_apply,
    Read.val_main_cst_35_apply, Read.val_main_v108_apply, Read.val_main_cst_36_apply]
  exact scale_word 127 _ Cert.Consts.ofBits_127 _

/-- Entry p of weight row o's 8-bit segment on the integer grid. -/
theorem w8_ent (o : Fin 11008) (p : Fin 128) :
    Read.val_main_v113 (F := Ideal) x1 x3 (ix2 o p)
      = qent 127 (scale 127 (seg π 3968 128 (by norm_num) (matRows x1 o))) (seg π 3968 128 (by norm_num) (matRows x1 o) p) := by
  have e : Read.idx_main_v110 (ix2 o p) = ix2 o (0 : Fin 1) :=
    funext fun a => match a with | ⟨0, _⟩ => rfl | ⟨1, _⟩ => rfl
  rw [Read.val_main_v113_apply, Read.val_main_v112_apply, Read.val_main_call16_v4_apply, Read.val_main_call16_v3_apply,
    Read.val_main_cst_38_apply, Read.val_main_call16_v2_apply, Read.val_main_call16_v1_apply, Read.val_main_call16_v0_apply,
    Read.val_main_cst_37_apply, Read.val_main_v111_apply, w8_seg x1 x3 π hidx, Read.val_main_v110_apply, e,
    w8_scale x1 x3 π hidx]
  exact qent_word 127 _ _ Cert.Consts.ofBits_127 Cert.Consts.ofBits_neg127 _ _

/-- The 8-bit share of the product at (t, o): the sum over the segment of the products of the two integer entries
    (a sum onto zero is the sum), times the product of the two steps. -/
theorem term8 (t : Fin 256) (o : Fin 11008) :
    Read.val_main_v119 (F := Ideal) x0 x1 x3 (ix2 t o)
      = segTerm 127 π 3968 128 (by norm_num) (tokRows x0 t) (matRows x1 o) := by
  have el : ∀ k : Fin 128, Read.lidx_main_v114 (ix2 t o) k = ix2 t k := fun k =>
    funext fun a => match a with | ⟨0, _⟩ => rfl | ⟨1, _⟩ => rfl
  have er : ∀ k : Fin 128, Read.ridx_main_v114 (ix2 t o) k = ix2 o k := fun k =>
    funext fun a => match a with | ⟨0, _⟩ => rfl | ⟨1, _⟩ => rfl
  have e116 : Read.idx_main_v116 (ix2 t o) = ix2 t (0 : Fin 1) :=
    funext fun a => match a with | ⟨0, _⟩ => rfl | ⟨1, _⟩ => rfl
  have e117 : Read.idx_main_v115 (Read.idx_main_v117 (ix2 t o)) = ix2 o (0 : Fin 1) :=
    funext fun a => match a with | ⟨0, _⟩ => rfl | ⟨1, _⟩ => rfl
  rw [Read.val_main_v119_apply, Read.val_main_v114_apply, Read.val_main_v118_apply, Read.val_main_v116_apply, e116,
    a8_scale x0 x3 π hidx, Read.val_main_v117_apply, Read.val_main_v115_apply, e117, w8_scale x1 x3 π hidx]
  unfold segTerm
  show (∑ k : Fin 128, _) * (_ * _) = _
  refine congrArg₂ (· * ·) ((Finset.sum_congr rfl fun k _ => ?_).trans (zero_add _).symm) rfl
  rw [el, er, a8_ent x0 x3 π hidx, w8_ent x1 x3 π hidx]

end Group8

/-! ## The result at an index -/

/-- Entry (batch, position, o) of the result is the gathered form at token 8·batch + position and output channel o:
    zero plus the 4-, 6- and 8-bit shares in that order, plus the bias. -/
theorem ref_value (x0 : FVec Ideal S32x8x4096 .f32) (x1 : FVec Ideal S11008x4096 .f32) (x2 : FVec Ideal S11008 .f32)
    (x3 : IVec S4096 32) (π : Fin 4096 → Fin 4096)
    (hidx : ∀ p : Fin 4096, idxEnt x3 p = BitVec.ofNat 32 (π p).val) (i : S32x8x11008.Idx) :
    Cert.ReferenceIdeal.Read.val_main_v124 (F := Ideal) x0 x1 x2 x3 i
      = gatheredForm π (tokRows x0) (matRows x1) (vecEnt x2) (tokOf i) (i 2) := by
  obtain ⟨a, b, o, rfl⟩ : ∃ (a : Fin 32) (b : Fin 8) (o : Fin 11008), i = ix3 a b o := ⟨i 0, i 1, i 2, eq_ix3 i⟩
  show _ = gatheredForm π (tokRows x0) (matRows x1) (vecEnt x2) (tokOf (ix3 a b o)) o
  have e : Read.idx_main_v124 (ix3 a b o) = ix2 (tokOf (ix3 a b o)) o :=
    funext fun c => Fin.ext (by
      have ha := a.isLt
      have hb := b.isLt
      have ho := o.isLt
      match c with
      | ⟨0, _⟩ =>
        show ((a.val * 8 + b.val) * 11008 + o.val) / 11008 = a.val * 8 + b.val
        omega
      | ⟨1, _⟩ =>
        show ((a.val * 8 + b.val) * 11008 + o.val) % 11008 = o.val
        omega)
  have eb : Read.idx_main_v121 (Read.idx_main_v122 (ix2 (tokOf (ix3 a b o)) o)) = ix1 o :=
    funext fun c => match c with | ⟨0, _⟩ => rfl
  rw [Read.val_main_v124_apply, e, Read.val_main_v123_apply, Read.val_main_v122_apply, Read.val_main_v121_apply, eb,
    Read.val_main_v120_apply, term8 x0 x1 x3 π hidx, Read.val_main_v85_apply, term6 x0 x1 x3 π hidx,
    Read.val_main_v50_apply, term4 x0 x1 x3 π hidx, Read.val_main_v15_apply, Read.val_main_cst_apply]
  show (((Ideal.ofBits .f32 0x00000000#32 + _) + _) + _) + _ = _
  rw [Cert.Consts.ofBits_zero]
  rfl

end Cert.ReferenceIdeal.RefValue

end
-- ==== Proof.LibScatterPerm.lean ====
/-
  A scatter that SETS one scalar per index, along an injective map into range.

  The scatter walks the update positions 0, 1, …, n − 1 in order; at position p it reads the index word
  at row p of an [n × 1] column, and, when the word read as a signed number is a position k of the operand, replaces
  the operand's entry k by the update's entry p. When the words are the values of an injective map π no two positions
  write the same entry, so the order of the walk does not matter: in the result entry π p is the update's entry p, and
  an entry no position maps to keeps the operand's value. For π a permutation and the update 0, 1, …, n − 1 the result
  is therefore the inverse permutation: entry π p holds p.
-/
import Idealize.ShloMosaic.PureOps.ShapeOps
import Idealize.ShloMosaic.Lib.ValueIdx

namespace Cert.ScatterPerm

open Idealize.ShloMosaic Idealize.ShloMosaic.ValueIdx

/-! ## A fold of point writes at distinct places -/

section Fold
variable {ι β α : Type} [DecidableEq β] (tgt : ι → β) (val : ι → α)

/-- One step of the walk: the entry at `tgt n` becomes `val n`, every other entry stays. -/
def put (r : β → α) (n : ι) : β → α := fun i => if i = tgt n then val n else r i

/-- An entry that no step of the walk writes keeps its first value. -/
theorem foldl_put_of_not_mem (l : List ι) (x : β → α) (i : β) (h : ∀ n ∈ l, i ≠ tgt n) :
    l.foldl (put tgt val) x i = x i := by
  induction l generalizing x with
  | nil => rfl
  | cons a t ih =>
    rw [List.foldl_cons, ih _ (fun n hn => h n (List.mem_cons_of_mem a hn))]
    unfold put
    rw [if_neg (h a List.mem_cons_self)]

/-- When the steps write pairwise distinct places, the place of step `m` ends with step `m`'s value: no later step
    touches it. -/
theorem foldl_put_of_mem (htgt : Function.Injective tgt) (l : List ι) (hl : l.Nodup) (x : β → α) (m : ι) (hm : m ∈ l) :
    l.foldl (put tgt val) x (tgt m) = val m := by
  induction l generalizing x with
  | nil => exact absurd hm List.not_mem_nil
  | cons a t ih =>
    rw [List.foldl_cons]
    rcases List.mem_cons.1 hm with rfl | hmt
    · rw [foldl_put_of_not_mem tgt val t _ _ (fun n hn e => (List.nodup_cons.1 hl).1 (by rw [htgt e]; exact hn))]
      unfold put
      rw [if_pos rfl]
    · exact ih (List.nodup_cons.1 hl).2 _ hmt

end Fold

/-! ## Where one update lands -/

section Land
variable {n w : ℕ} (d : ScatterDims ⟨1, ![n]⟩ ⟨2, ![n, 1]⟩ ⟨1, ![n]⟩)

/-- With one scalar update per index (no window axes, the operand's one axis inserted and indexed, the index vector
    along the column's second axis), update position `j` lands at the entry whose number is the word at row `j` of the
    column, read signed, when that number is a position `k` of the operand. -/
theorem resultIdx_set (hiw : d.insertedWindowDims = [0]) (hsd : d.scatterDimsToOperandDims = [0])
    (hiv : d.indexVectorDim = 1) (idx : IVec ⟨2, ![n, 1]⟩ w) (j : (⟨1, ![n]⟩ : Shape).Idx) (k : Fin n)
    (h : (idx (ix2 (j 0) (0 : Fin 1))).toInt = (k.val : ℤ)) :
    d.resultIdx? j idx = some (ix1 k) := by
  have hm : (0 : Fin 1) ∈ d.scatterDimsToOperandDims := by rw [hsd]; exact List.mem_singleton.mpr rfl
  -- the start on the operand's axis is the word of row `j 0`
  have hstart : ∀ a, d.start j idx a = (k.val : ℤ) := by
    intro a
    have ha : a = 0 := Subsingleton.elim _ _
    subst ha
    unfold ScatterDims.start
    rw [dif_pos hm, ← h]
    congr 2
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  -- no window coordinate: the one axis is inserted
  have hwin : ∀ a, d.window j a = 0 := by
    intro a
    unfold ScatterDims.window
    rw [dif_neg]
    unfold ScatterDims.sKept Shape.kept
    rw [hiw]
    have ha : a = 0 := Subsingleton.elim _ _
    subst ha
    simp
  unfold ScatterDims.resultIdx?
  have hk := k.isLt
  rw [dif_pos (by
    intro a
    rw [hstart, hwin]
    have ha : a = 0 := Subsingleton.elim _ _
    subst ha
    show (0 : ℤ) ≤ (k.val : ℤ) + ((0 : ℕ) : ℤ) ∧ (k.val : ℤ) + ((0 : ℕ) : ℤ) < ((n : ℕ) : ℤ)
    omega)]
  congr 1
  funext a
  have ha : a = 0 := Subsingleton.elim _ _
  subst ha
  apply Fin.ext
  show (d.start j idx 0 + (d.window j 0 : ℤ)).toNat = k.val
  rw [hstart, hwin]
  omega

end Land

/-! ## The scatter along an injective map -/

/-- **A set-scatter along an injective map.** One scalar update per index, the index words the values of an injective
    map `π` into the operand's positions: the result's entry `π p` is the update's entry `p`. -/
theorem scatter_set_apply {α : Type} {n w : ℕ} (d : ScatterDims ⟨1, ![n]⟩ ⟨2, ![n, 1]⟩ ⟨1, ![n]⟩)
    (hiw : d.insertedWindowDims = [0]) (hsd : d.scatterDimsToOperandDims = [0]) (hiv : d.indexVectorDim = 1)
    (x : (⟨1, ![n]⟩ : Shape).Idx → α) (idx : IVec ⟨2, ![n, 1]⟩ w) (upd : (⟨1, ![n]⟩ : Shape).Idx → α)
    (π : Fin n → Fin n) (hπ : Function.Injective π)
    (hidx : ∀ p : Fin n, (idx (ix2 p (0 : Fin 1))).toInt = ((π p).val : ℤ)) (p : Fin n) :
    Host.scatter d (fun _ b => b) x idx upd (ix1 (π p)) = upd (ix1 p) := by
  -- the walk, step by step, is a point write at `π` of the position's coordinate
  have hfold : Host.scatter d (fun _ b => b) x idx upd
      = (List.finRange (⟨1, ![n]⟩ : Shape).numel).foldl
          (put (fun m => ix1 (π (((⟨1, ![n]⟩ : Shape).rowMajor.symm m) 0)))
            (fun m => upd ((⟨1, ![n]⟩ : Shape).rowMajor.symm m))) x := by
    unfold Host.scatter
    congr 1
    funext r m
    rw [resultIdx_set d hiw hsd hiv idx _ (π (((⟨1, ![n]⟩ : Shape).rowMajor.symm m) 0)) (hidx _)]
    rfl
  have htgt : Function.Injective
      (fun m : Fin (⟨1, ![n]⟩ : Shape).numel => (ix1 (π (((⟨1, ![n]⟩ : Shape).rowMajor.symm m) 0)) : (⟨1, ![n]⟩ : Shape).Idx)) := by
    intro a b hab
    have h1 : π (((⟨1, ![n]⟩ : Shape).rowMajor.symm a) 0) = π (((⟨1, ![n]⟩ : Shape).rowMajor.symm b) 0) := congrFun hab 0
    have h2 := hπ h1
    apply (⟨1, ![n]⟩ : Shape).rowMajor.symm.injective
    rw [eq_ix1 ((⟨1, ![n]⟩ : Shape).rowMajor.symm a), eq_ix1 ((⟨1, ![n]⟩ : Shape).rowMajor.symm b), h2]
  have hp : (ix1 (π p) : (⟨1, ![n]⟩ : Shape).Idx)
      = (fun m : Fin (⟨1, ![n]⟩ : Shape).numel => (ix1 (π (((⟨1, ![n]⟩ : Shape).rowMajor.symm m) 0)) : (⟨1, ![n]⟩ : Shape).Idx))
          ((⟨1, ![n]⟩ : Shape).rowMajor (ix1 p)) := by
    show ix1 (π p) = ix1 (π (((⟨1, ![n]⟩ : Shape).rowMajor.symm ((⟨1, ![n]⟩ : Shape).rowMajor (ix1 p))) 0))
    rw [Equiv.symm_apply_apply]
    rfl
  rw [hfold, hp, foldl_put_of_mem _ _ htgt _ (List.nodup_finRange _) x _ (List.mem_finRange _)]
  show upd ((⟨1, ![n]⟩ : Shape).rowMajor.symm ((⟨1, ![n]⟩ : Shape).rowMajor (ix1 p))) = upd (ix1 p)
  rw [Equiv.symm_apply_apply]

end Cert.ScatterPerm
-- ==== Proof.MaskValue.lean ====
/-
  The three group masks the kernel program computes on the host, read at a channel: channel π p belongs to the
  group of position p, because the scatter of 0, 1, …, 4095 along a permutation is its inverse.
-/
import proofs.«401570_j6768868459276_1_alg».proof.Proof.Gen.KernelIdeal.Frame
import proofs.«401570_j6768868459276_1_alg».proof.Proof.Views
import proofs.«401570_j6768868459276_1_alg».proof.Proof.LibScatterPerm
import Idealize.ShloMosaic.Lib.StableHlo.Run
import Idealize.ShloMosaic.Lib.StableHlo.Predicate

noncomputable section

namespace Cert.KernelIdeal.MaskValue

open Cert.KernelIdeal Cert.KernelIdeal.Gen Cert.QSpec
open Idealize.ShloMosaic Idealize.ShloMosaic.TcCoe Idealize.ShloMosaic.ValueIdx Idealize.SL.Sem

/-! ## Words -/

/-- A scalar word laid along the 4096 channels reads that word everywhere. -/
theorem word_apply (b : BitVec 32) (i : S4096.Idx) :
    broadcastInDim S4096 ![] bcast_S_S4096 (constantI S_ 32 b) i = b := rfl

/-- Two small words compare signed as their values. -/
theorem slt_word (a b : ℕ) (ha : a < 2 ^ 31) (hb : b < 2 ^ 31) :
    IntOp.cmpi .slt (BitVec.ofNat 32 a) (BitVec.ofNat 32 b) = if a < b then 1#1 else 0#1 := by
  have hta : (BitVec.ofNat 32 a).toNat = a := by rw [BitVec.toNat_ofNat]; exact Nat.mod_eq_of_lt (by omega)
  have htb : (BitVec.ofNat 32 b).toNat = b := by rw [BitVec.toNat_ofNat]; exact Nat.mod_eq_of_lt (by omega)
  have h := StableHlo.Predicate.slt_iff_toNat (a := BitVec.ofNat 32 a) (b := BitVec.ofNat 32 b) (by omega) (by omega)
  rw [hta, htb] at h
  split
  · next hlt => exact h.2 hlt
  · next hge => exact eq_zero_of_ne_one fun e => hge (h.1 e)

/-! ## The inverse permutation -/

/-- The index words wrapped with every word below zero moved up by 4096, laid as a column and
    scattered with the positions 0, 1, …, 4095 as updates: when the words are the values of an injective map `π` into
    the 4096 channels nothing is wrapped, and channel `π p` receives the position `p`. -/
theorem inverse_at (A : IVec S4096 32) (π : Fin 4096 → Fin 4096) (hπ : Function.Injective π)
    (hA : ∀ q : Fin 4096, A (ix1 q) = BitVec.ofNat 32 (π q).val) (p : Fin 4096) :
    Host.scatter scatter_S4096_S4096x1_S4096_n_0_0_1 (fun _ b => b)
        (broadcastInDim S4096 ![] bcast_S_S4096 (constantI S_ 32 0#32))
        (broadcastInDim S4096x1 ![0] bcast_S4096_S4096x1_0
          (select (cmpi .slt A (broadcastInDim S4096 ![] bcast_S_S4096 (constantI S_ 32 0#32)))
            (addi A (broadcastInDim S4096 ![] bcast_S_S4096 (constantI S_ 32 4096#32))) A))
        (iotaInDim S4096 32 0) (ix1 (π p))
      = BitVec.ofNat 32 p.val := by
  rw [Cert.ScatterPerm.scatter_set_apply scatter_S4096_S4096x1_S4096_n_0_0_1 rfl rfl rfl _ _ _ π hπ (fun q => ?_) p]
  · rfl
  · -- row q of the column is entry q of the wrapped words, and a word below 4096 is not wrapped
    have hcol : (ix2 q (0 : Fin 1) : S4096x1.Idx) = StableHlo.Predicate.ixP q := by
      funext d; match d with | ⟨0, _⟩ => rfl | ⟨1, _⟩ => rfl
    have hrow : (Shape.Idx.ofFin q : S4096.Idx) = ix1 q := by
      funext d; match d with | ⟨0, _⟩ => rfl
    have hq := (π q).isLt
    rw [hcol, StableHlo.Predicate.bcast_col1, hrow, select_apply]
    show (Scalar.select (IntOp.cmpi .slt (A (ix1 q)) (0#32)) _ (A (ix1 q))).toInt = _
    rw [hA q, slt_word _ 0 (by omega) (by norm_num), if_neg (Nat.not_lt_zero _), select_zero,
      StableHlo.Predicate.toInt_ofNat_small _ (by omega)]

/-! ## The group of a channel -/

/-- The group number of a channel from its position `v` in the reordered axis, as two nested selections compute it: 0 below
    3712, 1 below 3968, else 2. -/
def groupOf (v : IVec S4096 32) : IVec S4096 32 :=
  select (cmpi .slt v (broadcastInDim S4096 ![] bcast_S_S4096 (constantI S_ 32 3712#32)))
    (broadcastInDim S4096 ![] bcast_S_S4096 (constantI S_ 32 0#32))
    (select (cmpi .slt v (broadcastInDim S4096 ![] bcast_S_S4096 (constantI S_ 32 3968#32)))
      (broadcastInDim S4096 ![] bcast_S_S4096 (constantI S_ 32 1#32))
      (broadcastInDim S4096 ![] bcast_S_S4096 (constantI S_ 32 2#32)))

/-- The mask of group `g`: one on the channels of that group, zero elsewhere, as a [1, 4096] row. -/
def maskOf (v : IVec S4096 32) (g : BitVec 32) : FVec Ideal S1x4096 .f32 :=
  broadcastInDim S1x4096 ![1] bcast_S4096_S1x4096_1
    (uitofp .f32 (cmpi .eq (groupOf v) (broadcastInDim S4096 ![] bcast_S_S4096 (constantI S_ 32 g))))

/-- At a channel whose position is `p` the group number is 0, 1 or 2 by the range of `p`. -/
theorem groupOf_at (v : IVec S4096 32) (k : Fin 4096) (p : ℕ) (hp : p < 4096) (hv : v (ix1 k) = BitVec.ofNat 32 p) :
    groupOf v (ix1 k) = if p < 3712 then 0#32 else if p < 3968 then 1#32 else 2#32 := by
  unfold groupOf
  rw [select_apply, select_apply]
  show Scalar.select (IntOp.cmpi .slt (v (ix1 k)) (BitVec.ofNat 32 3712)) (0#32)
      (Scalar.select (IntOp.cmpi .slt (v (ix1 k)) (BitVec.ofNat 32 3968)) (1#32) (2#32)) = _
  rw [hv, slt_word p 3712 (by omega) (by norm_num), slt_word p 3968 (by omega) (by norm_num)]
  by_cases h1 : p < 3712
  · rw [if_pos h1, if_pos h1, select_one]
  · rw [if_neg h1, if_neg h1, select_zero]
    by_cases h2 : p < 3968
    · rw [if_pos h2, if_pos h2, select_one]
    · rw [if_neg h2, if_neg h2, select_zero]

/-- The mask row at a channel: one when the channel's group number is `g`, else zero. -/
theorem maskOf_at (v : IVec S4096 32) (g : BitVec 32) (k : Fin 4096) :
    maskRow (maskOf v g) k = if groupOf v (ix1 k) = g then 1 else 0 := by
  have hcol : (ix2 (0 : Fin 1) k : S1x4096.Idx) = StableHlo.Predicate.i1q k := by
    funext d; match d with | ⟨0, _⟩ => rfl | ⟨1, _⟩ => rfl
  have hrow : (Shape.Idx.ofFin k : S4096.Idx) = ix1 k := by
    funext d; match d with | ⟨0, _⟩ => rfl
  unfold maskRow maskOf
  rw [hcol, StableHlo.Predicate.bcast_row1, hrow]
  show (((IntOp.cmpi .eq (groupOf v (ix1 k)) g).toNat : ℝ) : EReal) = _
  by_cases h : groupOf v (ix1 k) = g
  · rw [if_pos h, StableHlo.Predicate.cmpi_eq_iff.2 h]
    norm_num
  · rw [if_neg h, eq_zero_of_ne_one fun e => h (StableHlo.Predicate.cmpi_eq_iff.1 e)]
    norm_num

/-! ## The program's arrays -/

variable (m : (ℓ : Loc nD τ sig) → Buf (Elt Ideal) ℓ)

/-- The array of inverse positions, composed from the index words the program was given. -/
theorem inverse_eq (c : Dev nD) :
    (V m c main_v9 : IVec S4096 32)
      = Host.scatter scatter_S4096_S4096x1_S4096_n_0_0_1 (fun _ b => b)
          (broadcastInDim S4096 ![] bcast_S_S4096 (constantI S_ 32 0#32))
          (broadcastInDim S4096x1 ![0] bcast_S4096_S4096x1_0
            (select (cmpi .slt (V m c main_arg3 : IVec S4096 32) (broadcastInDim S4096 ![] bcast_S_S4096 (constantI S_ 32 0#32)))
              (addi (V m c main_arg3 : IVec S4096 32) (broadcastInDim S4096 ![] bcast_S_S4096 (constantI S_ 32 4096#32)))
              (V m c main_arg3 : IVec S4096 32)))
          (iotaInDim S4096 32 0) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, List.flatten_cons, List.flatten_nil, List.append_nil, List.cons_append, List.nil_append]
  open StableHlo in after_results_simp

/-- The three mask rows, composed from the array of inverse positions. -/
theorem mask0_eq (c : Dev nD) :
    (V m c main_v19 : FVec Ideal S1x4096 .f32) = maskOf (V m c main_v9 : IVec S4096 32) 0#32 := by
  unfold maskOf groupOf
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, List.flatten_cons, List.flatten_nil, List.append_nil, List.cons_append, List.nil_append]
  open StableHlo in after_results_simp
  simp only [StableHlo.TRef.ofBuf, StableHlo.TRef.toBuf, cast_eq]

theorem mask1_eq (c : Dev nD) :
    (V m c main_v23 : FVec Ideal S1x4096 .f32) = maskOf (V m c main_v9 : IVec S4096 32) 1#32 := by
  unfold maskOf groupOf
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, List.flatten_cons, List.flatten_nil, List.append_nil, List.cons_append, List.nil_append]
  open StableHlo in after_results_simp
  simp only [StableHlo.TRef.ofBuf, StableHlo.TRef.toBuf, cast_eq]

theorem mask2_eq (c : Dev nD) :
    (V m c main_v27 : FVec Ideal S1x4096 .f32) = maskOf (V m c main_v9 : IVec S4096 32) 2#32 := by
  unfold maskOf groupOf
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, List.flatten_cons, List.flatten_nil, List.append_nil, List.cons_append, List.nil_append]
  open StableHlo in after_results_simp
  simp only [StableHlo.TRef.ofBuf, StableHlo.TRef.toBuf, cast_eq]

theorem mask_values (c : Dev nD) (π : Fin 4096 → Fin 4096) (hπ : Function.Bijective π)
    (hidx : ∀ p : Fin 4096, idxEnt (V m c main_arg3) p = BitVec.ofNat 32 (π p).val) (p : Fin 4096) :
    maskRow (V m c main_v19) (π p) = (if p.val < 3712 then 1 else 0)
    ∧ maskRow (V m c main_v23) (π p) = (if 3712 ≤ p.val ∧ p.val < 3968 then 1 else 0)
    ∧ maskRow (V m c main_v27) (π p) = (if 3968 ≤ p.val then 1 else 0) := by
  have hp := p.isLt
  -- channel π p holds position p
  have hinv : (V m c main_v9 : IVec S4096 32) (ix1 (π p)) = BitVec.ofNat 32 p.val := by
    rw [inverse_eq m c]
    exact inverse_at _ π hπ.1 hidx p
  have hg := groupOf_at (V m c main_v9 : IVec S4096 32) (π p) p.val hp hinv
  refine ⟨?_, ?_, ?_⟩
  · rw [mask0_eq m c, maskOf_at, hg]
    by_cases h1 : p.val < 3712
    · rw [if_pos h1, if_pos rfl, if_pos h1]
    · rw [if_neg h1, if_neg h1]
      by_cases h2 : p.val < 3968
      · rw [if_pos h2, if_neg (by decide)]
      · rw [if_neg h2, if_neg (by decide)]
  · rw [mask1_eq m c, maskOf_at, hg]
    by_cases h1 : p.val < 3712
    · rw [if_pos h1, if_neg (by decide), if_neg (by omega)]
    · rw [if_neg h1]
      by_cases h2 : p.val < 3968
      · rw [if_pos h2, if_pos rfl, if_pos ⟨by omega, h2⟩]
      · rw [if_neg h2, if_neg (by decide), if_neg (by omega)]
  · rw [mask2_eq m c, maskOf_at, hg]
    by_cases h1 : p.val < 3712
    · rw [if_pos h1, if_neg (by decide), if_neg (by omega)]
    · rw [if_neg h1]
      by_cases h2 : p.val < 3968
      · rw [if_pos h2, if_neg (by decide), if_neg (by omega)]
      · rw [if_neg h2, if_pos rfl, if_pos (by omega)]

end Cert.KernelIdeal.MaskValue

end
-- ==== Proof.HostX.lean ====
/-
  The activations as the kernel program prepares them on the host: every token's row masked to each group,
  quantised, scaled back, and the three added; and the bias as one row.
-/
import proofs.«401570_j6768868459276_1_alg».proof.Proof.Gen.KernelIdeal.Frame
import proofs.«401570_j6768868459276_1_alg».proof.Proof.Views
import proofs.«401570_j6768868459276_1_alg».proof.Proof.Consts
import Idealize.ShloMosaic.Lib.StableHlo.Run
import Idealize.ShloMosaic.Lib.Pipeline.Value
import Idealize.ShloMosaic.PureOps.Ideal.Laws

noncomputable section

namespace Cert.KernelIdeal.HostX

open Cert.KernelIdeal Cert.KernelIdeal.Gen Cert.QSpec
open Idealize.ShloMosaic Idealize.ShloMosaic.TcCoe Idealize.ShloMosaic.ValueIdx Idealize.SL.Sem

/-! ## One group's chain as a term

  The three groups run the same twelve array operations and differ only in the mask row and in the two literal levels,
  so the chain is written once over those. -/

/-- The activations with every token's row multiplied by one group's mask row. -/
def mskd (x : S256x4096.Idx → EReal) (mk : S1x4096.Idx → EReal) : S256x4096.Idx → EReal :=
  mulf (F := Ideal) (φ := .f32) x (broadcastInDim S256x4096 ![0, 1] bcast_S1x4096_S256x4096_0_1 mk)

/-- Every token's largest magnitude over the top level, as a column. -/
def quotCol (hi : BitVec 32) (xm : S256x4096.Idx → EReal) : S256x1.Idx → EReal :=
  Host.divf (F := Ideal) (φ := .f32)
    (broadcastInDim S256x1 ![0] bcast_S256_S256x1_0
      (Host.reduce (FloatOps.maximumf (F := Ideal) (φ := .f32)) (Host.absf (F := Ideal) (φ := .f32) xm)
        (constant (F := Ideal) S_ .f32 0xFF800000#32) reducesTo_S256x4096_S256_d1 h_S_))
    (broadcastInDim S256x1 ![] bcast_S_S256x1 (constant (F := Ideal) S_ .f32 hi))

/-- Every token's step as a column: that quotient, and one where it is zero. -/
def stepCol (hi : BitVec 32) (xm : S256x4096.Idx → EReal) : S256x1.Idx → EReal :=
  select (cmpf (F := Ideal) (φ := .f32) .oeq (quotCol hi xm) (broadcastInDim S256x1 ![] bcast_S_S256x1 (constant (F := Ideal) S_ .f32 0x00000000#32)))
    (broadcastInDim S256x1 ![] bcast_S_S256x1 (constant (F := Ideal) S_ .f32 0x3F800000#32)) (quotCol hi xm)

/-- One group's chain: the masked activations over the step, clipped to the two levels, rounded, times the step. -/
def grp (hi lo : BitVec 32) (x : S256x4096.Idx → EReal) (mk : S1x4096.Idx → EReal) : S256x4096.Idx → EReal :=
  mulf (F := Ideal) (φ := .f32)
    (Host.roundeven (F := Ideal) (φ := .f32)
      (minimumf (F := Ideal) (φ := .f32) (broadcastInDim S256x4096 ![] bcast_S_S256x4096 (id (constant (F := Ideal) S_ .f32 hi)))
        (maximumf (F := Ideal) (φ := .f32) (broadcastInDim S256x4096 ![] bcast_S_S256x4096 (id (constant (F := Ideal) S_ .f32 lo)))
          (Host.divf (F := Ideal) (φ := .f32) (mskd x mk)
            (broadcastInDim S256x4096 ![0, 1] bcast_S256x1_S256x4096_0_1 (stepCol hi (mskd x mk)))))))
    (broadcastInDim S256x4096 ![0, 1] bcast_S256x1_S256x4096_0_1 (stepCol hi (mskd x mk)))

/-! ## The broadcasts and the row maximum, read at coordinates -/

/-- A row laid over the tokens reads, at (t, k), the row at k. -/
theorem bcRow_apply (mk : S1x4096.Idx → EReal) (t : Fin 256) (k : Fin 4096) :
    broadcastInDim S256x4096 ![0, 1] bcast_S1x4096_S256x4096_0_1 mk (ix2 t k) = mk (ix2 (0 : Fin 1) k) :=
  broadcastInDim_apply _ bcast_S1x4096_S256x4096_0_1 mk (ix2 t k) (ix2 (0 : Fin 1) k)
    (fun a => by fin_cases a <;> rfl)

/-- A column laid over the channels reads, at (t, k), the column at t. -/
theorem bcCol_apply (col : S256x1.Idx → EReal) (t : Fin 256) (k : Fin 4096) :
    broadcastInDim S256x4096 ![0, 1] bcast_S256x1_S256x4096_0_1 col (ix2 t k) = col (ix2 t (0 : Fin 1)) :=
  broadcastInDim_apply _ bcast_S256x1_S256x4096_0_1 col (ix2 t k) (ix2 t (0 : Fin 1))
    (fun a => by fin_cases a <;> rfl)

/-- A vector stood up as a column reads, at (t, 0), the vector at t. -/
theorem bcVec_apply (v : S256.Idx → EReal) (t : Fin 256) :
    broadcastInDim S256x1 ![0] bcast_S256_S256x1_0 v (ix2 t (0 : Fin 1)) = v (ix1 t) :=
  broadcastInDim_apply _ bcast_S256_S256x1_0 v (ix2 t (0 : Fin 1)) (ix1 t)
    (fun a => by fin_cases a; rfl)

/-- A literal spread over a column is that literal's value everywhere. -/
theorem bcLitCol_apply (b : BitVec 32) (i : S256x1.Idx) :
    broadcastInDim S256x1 ![] bcast_S_S256x1 (constant (F := Ideal) S_ .f32 b) i = Ideal.ofBits .f32 b := rfl

/-- A literal spread over the whole rectangle is that literal's value everywhere. -/
theorem bcLitAll_apply (b : BitVec 32) (i : S256x4096.Idx) :
    broadcastInDim S256x4096 ![] bcast_S_S256x4096 (id (constant (F := Ideal) S_ .f32 b)) i = Ideal.ofBits .f32 b := rfl

/-- The three pointwise host operations of the chain at one index: the quotient, rounding to nearest with ties to even,
    and the magnitude as the larger of an entry and its negative. -/
theorem hostDiv_apply {s : Shape} (a b : s.Idx → EReal) (i : s.Idx) :
    Host.divf (F := Ideal) (φ := .f32) a b i = Ideal.div (a i) (b i) := rfl

theorem hostRound_apply {s : Shape} (a : s.Idx → EReal) (i : s.Idx) :
    Host.roundeven (F := Ideal) (φ := .f32) a i = Ideal.liftRound Ideal.roundHalfEven (a i) := rfl

theorem hostAbs_apply {s : Shape} (a : s.Idx → EReal) (i : s.Idx) :
    Host.absf (F := Ideal) (φ := .f32) a i = max (a i) (-(a i)) := rfl

/-- Token t's index with channel j put back on the reduced axis is (t, j). -/
theorem lift_row (h : S256x4096.Reduces [1] S256) (t : Fin 256) (j : Fin (S256x4096.size 1)) :
    h.lift (ix1 t) j = ix2 t (⟨j.val, j.isLt⟩ : Fin 4096) := by
  funext c; apply Fin.ext
  fin_cases c <;> rfl

/-- The maximum from −∞ along the channels, at token t, is the largest entry of that token's row. -/
theorem rowmax_host (y : S256x4096.Idx → EReal) (t : Fin 256) :
    Host.reduce (FloatOps.maximumf (F := Ideal) (φ := .f32)) y (constant (F := Ideal) S_ .f32 0xFF800000#32)
        reducesTo_S256x4096_S256_d1 h_S_ (ix1 t)
      = rowmax fun j : Fin 4096 => y (ix2 t j) := by
  have h : S256x4096.Reduces [1] S256 := by decide
  rw [Host.reduce_eq_fold_single (FloatOps.maximumf (F := Ideal) (φ := .f32)) y _ reducesTo_S256x4096_S256_d1 h h_S_]
  have hf : (y ∘ h.lift (ix1 t)) = fun j : Fin 4096 => y (ix2 t j) := funext fun j => congrArg y (lift_row h t j)
  have hb : (constant (F := Ideal) S_ .f32 0xFF800000#32) (Shape.Idx.first h_S_) = (⊥ : EReal) := Cert.Consts.ofBits_ninf
  unfold rowmax
  rw [hb]
  exact congrArg (fun f => Finset.fold max (⊥ : EReal) f (Finset.univ : Finset (Fin 4096))) hf

/-! ## One group's chain at (t, k) -/

/-- The masked activations at (t, k): the entry times the mask's entry for channel k. -/
theorem mskd_apply (x : S256x4096.Idx → EReal) (mk : S1x4096.Idx → EReal) (t : Fin 256) (k : Fin 4096) :
    mskd x mk (ix2 t k) = x (ix2 t k) * mk (ix2 (0 : Fin 1) k) := by
  unfold mskd
  rw [mulf_apply, bcRow_apply]

/-- Token t's quotient: the largest magnitude of its masked row over the top level. -/
theorem quotCol_apply (hi : BitVec 32) (xm : S256x4096.Idx → EReal) (t : Fin 256) :
    quotCol hi xm (ix2 t (0 : Fin 1))
      = Ideal.div (rowmax fun j : Fin 4096 => max (xm (ix2 t j)) (-(xm (ix2 t j)))) (Ideal.ofBits .f32 hi) := by
  unfold quotCol
  rw [hostDiv_apply, bcVec_apply, rowmax_host, bcLitCol_apply]
  rfl

/-- Token t's step is the masked row's quantisation step: the comparison with zero picks one exactly where the
    quotient vanishes. -/
theorem stepCol_apply (hi : BitVec 32) (q : ℝ) (hhi : Ideal.ofBits .f32 hi = (q : EReal)) (xm : S256x4096.Idx → EReal) (t : Fin 256) :
    stepCol hi xm (ix2 t (0 : Fin 1)) = scale q fun j : Fin 4096 => xm (ix2 t j) := by
  unfold stepCol
  rw [select_apply, cmpf_apply, bcLitCol_apply, bcLitCol_apply, quotCol_apply, hhi, Cert.Consts.ofBits_zero, Cert.Consts.ofBits_one]
  unfold scale
  by_cases h0 : Ideal.div (rowmax fun j : Fin 4096 => max (xm (ix2 t j)) (-(xm (ix2 t j)))) (q : EReal) = 0
  · rw [if_pos h0, h0]
    show Scalar.select (BitVec.ofBool (decide ((0 : EReal) = 0))) 1 0 = 1
    rw [decide_eq_true (rfl : (0 : EReal) = 0)]; rfl
  · rw [if_neg h0]
    show Scalar.select (BitVec.ofBool (decide (_ = (0 : EReal)))) 1 _ = _
    rw [decide_eq_false h0]; rfl

/-- The chain at (t, k), for literal levels that denote ±q: entry k of token t's row masked to the group, on the integer
    grid of the masked row's own step, scaled back by that step. -/
theorem grp_apply (hi lo : BitVec 32) (q : ℝ) (hhi : Ideal.ofBits .f32 hi = (q : EReal))
    (hlo : Ideal.ofBits .f32 lo = ((-q : ℝ) : EReal)) (x : S256x4096.Idx → EReal) (mk : S1x4096.Idx → EReal)
    (t : Fin 256) (k : Fin 4096) :
    grp hi lo x mk (ix2 t k) = maskedq q (maskRow mk) (matRows x t) k := by
  unfold grp
  rw [mulf_apply, hostRound_apply, minimumf_apply, maximumf_apply, hostDiv_apply, bcLitAll_apply, bcLitAll_apply,
    bcCol_apply, stepCol_apply hi q hhi, mskd_apply, hhi, hlo]
  have e : (fun j : Fin 4096 => mskd x mk (ix2 t j)) = fun j => matRows x t j * maskRow mk j :=
    funext fun j => mskd_apply x mk t j
  rw [e]
  rfl

/-! ## The two reshapes -/

/-- The activations flattened to one row per token: row t = 8·batch + position is that token's channels. -/
theorem reshapeX_apply (x0 : S32x8x4096.Idx → EReal) (t : Fin 256) (k : Fin 4096) :
    shapeCast S256x4096 x0 shapeCasts_S32x8x4096_S256x4096 (ix2 t k) = tokRows x0 t k := by
  unfold tokRows
  refine shapeCast_apply x0 shapeCasts_S32x8x4096_S256x4096 (ix2 t k) _ ?_
  rewrite [Shape.rowMajor_val_three, Shape.rowMajor_val_two]
  have ht := t.isLt
  have hk := k.isLt
  show (t.val / 8 * 8 + t.val % 8) * 4096 + k.val = t.val * 4096 + k.val
  omega

/-- The bias as a single row holds entry o at (0, o). -/
theorem reshapeB_apply (b : S11008.Idx → EReal) (o : Fin 11008) :
    shapeCast S1x11008 b shapeCasts_S11008_S1x11008 (ix2 (0 : Fin 1) o) = b (ix1 o) := by
  refine shapeCast_apply b shapeCasts_S11008_S1x11008 (ix2 (0 : Fin 1) o) (ix1 o) ?_
  rewrite [Shape.rowMajor_val_one, Shape.rowMajor_val_two]
  show o.val = 0 * 11008 + o.val
  omega

/-! ## The arrays' terms

  Each array the chain names is its operation applied to the operands' arrays. The equations below read the straight
  line of host operations one stage at a time: what was computed before the stage is left as it stands, and only the
  stage's own operations are spelled out. -/

variable (m : (ℓ : Loc nD τ sig) → Buf (Elt Ideal) ℓ)

/-- The flattened activations are the reshape of the input. -/
theorem v0_eq (c : Dev nD) :
    (V m c main_v0 : S256x4096.Idx → EReal) = shapeCast S256x4096 (V m c main_arg0) shapeCasts_S32x8x4096_S256x4096 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results_simp
  rfl

/-- The 4-bit group's array: the chain at levels ±7 over the first mask row. -/
theorem v44_eq (c : Dev nD) :
    (V m c main_v44 : S256x4096.Idx → EReal) = grp 0x40E00000#32 0xC0E00000#32 (V m c main_v0) (V m c main_v19) := by
  dsimp only [Gen.V, Gen.V0]
  simp only [List.flatten_cons, List.flatten_nil, List.append_nil]
  rw [StableHlo.after_append hostOps0, StableHlo.after_append hostOps0_1, StableHlo.after_append hostOps0_2, StableHlo.after_append hostOps0_3]
  generalize StableHlo.after (hostOps0_3 (F := Ideal)) _ = W
  simp only [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_results_simp
  rfl

/-- The 6-bit group's array: the chain at levels ±31 over the second mask row. -/
theorem v61_eq (c : Dev nD) :
    (V m c main_v61 : S256x4096.Idx → EReal) = grp 0x41F80000#32 0xC1F80000#32 (V m c main_v0) (V m c main_v23) := by
  dsimp only [Gen.V, Gen.V0]
  simp only [List.flatten_cons, List.flatten_nil, List.append_nil]
  rw [StableHlo.after_append hostOps0, StableHlo.after_append hostOps0_1, StableHlo.after_append hostOps0_2, StableHlo.after_append hostOps0_3]
  generalize StableHlo.after (hostOps0_3 (F := Ideal)) _ = W
  simp only [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_results_simp
  rfl

/-- The 8-bit group's array: the chain at levels ±127 over the third mask row. -/
theorem v79_eq (c : Dev nD) :
    (V m c main_v79 : S256x4096.Idx → EReal) = grp 0x42FE0000#32 0xC2FE0000#32 (V m c main_v0) (V m c main_v27) := by
  dsimp only [Gen.V, Gen.V0]
  simp only [List.flatten_cons, List.flatten_nil, List.append_nil]
  rw [StableHlo.after_append hostOps0, StableHlo.after_append hostOps0_1, StableHlo.after_append hostOps0_2, StableHlo.after_append hostOps0_3]
  generalize StableHlo.after (hostOps0_3 (F := Ideal)) _ = W
  simp only [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_results_simp
  rfl

/-- The kernel's activation operand: the three groups' arrays added in order, then narrowed to the 16-bit format. -/
theorem v81_eq (c : Dev nD) :
    (V m c main_v81 : S256x4096.Idx → EReal)
      = truncf (F := Ideal) (φ := .f32) .bf16
          (addf (F := Ideal) (φ := .f32) (addf (F := Ideal) (φ := .f32) (V m c main_v44) (V m c main_v61)) (V m c main_v79))
          bitsLt_bf16_f32 := by
  dsimp only [Gen.V, Gen.V0]
  simp only [List.flatten_cons, List.flatten_nil, List.append_nil]
  rw [StableHlo.after_append hostOps0, StableHlo.after_append hostOps0_1, StableHlo.after_append hostOps0_2, StableHlo.after_append hostOps0_3, StableHlo.after_append hostOps0_4, StableHlo.after_append hostOps0_5, StableHlo.after_append hostOps0_6, StableHlo.after_append hostOps0_7, StableHlo.after_append hostOps0_8, StableHlo.after_append hostOps0_9, StableHlo.after_append hostOps0_10, StableHlo.after_append hostOps0_11, StableHlo.after_append hostOps0_12, StableHlo.after_append hostOps0_13]
  generalize StableHlo.after (hostOps0_13 (F := Ideal)) _ = W
  simp only [hostOps0_14, hostOps0_15, hostOps0_16, hostOps0_17, hostOps0_18, hostOps0_19, List.cons_append, List.nil_append]
  after_results_simp

/-- The bias operand is the reshape of the bias input. -/
theorem v82_eq (c : Dev nD) :
    (V m c main_v82 : S1x11008.Idx → EReal) = shapeCast S1x11008 (V m c main_arg2) shapeCasts_S11008_S1x11008 := by
  dsimp only [Gen.V, Gen.V0]
  simp only [List.flatten_cons, List.flatten_nil, List.append_nil]
  rw [StableHlo.after_append hostOps0, StableHlo.after_append hostOps0_1, StableHlo.after_append hostOps0_2, StableHlo.after_append hostOps0_3, StableHlo.after_append hostOps0_4, StableHlo.after_append hostOps0_5, StableHlo.after_append hostOps0_6, StableHlo.after_append hostOps0_7, StableHlo.after_append hostOps0_8, StableHlo.after_append hostOps0_9, StableHlo.after_append hostOps0_10, StableHlo.after_append hostOps0_11, StableHlo.after_append hostOps0_12, StableHlo.after_append hostOps0_13]
  generalize StableHlo.after (hostOps0_13 (F := Ideal)) _ = W
  simp only [hostOps0_14, hostOps0_15, hostOps0_16, hostOps0_17, hostOps0_18, hostOps0_19, List.cons_append, List.nil_append]
  after_results_simp
  rfl

/-! ## The two statements -/

theorem xp_value (c : Dev nD) (t : Fin 256) (k : Fin 4096) :
    matRows (V m c main_v81) t k
      = mixed (maskRow (V m c main_v19)) (maskRow (V m c main_v23)) (maskRow (V m c main_v27))
          (tokRows (V m c main_arg0) t) k := by
  have hrow : matRows (V m c main_v0) t = tokRows (V m c main_arg0) t := by
    funext j
    unfold matRows
    rw [v0_eq m c, reshapeX_apply]
  unfold matRows mixed
  rw [v81_eq m c, truncf_apply, addf_apply, addf_apply, v44_eq m c, v61_eq m c, v79_eq m c,
    grp_apply _ _ 7 Cert.Consts.ofBits_7 Cert.Consts.ofBits_neg7,
    grp_apply _ _ 31 Cert.Consts.ofBits_31 Cert.Consts.ofBits_neg31,
    grp_apply _ _ 127 Cert.Consts.ofBits_127 Cert.Consts.ofBits_neg127, hrow]

theorem bias_row (c : Dev nD) (o : Fin 11008) : maskRow (V m c main_v82) o = vecEnt (V m c main_arg2) o := by
  unfold maskRow vecEnt
  rw [v82_eq m c, reshapeB_apply]

end Cert.KernelIdeal.HostX

end
-- ==== Proof.BodyValue.lean ====
/-
  One block of the kernel: 128 weight rows masked to each group, quantised, scaled back and added, multiplied
  against all the prepared activations, plus the block's bias entries.
-/
import proofs.«401570_j6768868459276_1_alg».proof.Proof.Gen.KernelIdeal.Frame
import proofs.«401570_j6768868459276_1_alg».proof.Proof.Views
import proofs.«401570_j6768868459276_1_alg».proof.Proof.Consts
import Idealize.ShloMosaic.Lib.ValueLayout
import Idealize.ShloMosaic.Lib.WordArith
import Idealize.ShloMosaic.PureOps.Ideal.Laws

noncomputable section

namespace Cert.KernelIdeal.BodyValue

open Cert.KernelIdeal Cert.KernelIdeal.Gen Cert.QSpec
open Idealize.ShloMosaic Idealize.ShloMosaic.TcCoe Idealize.ShloMosaic.ValueIdx Idealize.SL.Sem

/-! ## A column of per-row values: the two layout readings a kept reduced axis needs -/

/-- A vector of `a` entries cast to a column reads, at `(i, u)`, its entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(i, c)`, the column's entry `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The largest magnitude of a row -/

/-- The index a reduction over the lanes of a [128, 4096] block reads for row `r` at lane `k`. -/
theorem lift_row (r : Fin 128) (k : Fin 4096) : reduces_S128x4096_S128.lift (ix1 r) k = ix2 r k :=
  funext fun c => Fin.ext (by match c with | ⟨0, _⟩ => rfl | ⟨1, _⟩ => rfl)

/-- The running maximum, from −∞, of the magnitudes along each row, kept as a column: at row `r` it is the largest
    magnitude of that row. -/
theorem laneMax_apply (v : FVec Ideal S128x4096 .f32) (r : Fin 128) (u : Fin 1) :
    shapeCast S128x1 (multiReduction .maximumf [1] S128 (absf v) 0xFF800000#32 reduces_S128x4096_S128 (.inl rfl) rfl)
        shapeCasts_S128_S128x1 (ix2 r u)
      = rowmax fun k : Fin 4096 => max (v (ix2 r k)) (-(v (ix2 r k))) := by
  refine (shapeCast_a_a1_apply _ shapeCasts_S128_S128x1 r u).trans ?_
  refine (Ideal.multiReduction_maximumf_single (absf v) 0xFF800000#32 reduces_S128x4096_S128 (.inl rfl) rfl (ix1 r)).trans ?_
  show Finset.fold max (Ideal.ofBits .f32 0xFF800000#32) _ (Finset.univ : Finset (Fin 4096)) = _
  rw [Cert.Consts.ofBits_ninf]
  unfold rowmax
  refine congrArg (fun f : Fin 4096 → EReal => Finset.fold max ⊥ f (Finset.univ : Finset (Fin 4096)))
    (funext fun k : Fin 4096 => ?_)
  exact (congrArg (absf v) (lift_row r k)).trans rfl

/-! ## One group: its step, and its entries on the integer grid scaled back -/

/-- The column of steps of a block at the top level whose bit pattern is `bq`: each row's largest magnitude over
    the level, replaced by one where that quotient is zero. -/
def stepCol (bq : BitVec 32) (v : FVec Ideal S128x4096 .f32) : FVec Ideal S128x1 .f32 :=
  select
    (cmpf .oeq
      (divf (shapeCast S128x1 (multiReduction .maximumf [1] S128 (absf v) 0xFF800000#32 reduces_S128x4096_S128 (.inl rfl) rfl)
        shapeCasts_S128_S128x1) (broadcast S128x1 (Scalar.ofBits .f32 bq)))
      (broadcast S128x1 (Scalar.ofBits .f32 0x00000000#32)))
    (broadcast S128x1 (Scalar.ofBits .f32 0x3F800000#32))
    (divf (shapeCast S128x1 (multiReduction .maximumf [1] S128 (absf v) 0xFF800000#32 reduces_S128x4096_S128 (.inl rfl) rfl)
      shapeCasts_S128_S128x1) (broadcast S128x1 (Scalar.ofBits .f32 bq)))

/-- Row `r` of the step column is the step of row `r`. -/
theorem stepCol_apply (q : ℝ) (bq : BitVec 32) (hq : Ideal.ofBits .f32 bq = (q : EReal)) (v : FVec Ideal S128x4096 .f32)
    (r : Fin 128) (u : Fin 1) : stepCol bq v (ix2 r u) = scale q fun k : Fin 4096 => v (ix2 r k) := by
  have hm := laneMax_apply v r u
  show Scalar.select
      (Ideal.cmp .oeq (Ideal.div (shapeCast S128x1 (multiReduction .maximumf [1] S128 (absf v) 0xFF800000#32 reduces_S128x4096_S128 (.inl rfl) rfl)
          shapeCasts_S128_S128x1 (ix2 r u)) (Ideal.ofBits .f32 bq)) (Ideal.ofBits .f32 0x00000000#32))
      (Ideal.ofBits .f32 0x3F800000#32)
      (Ideal.div (shapeCast S128x1 (multiReduction .maximumf [1] S128 (absf v) 0xFF800000#32 reduces_S128x4096_S128 (.inl rfl) rfl)
          shapeCasts_S128_S128x1 (ix2 r u)) (Ideal.ofBits .f32 bq)) = _
  rw [hm, hq, Cert.Consts.ofBits_zero, Cert.Consts.ofBits_one]
  unfold scale Scalar.select Ideal.cmp
  simp only [WordArith.ofBool_eq_numeral_one_iff, decide_eq_true_eq]

/-- A block divided by a column of steps, clipped to the levels whose bit patterns are `bnq` and `bq`, rounded to the
    nearest integer with ties to even, and multiplied by the steps again. -/
def deq (bq bnq : BitVec 32) (v : FVec Ideal S128x4096 .f32) (s : FVec Ideal S128x1 .f32) : FVec Ideal S128x4096 .f32 :=
  mulf
    (roundeven (minimumf (broadcast S128x4096 (Scalar.ofBits .f32 bq))
      (maximumf (broadcast S128x4096 (Scalar.ofBits .f32 bnq)) (divf v (broadcastTo S128x4096 s broadcasts_S128x1_S128x4096)))))
    (broadcastTo S128x4096 s broadcasts_S128x1_S128x4096)

/-- ONE GROUP. The weight block times a mask row, quantised with each masked row's own step at level `q` and scaled
    back, read at row `r` and channel `k`: entry `k` of row `r` masked to the group. -/
theorem group_apply (q : ℝ) (bq bnq : BitVec 32) (hq : Ideal.ofBits .f32 bq = (q : EReal))
    (hnq : Ideal.ofBits .f32 bnq = ((-q : ℝ) : EReal)) (w : FVec Ideal S128x4096 .f32) (msk : FVec Ideal S1x4096 .f32)
    (r : Fin 128) (k : Fin 4096) :
    deq bq bnq (mulf w (broadcastTo S128x4096 msk broadcasts_S1x4096_S128x4096))
        (stepCol bq (mulf w (broadcastTo S128x4096 msk broadcasts_S1x4096_S128x4096))) (ix2 r k)
      = maskedq q (maskRow msk) (matRows w r) k := by
  have hm : ∀ j : Fin 4096, (mulf w (broadcastTo S128x4096 msk broadcasts_S1x4096_S128x4096)) (ix2 r j)
      = w (ix2 r j) * msk (ix2 (0 : Fin 1) j) := fun j =>
    (mulf_apply _ _ _).trans (congrArg (w (ix2 r j) * ·) (broadcastTo_1b_ab_apply msk broadcasts_S1x4096_S128x4096 r j))
  have hs : stepCol bq (mulf w (broadcastTo S128x4096 msk broadcasts_S1x4096_S128x4096)) (ix2 r (0 : Fin 1))
      = scale q fun j : Fin 4096 => w (ix2 r j) * msk (ix2 (0 : Fin 1) j) :=
    (stepCol_apply q bq hq _ r 0).trans (congrArg (scale q) (funext hm))
  have hb : broadcastTo S128x4096 (stepCol bq (mulf w (broadcastTo S128x4096 msk broadcasts_S1x4096_S128x4096)))
      broadcasts_S128x1_S128x4096 (ix2 r k) = scale q fun j : Fin 4096 => w (ix2 r j) * msk (ix2 (0 : Fin 1) j) :=
    (broadcastTo_a1_ab_apply _ broadcasts_S128x1_S128x4096 r k).trans hs
  show Ideal.liftRound Ideal.roundHalfEven (min (Ideal.ofBits .f32 bq) (max (Ideal.ofBits .f32 bnq)
        (Ideal.div ((mulf w (broadcastTo S128x4096 msk broadcasts_S1x4096_S128x4096)) (ix2 r k))
          (broadcastTo S128x4096 (stepCol bq (mulf w (broadcastTo S128x4096 msk broadcasts_S1x4096_S128x4096)))
            broadcasts_S128x1_S128x4096 (ix2 r k)))))
      * broadcastTo S128x4096 (stepCol bq (mulf w (broadcastTo S128x4096 msk broadcasts_S1x4096_S128x4096)))
          broadcasts_S128x1_S128x4096 (ix2 r k) = _
  rw [hb, hm k, hq, hnq]
  rfl

/-! ## The product of the activations with the weight rows

  Both operands are contracted along their channel axis; the free axes are the token and the weight row. -/

theorem lhs_axis0 (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide), dif_pos (show (0 : Fin S256x4096.rank) ∈ dot_S256x4096_S128x4096_S256x128_1_1_0_0_n_n.lhsNonContracting by decide)]
  rfl

theorem lhs_axis1 (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q

theorem rhs_axis0 (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide), dif_pos (show (0 : Fin S128x4096.rank) ∈ dot_S256x4096_S128x4096_S256x128_1_1_0_0_n_n.rhsNonContracting by decide)]
  rfl

theorem rhs_axis1 (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

/-- The product onto a zero accumulator, at token `t` and weight row `r`: the sum over the 4096 channels of the
    activation times the weight. -/
theorem matmul_apply_ix2 (A : FVec Ideal S256x4096 .bf16) (W : FVec Ideal S128x4096 .bf16) (t : Fin 256) (r : Fin 128) :
    matmul dot_S256x4096_S128x4096_S256x128_1_1_0_0_n_n none A W (constant (F := Ideal) S256x128 .f32 0x00000000#32) (ix2 t r)
      = ∑ k : Fin 4096, A (ix2 t k) * W (ix2 r k) := by
  refine (Ideal.matmul_constant_zero_apply dot_S256x4096_S128x4096_S256x128_1_1_0_0_n_n none A W (ix2 t r)).trans ?_
  rw [← Equiv.sum_comp (ValueIdx.contrEquiv1 dot_S256x4096_S128x4096_S256x128_1_1_0_0_n_n 4096 rfl rfl).symm]
  refine Finset.sum_congr rfl fun k _ => ?_
  have hk := ValueIdx.contrEquiv1_symm_val dot_S256x4096_S128x4096_S256x128_1_1_0_0_n_n 4096 rfl rfl k
  have el : dot_S256x4096_S128x4096_S256x128_1_1_0_0_n_n.lhsIdx (ix2 t r) ((ValueIdx.contrEquiv1 dot_S256x4096_S128x4096_S256x128_1_1_0_0_n_n 4096 rfl rfl).symm k) = ix2 t k := funext fun a => Fin.ext (by
    match a with
    | ⟨0, _⟩ => exact lhs_axis0 _ _
    | ⟨1, _⟩ => exact (lhs_axis1 _ _).trans hk)
  have er : dot_S256x4096_S128x4096_S256x128_1_1_0_0_n_n.rhsIdx (ix2 t r) ((ValueIdx.contrEquiv1 dot_S256x4096_S128x4096_S256x128_1_1_0_0_n_n 4096 rfl rfl).symm k) = ix2 r k := funext fun a => Fin.ext (by
    match a with
    | ⟨0, _⟩ => exact rhs_axis0 _ _
    | ⟨1, _⟩ => exact (rhs_axis1 _ _).trans hk)
  rw [el, er]

/-! ## The block -/

/-- The start of every rectangle the body reads or writes: the origin. -/
theorem origin2 : (![0, 0] : Fin 2 → Nat) = fun _ => 0 :=
  funext fun a => by match a with | ⟨0, _⟩ => rfl | ⟨1, _⟩ => rfl

/-- A mask row read through a cast to its own shape is the mask row. -/
theorem maskRow_cast (m : Vec Ideal S1x4096 .f32) : maskRow (shapeCast S1x4096 m shapeCasts_S1x4096_S1x4096) = maskRow m := by
  rw [shapeCast_self]

theorem body_value (x0 : Vec Ideal S256x4096 .bf16) (x1 : Vec Ideal S128x4096 .f32) (x2 x3 x4 : Vec Ideal S1x4096 .f32)
    (x5 : Vec Ideal S1x128 .f32) (t : Fin 256) (r : Fin 128) :
    out0_6 (F := Ideal) x0 x1 x2 x3 x4 x5 (ix2 t r)
      = (0 + ∑ k : Fin 4096, matRows x0 t k * mixed (maskRow x2) (maskRow x3) (maskRow x4) (matRows x1 r) k)
          + maskRow x5 r := by
  unfold out0_6
  rw [View.canon_unit_zero origin2]
  simp only [View.ld_unit_zero (S := S128x4096) origin2, View.ld_unit_zero (S := S1x4096) origin2,
    View.ld_unit_zero (S := S256x4096) origin2, View.ld_unit_zero (S := S1x128) origin2]
  -- the sum of the product and the broadcast bias, entry by entry
  refine (addf_apply _ _ (ix2 t r)).trans (congrArg₂ (· + ·) ?_ ?_)
  · -- the product: channel by channel, the activation and the three groups' sum
    refine (matmul_apply_ix2 _ _ t r).trans ?_
    rw [zero_add]
    refine Finset.sum_congr rfl fun k _ => congrArg₂ (· * ·) ?_ ?_
    · exact congrFun (shapeCast_self x0 shapeCasts_S256x4096_S256x4096) (ix2 t k)
    · refine (truncf_apply (φ := .f32) (ψ := .bf16) _ bitsLt_bf16_f32 (ix2 r k)).trans ((addf_apply _ _ (ix2 r k)).trans
        (congrArg₂ (· + ·) ((addf_apply _ _ (ix2 r k)).trans (congrArg₂ (· + ·) ?_ ?_)) ?_))
      · exact (group_apply 7 _ _ Cert.Consts.ofBits_7 Cert.Consts.ofBits_neg7 x1 _ r k).trans
          (congrArg (fun m => maskedq 7 m (matRows x1 r) k) (maskRow_cast x2))
      · exact (group_apply 31 _ _ Cert.Consts.ofBits_31 Cert.Consts.ofBits_neg31 x1 _ r k).trans
          (congrArg (fun m => maskedq 31 m (matRows x1 r) k) (maskRow_cast x3))
      · exact (group_apply 127 _ _ Cert.Consts.ofBits_127 Cert.Consts.ofBits_neg127 x1 _ r k).trans
          (congrArg (fun m => maskedq 127 m (matRows x1 r) k) (maskRow_cast x4))
  · -- the bias row, the same for every token
    exact (broadcastTo_1b_ab_apply _ broadcasts_S1x128_S256x128 t r).trans
      (congrFun (shapeCast_self x5 shapeCasts_S1x128_S1x128) (ix2 (0 : Fin 1) r))

end Cert.KernelIdeal.BodyValue

end
-- ==== Proof.KernelValue.lean ====
/-
  The kernel program's run with its result named: entry (batch, position, o) is the masked form at the token and o.
-/
import proofs.«401570_j6768868459276_1_alg».proof.Proof.Gen.KernelIdeal.Frame
import proofs.«401570_j6768868459276_1_alg».proof.Proof.Views
import proofs.«401570_j6768868459276_1_alg».proof.Proof.HostX
import proofs.«401570_j6768868459276_1_alg».proof.Proof.BodyValue
import Idealize.ShloMosaic.Lib.Pipeline.Value
import Idealize.ShloMosaic.Lib.Tactic

set_option maxRecDepth 16384

noncomputable section

namespace Cert.KernelIdeal.KernelValue

open Cert.KernelIdeal Cert.KernelIdeal.Gen Cert.QSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What the run leaves in the result array. -/
def result (c : Dev nD) : FVec Ideal S32x8x11008 .f32 := fun i =>
  maskedForm (maskRow (V m c main_v19)) (maskRow (V m c main_v23)) (maskRow (V m c main_v27))
    (tokRows (m ((c : Thread nD τ).loc main_arg0))) (matRows (m ((c : Thread nD τ).loc main_arg1)))
    (vecEnt (m ((c : Thread nD τ).loc main_arg2))) (tokOf i) (i 2)

/-! ## Where each window's block sits at a grid point -/

/-- The block index of every window at point `t`: the weight rows, the bias columns and the result columns move
    with the point, everything else stays at block zero. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-- The grid has 86 points. -/
theorem npoints : cfg0.N = 86 := N_0

/-! ## One grid point: the body's block from the input blocks -/

/-- At any index of a result block: the product of the activation row and the mixed weight row over all channels,
    onto zero, plus the block's bias entry. -/
theorem point_value (x0 : Vec Ideal S256x4096 .bf16) (x1 : Vec Ideal S128x4096 .f32) (x2 x3 x4 : Vec Ideal S1x4096 .f32)
    (x5 : Vec Ideal S1x128 .f32) (j : S256x128.Idx) :
    out0_6 (F := Ideal) x0 x1 x2 x3 x4 x5 j
      = (0 + ∑ k : Fin 4096, matRows x0 (j 0) k * mixed (maskRow x2) (maskRow x3) (maskRow x4) (matRows x1 (j 1)) k)
          + maskRow x5 (j 1) :=
  (congrArg (out0_6 (F := Ideal) x0 x1 x2 x3 x4 x5) (eq_ix2 j)).trans
    (BodyValue.body_value x0 x1 x2 x3 x4 x5 (j 0) (j 1))

/-! ## The input blocks as parts of their arrays -/

/-- Window 0 is the whole array of prepared activations at every point. -/
theorem act_block (c : Dev nD) (t : Fin cfg0.N) (a : Fin 256) (k : Fin 4096) :
    matRows (iblk m c 0 t : Vec Ideal S256x4096 .bf16) a k = matRows (V m c main_v81 : Vec Ideal S256x4096 .bf16) a k := by
  obtain ⟨e0, e1, -⟩ := block_index t
  show V m c main_v81 (((cfg0.win 0).blk t).view.emb (ix2 a k)) = V m c main_v81 (ix2 a k)
  congr 1
  funext d
  apply Fin.ext
  match d with
  | ⟨0, _⟩ => show win0_0.index t (0 : Fin 2) * 256 + 1 * a.val = a.val; omega
  | ⟨1, _⟩ => show win0_0.index t (1 : Fin 2) * 4096 + 1 * k.val = k.val; omega

/-- Window 1 at point `t` is weight rows `128 t, …, 128 t + 127`. -/
theorem weight_block (c : Dev nD) (t : Fin cfg0.N) (r : Fin 128) (o : Fin 11008) (ho : o.val = 128 * t.val + r.val) (k : Fin 4096) :
    matRows (iblk m c 1 t : Vec Ideal S128x4096 .f32) r k = matRows (V m c main_arg1 : Vec Ideal S11008x4096 .f32) o k := by
  obtain ⟨-, -, e0, e1, -⟩ := block_index t
  show V m c main_arg1 (((cfg0.win 1).blk t).view.emb (ix2 r k)) = V m c main_arg1 (ix2 o k)
  congr 1
  funext d
  apply Fin.ext
  match d with
  | ⟨0, _⟩ => show win0_1.index t (0 : Fin 2) * 128 + 1 * r.val = o.val; omega
  | ⟨1, _⟩ => show win0_1.index t (1 : Fin 2) * 4096 + 1 * k.val = k.val; omega

/-- Windows 2, 3 and 4 are the three mask rows, whole, at every point. -/
theorem mask_block0 (c : Dev nD) (t : Fin cfg0.N) :
    maskRow (iblk m c 2 t : Vec Ideal S1x4096 .f32) = maskRow (V m c main_v19 : Vec Ideal S1x4096 .f32) := by
  obtain ⟨-, -, -, -, e0, e1, -⟩ := block_index t
  funext k
  show V m c main_v19 (((cfg0.win 2).blk t).view.emb (ix2 (0 : Fin 1) k)) = V m c main_v19 (ix2 (0 : Fin 1) k)
  congr 1
  funext d
  apply Fin.ext
  match d with
  | ⟨0, _⟩ => show win0_2.index t (0 : Fin 2) * 1 + 1 * (0 : Fin 1).val = (0 : Fin 1).val; omega
  | ⟨1, _⟩ => show win0_2.index t (1 : Fin 2) * 4096 + 1 * k.val = k.val; omega

theorem mask_block1 (c : Dev nD) (t : Fin cfg0.N) :
    maskRow (iblk m c 3 t : Vec Ideal S1x4096 .f32) = maskRow (V m c main_v23 : Vec Ideal S1x4096 .f32) := by
  obtain ⟨-, -, -, -, -, -, e0, e1, -⟩ := block_index t
  funext k
  show V m c main_v23 (((cfg0.win 3).blk t).view.emb (ix2 (0 : Fin 1) k)) = V m c main_v23 (ix2 (0 : Fin 1) k)
  congr 1
  funext d
  apply Fin.ext
  match d with
  | ⟨0, _⟩ => show win0_3.index t (0 : Fin 2) * 1 + 1 * (0 : Fin 1).val = (0 : Fin 1).val; omega
  | ⟨1, _⟩ => show win0_3.index t (1 : Fin 2) * 4096 + 1 * k.val = k.val; omega

theorem mask_block2 (c : Dev nD) (t : Fin cfg0.N) :
    maskRow (iblk m c 4 t : Vec Ideal S1x4096 .f32) = maskRow (V m c main_v27 : Vec Ideal S1x4096 .f32) := by
  obtain ⟨-, -, -, -, -, -, -, -, e0, e1, -⟩ := block_index t
  funext k
  show V m c main_v27 (((cfg0.win 4).blk t).view.emb (ix2 (0 : Fin 1) k)) = V m c main_v27 (ix2 (0 : Fin 1) k)
  congr 1
  funext d
  apply Fin.ext
  match d with
  | ⟨0, _⟩ => show win0_4.index t (0 : Fin 2) * 1 + 1 * (0 : Fin 1).val = (0 : Fin 1).val; omega
  | ⟨1, _⟩ => show win0_4.index t (1 : Fin 2) * 4096 + 1 * k.val = k.val; omega

/-- Window 5 at point `t` is bias entries `128 t, …, 128 t + 127`. -/
theorem bias_block (c : Dev nD) (t : Fin cfg0.N) (r : Fin 128) (o : Fin 11008) (ho : o.val = 128 * t.val + r.val) :
    maskRow (iblk m c 5 t : Vec Ideal S1x128 .f32) r = maskRow (V m c main_v82 : Vec Ideal S1x11008 .f32) o := by
  obtain ⟨-, -, -, -, -, -, -, -, -, -, e0, e1, -⟩ := block_index t
  show V m c main_v82 (((cfg0.win 5).blk t).view.emb (ix2 (0 : Fin 1) r)) = V m c main_v82 (ix2 (0 : Fin 1) o)
  congr 1
  funext d
  apply Fin.ext
  match d with
  | ⟨0, _⟩ => show win0_5.index t (0 : Fin 2) * 1 + 1 * (0 : Fin 1).val = (0 : Fin 1).val; omega
  | ⟨1, _⟩ => show win0_5.index t (1 : Fin 2) * 128 + 1 * r.val = o.val; omega

/-! ## The whole [256, 11008] array the region leaves -/

/-- Entry (token, o) of the region's result: the masked form. -/
def G (c : Dev nD) : Vec Ideal S256x11008 .f32 := fun i =>
  maskedForm (maskRow (V m c main_v19)) (maskRow (V m c main_v23)) (maskRow (V m c main_v27))
    (tokRows (m ((c : Thread nD τ).loc main_arg0))) (matRows (m ((c : Thread nD τ).loc main_arg1)))
    (vecEnt (m ((c : Thread nD τ).loc main_arg2))) (i 0) (i 1)

/-- The masked form at (token a, column o) from the blocks of point `t`, where o = 128 t + r. -/
theorem point_masked (c : Dev nD) (t : Fin cfg0.N) (a : Fin 256) (r : Fin 128) (o : Fin 11008) (ho : o.val = 128 * t.val + r.val) :
    (0 + ∑ k : Fin 4096, matRows (iblk m c 0 t : Vec Ideal S256x4096 .bf16) a k
          * mixed (maskRow (iblk m c 2 t : Vec Ideal S1x4096 .f32)) (maskRow (iblk m c 3 t : Vec Ideal S1x4096 .f32))
              (maskRow (iblk m c 4 t : Vec Ideal S1x4096 .f32)) (matRows (iblk m c 1 t : Vec Ideal S128x4096 .f32) r) k)
        + maskRow (iblk m c 5 t : Vec Ideal S1x128 .f32) r
      = G m c (ix2 a o) := by
  have hw : matRows (iblk m c 1 t : Vec Ideal S128x4096 .f32) r = matRows (m ((c : Thread nD τ).loc main_arg1)) o :=
    funext fun k => (weight_block m c t r o ho k).trans (by rw [V_main_arg1])
  have hx : ∀ k, matRows (iblk m c 0 t : Vec Ideal S256x4096 .bf16) a k
      = mixed (maskRow (V m c main_v19)) (maskRow (V m c main_v23)) (maskRow (V m c main_v27))
          (tokRows (m ((c : Thread nD τ).loc main_arg0)) a) k :=
    fun k => (act_block m c t a k).trans ((HostX.xp_value m c a k).trans (by rw [V_main_arg0]))
  have hb : maskRow (iblk m c 5 t : Vec Ideal S1x128 .f32) r = vecEnt (m ((c : Thread nD τ).loc main_arg2)) o :=
    (bias_block m c t r o ho).trans ((HostX.bias_row m c o).trans (by rw [V_main_arg2]))
  rw [mask_block0, mask_block1, mask_block2, hw, hb]
  simp only [hx]
  rfl

/-! ## What each point writes back, and the array after the last point -/

/-- Point `t` writes block `t` of `G`. -/
theorem flushed_eq (c : Dev nD) (t : Fin cfg0.N) :
    (dats m 0 c).flushed 6 t = ((cfg0.win 6).blk t).view.read (Elt Ideal) (G m c) := by
  obtain ⟨-, -, -, -, -, -, -, -, -, -, -, -, e0, e1⟩ := block_index t
  have ht : t.val < 86 := lt_of_lt_of_eq t.isLt npoints
  show (cfg0.win 6).cut (grid0.coords t) ((dats m 0 c).after 6 t) = _
  rw [after0_6]
  funext j
  show out0_6 (F := Ideal) (iblk m c 0 t) (iblk m c 1 t) (iblk m c 2 t) (iblk m c 3 t) (iblk m c 4 t) (iblk m c 5 t) j
    = G m c (((cfg0.win 6).blk t).view.emb j)
  have hj0 : (j 0).val < 256 := (j 0).isLt
  have hj1 : (j 1).val < 128 := (j 1).isLt
  refine (point_value (iblk m c 0 t) (iblk m c 1 t) (iblk m c 2 t) (iblk m c 3 t) (iblk m c 4 t) (iblk m c 5 t) j).trans ?_
  refine (point_masked m c t (j 0) (j 1) ⟨128 * t.val + (j 1).val, by omega⟩ rfl).trans ?_
  congr 1
  funext d
  apply Fin.ext
  match d with
  | ⟨0, _⟩ => show (j 0).val = win0_6.index t (0 : Fin 2) * 256 + 1 * (j 0).val; omega
  | ⟨1, _⟩ => show 128 * t.val + (j 1).val = win0_6.index t (1 : Fin 2) * 128 + 1 * (j 1).val; omega

/-- An index of the array is in point `t`'s block iff each coordinate is in the block's range on its axis. -/
theorem mem_block (t : Fin cfg0.N) (i : S256x11008.Idx) :
    i ∈ ((cfg0.win 6).blk t).view.set ↔ ∀ a : Fin 2, win0_6.index t a * S256x128.size a ≤ (i a).val
      ∧ (i a).val < win0_6.index t a * S256x128.size a + S256x128.size a := by
  show i ∈ ((View.whole main_v83).slice (win0_6.rect t)).set ↔ _
  rw [View.set_slice_whole, Rect.mem_set_unit]
  exact Iff.rfl

/-- Column `o` lies in the block of point `o / 128`: the 86 blocks of 128 columns fill the 11008 columns. -/
theorem cover (i : S256x11008.Idx) :
    ∃ t : Fin cfg0.N, (cfg0.win 6).flush t = true ∧ i ∈ ((cfg0.win 6).blk t).view.set := by
  have hi0 : (i 0).val < 256 := (i 0).isLt
  have hi1 : (i 1).val < 11008 := (i 1).isLt
  obtain ⟨t, ht⟩ : ∃ t : Fin cfg0.N, t.val = (i 1).val / 128 :=
    ⟨⟨(i 1).val / 128, lt_of_lt_of_eq (by omega) npoints.symm⟩, rfl⟩
  obtain ⟨-, -, -, -, -, -, -, -, -, -, -, -, e0, e1⟩ := block_index t
  refine ⟨t, flush0_6 t, ?_⟩
  rw [mem_block]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 128 ≤ (i 1).val ∧ (i 1).val < win0_6.index t (1 : Fin 2) * 128 + 128; omega

/-- After the last point the [256, 11008] array holds `G`. -/
theorem final (c : Dev nD) : (dats m 0 c).arrAt 6 cfg0.N = G m c :=
  (dats m 0 c).arrAt_eq_of_cover 6 (G m c) (fun t _ => flushed_eq m c t) cover

/-! ## The reshape after the region, and the run -/

/-- The [32, 8, 11008] result is the [256, 11008] array read at token 8·batch + position. -/
theorem tail_value (c : Dev nD) :
    Pipeline.afterTail₀ cfgs (dats m) 0 (V0 m) [hostOps1] c main_v84 = result m c := by
  have e : Pipeline.withArrays (cfgs 0).spec c (V0 m c) (fun w => (dats m 0 c).arrAt w (cfgs 0).N) (Proc.devRef .tc main_v83)
      = G m c :=
    (Pipeline.withArrays_arr spec0 launch0.win.arr_inj c _ _ 6).trans (final m c)
  unfold Pipeline.afterTail₀
  show StableHlo.after hostOps1 _ (Proc.devRef .tc main_v84) = _
  after_results
  funext i
  show shapeCast S32x8x11008 (Pipeline.withArrays (cfgs 0).spec c (V0 m c) (fun w => (dats m 0 c).arrAt w (cfgs 0).N)
      (Proc.devRef .tc main_v83)) shapeCasts_S256x11008_S32x8x11008 i = result m c i
  rw [e]
  refine (shapeCast_apply (G m c) shapeCasts_S256x11008_S32x8x11008 i (ix2 (tokOf i) (i 2)) ?_).trans rfl
  rw [Shape.rowMajor_val_two, Shape.rowMajor_val_three]
  rfl

theorem kernel_run (ρ : Dev nD → PrngReg) :
    θ_run (defs (F := Ideal)) (onTc (τ := τ) (main (F := Ideal))) ⟨m, fun _ => 0, ρ⟩ (fun r => ∀ c : Dev nD,
      r.2.mem ((c : Thread nD τ).loc main_v84) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h c).2 main_v84 (Pipeline.mem_restRefs_of main_v84 (by decide) (by decide))).trans (tail_value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.lean ====
/-
  A linear layer whose activations and weights are quantised per row at mixed precision: the 4096 input channels
  are reordered by an index vector, and the first 3712 positions are quantised at 4 bits, the next 256 at 6 bits and
  the last 128 at 8 bits, each group with its own per-row step (the group's largest magnitude over the top level 7,
  31 or 127; one where that is zero). An entry is divided by its step, clipped to the levels and rounded to the
  nearest integer, ties to even; the product of a token's row and an output channel's row is the sum over the three
  groups of the integer products scaled by the two steps, plus the bias.

  The reference gathers the channels into the reordered positions and slices the three ranges. The kernel never
  moves a channel: from the index vector it scatters 0, 1, …, 4095 to get each channel's position, turns the
  position into three 0/1 masks, and quantises every row three times, masked to one group each time, so that the
  entries outside the group quantise to zero; the three results are added and ONE product over all 4096 channels is
  taken, the activations prepared before the kernel and the weights inside it, 128 output channels per grid point.

  The two agree when the index vector is a permutation of the channels (each of 0, …, 4095 exactly once: then the
  scatter is the permutation's inverse and a channel's mask is the indicator of its position's range) and every
  activation and weight is a real number (then every step and every quantised entry is a real number, and the steps
  may be pulled out of the sums). Both are what the precondition says. Over the extended reals a change of float
  format is the identity, so the kernel's bf16 operands play no part.

  The frames of the two kernel programs are the generated ones; the reference's frame is its generated run with the
  result dropped; the idealisation rewrote nothing, so there is nothing to preserve.
-/
import proofs.«401570_j6768868459276_1_alg».proof.Defs
import proofs.«401570_j6768868459276_1_alg».proof.Proof.Gen.Kernel
import proofs.«401570_j6768868459276_1_alg».proof.Proof.Gen.Kernel.Skeleton
import proofs.«401570_j6768868459276_1_alg».proof.Proof.Gen.Kernel.Launch
import proofs.«401570_j6768868459276_1_alg».proof.Proof.Gen.Kernel.Points
import proofs.«401570_j6768868459276_1_alg».proof.Proof.Gen.Kernel.Frame
import proofs.«401570_j6768868459276_1_alg».proof.Proof.Gen.KernelIdeal
import proofs.«401570_j6768868459276_1_alg».proof.Proof.Gen.KernelIdeal.Skeleton
import proofs.«401570_j6768868459276_1_alg».proof.Proof.Gen.KernelIdeal.Launch
import proofs.«401570_j6768868459276_1_alg».proof.Proof.Gen.KernelIdeal.Points
import proofs.«401570_j6768868459276_1_alg».proof.Proof.Gen.KernelIdeal.Frame
import proofs.«401570_j6768868459276_1_alg».proof.Proof.Gen.ReferenceIdeal
import proofs.«401570_j6768868459276_1_alg».proof.Proof.Gen.ReferenceIdeal.Run
import proofs.«401570_j6768868459276_1_alg».proof.Proof.Gen.ReferenceIdeal.Read
import proofs.«401570_j6768868459276_1_alg».proof.Proof.Gen.Pre_finite_inputs
import proofs.«401570_j6768868459276_1_alg».proof.Proof.QuantSpec
import proofs.«401570_j6768868459276_1_alg».proof.Proof.Views
import proofs.«401570_j6768868459276_1_alg».proof.Proof.QuantLaw
import proofs.«401570_j6768868459276_1_alg».proof.Proof.PreDecode
import proofs.«401570_j6768868459276_1_alg».proof.Proof.RefValue
import proofs.«401570_j6768868459276_1_alg».proof.Proof.MaskValue
import proofs.«401570_j6768868459276_1_alg».proof.Proof.KernelValue
import Idealize.ShloMosaic.Adequacy
import Idealize.ShloMosaic.Init

noncomputable section

namespace Cert.Proof

open Idealize.ShloMosaic Idealize.ShloMosaic.TcCoe Idealize.SL.Sem Cert.QSpec

theorem frame_kernel [Cert.Pre_finite_inputs.Facts] : Cert.frame_Kernel (hKernel := Cert.Kernel.Gen.facts) :=
  fun m ρ _ => Cert.Kernel.Gen.frame m ρ

theorem frame_kernelIdeal [Cert.Pre_finite_inputs.Facts] : Cert.frame_KernelIdeal (hKernelIdeal := Cert.KernelIdeal.Gen.facts) :=
  fun m ρ _ => Cert.KernelIdeal.Gen.frame m ρ

/-- The reference has no kernel: its frame is its run with the result forgotten. -/
theorem frame_referenceIdeal [Cert.Pre_finite_inputs.Facts] :
    Cert.frame_ReferenceIdeal (hReferenceIdeal := Cert.ReferenceIdeal.Gen.facts) :=
  fun m ρ _ => (θ_run Cert.ReferenceIdeal.defs _ _).mono (fun _ h c => (h c).2)
    (Cert.ReferenceIdeal.Value.run (F := Ideal) m ρ)

/-- The kernel's result array is the masked form of the arguments; the reference's is the gathered form of the same
    arguments; under the precondition the index vector is a permutation π, the kernel's masks are the indicators of the
    three ranges of positions pulled back along π, and the activations and weights are real: the two forms are equal. -/
theorem algebraic [Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' hpre hagree
  refine ⟨fun c => Cert.KernelIdeal.KernelValue.result m c, Cert.KernelIdeal.KernelValue.kernel_run m ρ, ?_⟩
  refine (θ_run Cert.ReferenceIdeal.defs _ _).mono (fun r h c => ⟨(h c).1.trans ?_, (h c).2⟩)
    (Cert.ReferenceIdeal.Value.run (F := Ideal) m' ρ')
  obtain ⟨hx, hW, π, hπ, hidx⟩ := Cert.PreDecode.pre_decode _ _ _ _ (hpre c)
  have hmask := Cert.KernelIdeal.MaskValue.mask_values m c π hπ
    (by rw [Cert.KernelIdeal.Gen.V_main_arg3]; exact hidx)
  rw [Cert.ReferenceIdeal.Read.val_main_v124_eq, (hagree c).1, (hagree c).2.1, (hagree c).2.2.1, (hagree c).2.2.2]
  funext i
  rw [Cert.ReferenceIdeal.RefValue.ref_value _ _ _ _ π hidx i]
  unfold Cert.KernelIdeal.KernelValue.result
  exact (congrFun (congrFun (maskedForm_eq_gatheredForm π hπ _ _ _ (fun p => (hmask p).1) (fun p => (hmask p).2.1)
    (fun p => (hmask p).2.2) _ _ _ (fun t k => hx _) (fun o k => hW _)) (tokOf i)) (i 2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
